-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 8192#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S2048x256 : Shape := ⟨2, ![2048, 256]⟩
abbrev S1x2048 : Shape := ⟨2, ![1, 2048]⟩
abbrev S1024x256 : Shape := ⟨2, ![1024, 256]⟩
abbrev S1024x1 : Shape := ⟨2, ![1024, 1]⟩
abbrev S1024x2048 : Shape := ⟨2, ![1024, 2048]⟩
abbrev S2048x1 : Shape := ⟨2, ![2048, 1]⟩
abbrev S1024x1024 : Shape := ⟨2, ![1024, 1024]⟩
abbrev S1024 : Shape := ⟨1, ![1024]⟩

abbrev nBuf : Space → Nat
  | .hbm => 46
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x256, .f32⟩
  | .hbm, ⟨19, _⟩ => ⟨S8192x256, .f32⟩
  | .hbm, ⟨20, _⟩ => ⟨S8192x256, .bf16⟩
  | .hbm, ⟨21, _⟩ => ⟨S1x8192, .i32⟩
  | .hbm, ⟨22, _⟩ => ⟨S8192x1, .i32⟩
  | .hbm, ⟨23, _⟩ => ⟨S8192x256, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .bf16⟩
  | .hbm, ⟨41, _⟩ => ⟨S8192x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1x2048, .i32⟩
  | .local _ .vmem, ⟨3, _⟩ => ⟨S1x2048, .i32⟩
  | .local _ .vmem, ⟨4, _⟩ => ⟨S1024x256, .f32⟩
  | .local _ .vmem, ⟨5, _⟩ => ⟨S1024x256, .f32⟩
  | .local _ .vmem, ⟨6, _⟩ => ⟨S1024x1, .f32⟩
  | .local _ .vmem, ⟨7, _⟩ => ⟨S1024x1, .f32⟩
  | .local _ .vmem, ⟨8, _⟩ => ⟨S1024x256, .bf16⟩
  | .local _ .vmem, ⟨9, _⟩ => ⟨S1024x256, .bf16⟩
  | .local _ .vmem, ⟨10, _⟩ => ⟨S8192x256, .bf16⟩
  | .local _ .vmem, ⟨11, _⟩ => ⟨S1024x1, .i32⟩
  | .local _ .vmem, ⟨12, _⟩ => ⟨S1024x1, .i32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_v0 : Ref sig .tc := ⟨.hbm, 30, rfl⟩
abbrev main_call2_cst : Ref sig .tc := ⟨.hbm, 31, rfl⟩
abbrev main_call2_v1 : Ref sig .tc := ⟨.hbm, 32, rfl⟩
abbrev main_call2_v2 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond4 (i : grid1.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_14 : BitVec 32 := 0#32
  let v36 : BitVec 1 := Scalar.cmpi .ne v35 c0_i32_14
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S8192 : S_.BroadcastsInDim S8192 (![] : Fin 0 → Fin S8192.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  bcast_S8192_S1x8192_1 : S8192.BroadcastsInDim S1x8192 (![1] : Fin 1 → Fin S1x8192.rank)
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x2048_d0_w32 : S1024x2048.Iotas .tc 32 [0]
  broadcasts_S1x2048_S1024x2048 : S1x2048.Broadcasts S1024x2048
  natLt_1_32 : 1 < 32
  shapeCasts_S1024x256_S1024x256 : S1024x256.ShapeCasts S1024x256
  shapeCasts_S1024x1_S1024x1 : S1024x1.ShapeCasts S1024x1
  iota_S1024x1024_d1_w32 : S1024x1024.Iotas .tc 32 [1]
  broadcasts_S1024x1_S1024x1024 : S1024x1.Broadcasts S1024x1024
  reduces_S1024x1024_S1024 : S1024x1024.Reduces [1] S1024
  shapeCasts_S1024_S1024x1 : S1024.ShapeCasts S1024x1
  iota_S1024x1024_d0_w32 : S1024x1024.Iotas .tc 32 [0]
  reducesTo_S8192x1_S_d0_1 : S8192x1.ReducesTo [0, 1] S_
  dot_S1024x2048_S2048x256_S1024x256_1_0_0_1_n_n_wf : DotDims.WF S1024x2048 S2048x256 S1024x256 [1] [0] [0] [1] [] []
  dot_S1024x2048_S2048x1_S1024x1_1_0_0_1_n_n_wf : DotDims.WF S1024x2048 S2048x1 S1024x1 [1] [0] [0] [1] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .i32 = 32 ∨ (Rect.block (s := S1x8192) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v6) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x1, .i32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192x1, .i32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S256x8192, .f32⟩
  | .hbm, ⟨39, _⟩ => ⟨S8192x8192, .f32⟩
  | .hbm, ⟨40, _⟩ => ⟨S8192x1, .i32⟩
  | .hbm, ⟨41, _⟩ => ⟨S_, .i32⟩
  | .hbm, ⟨42, _⟩ => ⟨S8192x1, .i32⟩
  | .hbm, ⟨43, _⟩ => ⟨S8192x1, .i1⟩
  | .hbm, ⟨44, _⟩ => ⟨S_, .i32⟩
  | .hbm, ⟨45, _⟩ => ⟨S8192x1, .i32⟩
  | .hbm, ⟨46, _⟩ => ⟨S8192x1, .i32⟩
  | .hbm, ⟨47, _⟩ => ⟨S8192x1, .i32⟩
  | .hbm, ⟨48, _⟩ => ⟨S8192x1x1, .i32⟩
  | .hbm, ⟨49, _⟩ => ⟨S1, .i32⟩
  | .hbm, ⟨50, _⟩ => ⟨S_, .i32⟩
  | .hbm, ⟨51, _⟩ => ⟨S8192x1x1, .i32⟩
  | .hbm, ⟨52, _⟩ => ⟨S8192x1x1, .i1⟩
  | .hbm, ⟨53, _⟩ => ⟨S1x1x1, .i32⟩
  | .hbm, ⟨54, _⟩ => ⟨S8192x1x1, .i32⟩
  | .hbm, ⟨55, _⟩ => ⟨S8192x1x1, .i1⟩
  | .hbm, ⟨56, _⟩ => ⟨S8192x1x1, .i1⟩
  | .hbm, ⟨57, _⟩ => ⟨S_, .i1⟩
  | .hbm, ⟨58, _⟩ => ⟨S8192x1, .i1⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192, .f32⟩
  | .hbm, ⟨64, _⟩ => ⟨S8192x8192, .i32⟩
  | .hbm, ⟨65, _⟩ => ⟨S8192x8192, .i32⟩
  | .hbm, ⟨66, _⟩ => ⟨S_, .i32⟩
  | .hbm, ⟨67, _⟩ => ⟨S8192x8192, .i32⟩
  | .hbm, ⟨68, _⟩ => ⟨S8192x8192, .i32⟩
  | .hbm, ⟨69, _⟩ => ⟨S8192x8192, .i1⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_5 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_6 : Ref sig .tc := ⟨.hbm, 75, rfl⟩
abbrev main_v36 : Ref sig .tc := ⟨.hbm, 76, rfl⟩
abbrev main_v37 : Ref sig .tc := ⟨.hbm, 77, rfl⟩
abbrev main_cst_7 : Ref sig .tc := ⟨.hbm, 78, rfl⟩
abbrev main_v38 : Ref sig .tc := ⟨.hbm, 79, rfl⟩
abbrev main_v39 : Ref sig .tc := ⟨.hbm, 80, rfl⟩
abbrev main_call3_cst : Ref sig .tc := ⟨.hbm, 81, rfl⟩
abbrev main_call3_v0 : Ref sig .tc := ⟨.hbm, 82, rfl⟩
abbrev main_v40 : Ref sig .tc := ⟨.hbm, 83, rfl⟩
abbrev main_cst_8 : Ref sig .tc := ⟨.hbm, 84, rfl⟩
abbrev main_v41 : Ref sig .tc := ⟨.hbm, 85, rfl⟩
abbrev main_cst_9 : Ref sig .tc := ⟨.hbm, 86, rfl⟩
abbrev main_v42 : Ref sig .tc := ⟨.hbm, 87, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S_S8192 : S_.BroadcastsInDim S8192 (![] : Fin 0 → Fin S8192.rank)
  transposes_S8192x256_S256x8192_1_0 : S8192x256.Transposes [1, 0] S256x8192
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  scatter_S8192x256_S8192x1_S8192x256_1_0_0_1_wf : ScatterDims.WF S8192x256 S8192x1 S8192x256 [1] [0] [0] 1
  scatter_S8192_S8192x1_S8192_n_0_0_1_wf : ScatterDims.WF S8192 S8192x1 S8192 [] [0] [0] 1
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def scatter_S8192x256_S8192x1_S8192x256_1_0_0_1 : ScatterDims S8192x256 S8192x1 S8192x256 where
  updateWindowDims := [1]
  insertedWindowDims := [0]
  scatterDimsToOperandDims := [0]
  indexVectorDim := 1
  wf := scatter_S8192x256_S8192x1_S8192x256_1_0_0_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.K.R0.lean ====
import proofs.«429809_j15006615733567_3_alg».proof.Proof.Gen.Kernel.Launch
import proofs.«429809_j15006615733567_3_alg».proof.Proof.Gen.Kernel.Skeleton
import proofs.«429809_j15006615733567_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the prototype sums and counts, at the entry contents -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the two output blocks (sums, counts) hold after the body at position n: at a point whose second
    coordinate is zero the one-hot products added to zero, elsewhere added to what the point before left. -/
def acc0 (c : Dev nD) : (n : ℕ) → n < cfg0.N → Vec F S1024x256 .f32 × Vec F S1024x1 .f32
  | 0, hn =>
    (k0_pay4 (grid0.coords ⟨0, hn⟩) (iblk0 V c 0 ⟨0, hn⟩) (iblk0 V c 1 ⟨0, hn⟩) k0_pay1,
      k0_pay5 (grid0.coords ⟨0, hn⟩) (iblk0 V c 1 ⟨0, hn⟩) k0_pay2)
  | n + 1, hn =>
    if h0 : (n + 1) % 4 = 0 then
      (k0_pay4 (grid0.coords ⟨n + 1, hn⟩) (iblk0 V c 0 ⟨n + 1, hn⟩) (iblk0 V c 1 ⟨n + 1, hn⟩) k0_pay1,
        k0_pay5 (grid0.coords ⟨n + 1, hn⟩) (iblk0 V c 1 ⟨n + 1, hn⟩) k0_pay2)
    else
      (k0_pay4 (grid0.coords ⟨n + 1, hn⟩) (iblk0 V c 0 ⟨n + 1, hn⟩) (iblk0 V c 1 ⟨n + 1, hn⟩) (acc0 c n (Nat.lt_of_succ_lt hn)).1,
        k0_pay5 (grid0.coords ⟨n + 1, hn⟩) (iblk0 V c 1 ⟨n + 1, hn⟩) (acc0 c n (Nat.lt_of_succ_lt hn)).2)

theorem acc0_reset (c : Dev nD) (t : Fin cfg0.N) (h : t.val % 4 = 0) :
    acc0 V c t.val t.isLt = (k0_pay4 (grid0.coords t) (iblk0 V c 0 t) (iblk0 V c 1 t) k0_pay1, k0_pay5 (grid0.coords t) (iblk0 V c 1 t) k0_pay2) := by
  obtain ⟨n, hn⟩ := t
  cases n with
  | zero => exact rfl
  | succ n => exact (dif_pos h).trans rfl

theorem acc0_step (c : Dev nD) (t : Fin cfg0.N) (h : ¬ t.val % 4 = 0) :
    acc0 V c t.val t.isLt = (k0_pay4 (grid0.coords t) (iblk0 V c 0 t) (iblk0 V c 1 t) (acc0 V c (t.val - 1) (Nat.lt_of_le_of_lt (Nat.sub_le _ _) t.isLt)).1, k0_pay5 (grid0.coords t) (iblk0 V c 1 t) (acc0 V c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-- The proof data of pipeline 0 on core c: the arrays as the region finds them; after the body at point t
    each input's buffer at its block and the outputs' at the accumulation; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

/-- A store through the whole-shape rectangle at zero offsets, made last, leaves its payload: the buffer then reads
    the payload, whatever it held and whatever the earlier stores were. -/
private theorem read_writes_cons_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

private theorem hz : (![0, 0] : Fin 2 → Nat) = fun _ => 0 := funext fun a => by fin_cases a <;> rfl

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a point whose second coordinate is not zero each output's current staging buffer holds what the body left
    at the point before: the point is not the first and the buffer was not written back between. -/
theorem before0_2_B (c : Dev nD) (t : Fin cfg0.N) (h0 : ¬t.val % 4 = 0) (d) :
    (dat0 V c).before 2 t d = (acc0 V c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3_B (c : Dev nD) (t : Fin cfg0.N) (h0 : ¬t.val % 4 = 0) (d) :
    (dat0 V c).before 3 t d = (acc0 V c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dat0]

/-- The body's reset condition, from the grid coordinates. -/
abbrev cond0 (i : grid0.Coords) : Prop := (Scalar.cmpi .ne (Scalar.extui (Scalar.cmpi .eq (BitVec.ofNat 32 (i 1).val) 0#32)) 0#32) = 1#1
/-- It holds exactly at the points whose second coordinate is zero. -/
theorem hcond0 : ∀ t : Fin cfg0.N, cond0 (grid0.coords t) ↔ t.val % 4 = 0 :=
  (by decide +kernel : ∀ t : Fin grid0.N, cond0 (grid0.coords t) ↔ t.val % 4 = 0)

set_option maxHeartbeats 1000000 in
/-- The body at a point whose second coordinate is zero, on whole staging memrefs, the inputs' at contents x0, x1 and
    the outputs' at anything: it zeroes both outputs, reads them back and adds the one-hot products. -/
theorem sound_kernel0_A (c : Dev nD) (E : Set ℕ) (i : grid0.Coords)
    (arg2 : Memref sig .tc .vmem S2048x256 .bf16) (harg2 : arg2.IsWhole) (arg3 : Memref sig .tc .vmem S1x2048 .i32) (harg3 : arg3.IsWhole)
    (arg4 : Memref sig .tc .vmem S1024x256 .f32) (harg4 : arg4.IsWhole) (arg5 : Memref sig .tc .vmem S1024x1 .f32) (harg5 : arg5.IsWhole)
    (hc : cond0 i) (x0 : Vec F S2048x256 .bf16) (x1 : Vec F S1x2048 .i32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay4 i x0 x1 k0_pay1)
            ∗ owns (c : Thread nD τ) arg5 fullShare (k0_pay5 i x1 k0_pay2)) -∗ K ⟨⟩))
      ⊢ wp frame (wpE (defs₀ (F := F)) Variants.none c none) E (cc0__proto_kernel i arg2 harg2 arg3 harg3 arg4 harg4 arg5 harg5) K := by
  simp only [cc0__proto_kernel_eq_skeleton]; unfold cc0__proto_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_whole _ _ hz _ _ _).trans ?_
    rw [View.readCov_unit_zero (S := S1024x256) _ hz]
    simp only [View.readAt_eq_ld, harg2.read_unread, harg3.read_unread, View.ld_unit_zero (S := S2048x256) hz, View.ld_unit_zero (S := S1x2048) hz]
  iexists _; isplitr
  swap; · iexact H3
  ipureintro
  sl_unfold_run_names
  refine (read_writes_cons_whole _ _ hz _ _ _).trans ?_
  rw [View.readCov_unit_zero (S := S1024x1) _ hz]
  simp only [View.readAt_eq_ld, harg3.read_unread, View.ld_unit_zero (S := S1x2048) hz]

set_option maxHeartbeats 1000000 in
/-- The body at any other point, the outputs' memrefs at their running contents xo2, xo3: it adds the one-hot
    products to what they hold. -/
theorem sound_kernel0_B (c : Dev nD) (E : Set ℕ) (i : grid0.Coords)
    (arg2 : Memref sig .tc .vmem S2048x256 .bf16) (harg2 : arg2.IsWhole) (arg3 : Memref sig .tc .vmem S1x2048 .i32) (harg3 : arg3.IsWhole)
    (arg4 : Memref sig .tc .vmem S1024x256 .f32) (harg4 : arg4.IsWhole) (arg5 : Memref sig .tc .vmem S1024x1 .f32) (harg5 : arg5.IsWhole)
    (hc : ¬cond0 i) (x0 : Vec F S2048x256 .bf16) (x1 : Vec F S1x2048 .i32)
    (xo2 : Vec F S1024x256 .f32) (xo3 : Vec F S1024x1 .f32) (K : PUnit → sProp 𝕄) :
    iprop(owns (c : Thread nD τ) arg2 fullShare x0 ∗ owns (c : Thread nD τ) arg3 fullShare x1
        ∗ owns (c : Thread nD τ) arg4 fullShare xo2 ∗ owns (c : Thread nD τ) arg5 fullShare xo3
        ∗ (iprop(owns (c : Thread nD τ) arg2 fullShare x0 ∗ owns (c : Thread nD τ) arg3 fullShare x1
            ∗ owns (c : Thread nD τ) arg4 fullShare (k0_pay4 i x0 x1 xo2)
            ∗ owns (c : Thread nD τ) arg5 fullShare (k0_pay5 i x1 xo3)) -∗ K ⟨⟩))
      ⊢ wp frame (wpE (defs₀ (F := F)) Variants.none c none) E (cc0__proto_kernel i arg2 harg2 arg3 harg3 arg4 harg4 arg5 harg5) K := by
  simp only [cc0__proto_kernel_eq_skeleton]; unfold cc0__proto_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_whole _ _ hz _ _ _).trans ?_
    simp only [View.readAt_eq_ld, harg2.read_unread, harg3.read_unread, harg4.read_unread, View.ld_unit_zero (S := S2048x256) hz, View.ld_unit_zero (S := S1x2048) hz, View.ld_unit_zero (S := S1024x256) hz]
  iexists _; isplitr
  swap; · iexact H3
  ipureintro
  sl_unfold_run_names
  refine (read_writes_cons_whole _ _ hz _ _ _).trans ?_
  simp only [View.readAt_eq_ld, harg3.read_unread, harg5.read_unread, View.ld_unit_zero (S := S1x2048) hz, View.ld_unit_zero (S := S1024x1) hz]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; the closed form says which case the point is in;
    at a point that does not reset, the outputs hold what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 4 = 0
  · rw [acc0_reset V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0 t).mpr h0) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc0_step V c t h0]
    simp only [before0_2_B V c t h0, before0_3_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0 t).mp h)) (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«429809_j15006615733567_3_alg».proof.Proof.Gen.Kernel.Launch
import proofs.«429809_j15006615733567_3_alg».proof.Proof.Gen.Kernel.Skeleton
import proofs.«429809_j15006615733567_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the margin kernel, pipeline 1) at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident prototype block the body loads at point `t`: the rectangle of extent 1024 x 256 at
    the offsets `k1_off1` of the point, read off window 1's block (spelled `View.ld` of the unit-stride rectangle). -/
def pslab (c : Dev nD) (t : Fin cfg1.N) : Vec F S1024x256 .bf16 :=
  View.ld (iblk1 V c 1 t) (Rect.unit (s := S8192x256) (k1_off1 (grid1.coords t)) S1024x256.size (k1_off1_inb (grid1.coords t)))

/-- One step of the carried pair (running maximum, positive accumulator) at point `t` from the pair before:
    at the first column of a row of the grid both are reset first; the accumulator adds the point's positive
    logits; the maximum takes the point's masked (on the diagonal) or plain (off it) row maximum. -/
def sc1Step (c : Dev nD) (t : Fin cfg1.N) (prev : Vec F S1024x1 .f32 × Vec F S1024x1 .f32) : Vec F S1024x1 .f32 × Vec F S1024x1 .f32 :=
  (if t.val / 8 = t.val % 8 then k1_pay7 (grid1.coords t) (iblk1 V c 0 t) (pslab V c t) (if t.val % 8 = 0 then k1_pay2 else prev.1)
    else k1_pay8 (iblk1 V c 0 t) (pslab V c t) (if t.val % 8 = 0 then k1_pay2 else prev.1),
   k1_pay6 (grid1.coords t) (iblk1 V c 0 t) (pslab V c t) (iblk1 V c 2 t) (if t.val % 8 = 0 then k1_pay3 else prev.2))

/-- What the two carried operands (running maximum, positive accumulator) hold after the body at position `n`. -/
def sc1 (c : Dev nD) : (n : ℕ) → n < cfg1.N → Vec F S1024x1 .f32 × Vec F S1024x1 .f32
  | 0, hn => sc1Step V c ⟨0, hn⟩ (k1_pay2, k1_pay3)
  | n + 1, hn => sc1Step V c ⟨n + 1, hn⟩ (sc1 c n (Nat.lt_of_succ_lt hn))

theorem sc1_eq (c : Dev nD) (t : Fin cfg1.N) (h : t.val ≠ 0) :
    sc1 V c t.val t.isLt = sc1Step V c t (sc1 V c (t.val - 1) (Nat.lt_of_le_of_lt (Nat.sub_le _ _) t.isLt)) := by
  obtain ⟨n, hn⟩ := t
  cases n with
  | zero => exact absurd rfl h
  | succ n => rfl

theorem sc1_zero (c : Dev nD) (t : Fin cfg1.N) (h : t.val = 0) (p : Vec F S1024x1 .f32 × Vec F S1024x1 .f32) :
    sc1 V c t.val t.isLt = sc1Step V c t p := by
  obtain ⟨n, hn⟩ := t
  cases n with
  | zero => unfold sc1 sc1Step; simp only [Nat.zero_mod, if_true]
  | succ n => exact absurd h (Nat.succ_ne_zero n)

theorem sc1_pos_first (c : Dev nD) (t : Fin cfg1.N) (h : t.val % 8 = 0) :
    (sc1 V c t.val t.isLt).2 = k1_pay6 (grid1.coords t) (iblk1 V c 0 t) (pslab V c t) (iblk1 V c 2 t) k1_pay3 := by
  by_cases hz : t.val = 0
  · rw [sc1_zero V c t hz (k1_pay2, k1_pay3)]; unfold sc1Step; simp only [h, if_true]
  · rw [sc1_eq V c t hz]; unfold sc1Step; simp only [h, if_true]

theorem sc1_pos_next (c : Dev nD) (t : Fin cfg1.N) (h : ¬ t.val % 8 = 0) :
    (sc1 V c t.val t.isLt).2 = k1_pay6 (grid1.coords t) (iblk1 V c 0 t) (pslab V c t) (iblk1 V c 2 t) (sc1 V c (t.val - 1) (Nat.lt_of_le_of_lt (Nat.sub_le _ _) t.isLt)).2 := by
  have hz : t.val ≠ 0 := fun e => h (by rw [e])
  rw [sc1_eq V c t hz]; unfold sc1Step; simp only [h, if_false]

theorem sc1_max (c : Dev nD) (t : Fin cfg1.N) :
    (sc1 V c t.val t.isLt).1 = (let prev := if t.val % 8 = 0 then k1_pay2 else (sc1 V c (t.val - 1) (Nat.lt_of_le_of_lt (Nat.sub_le _ _) t.isLt)).1; if t.val / 8 = t.val % 8 then k1_pay7 (grid1.coords t) (iblk1 V c 0 t) (pslab V c t) prev else k1_pay8 (iblk1 V c 0 t) (pslab V c t) prev) := by
  by_cases hz : t.val = 0
  · rw [sc1_zero V c t hz (k1_pay2, k1_pay3)]; unfold sc1Step
    have h8 : t.val % 8 = 0 := by rw [hz]
    simp only [h8, if_true]
  · rw [sc1_eq V c t hz]; unfold sc1Step; rfl

/-! ## The carried operands and the invariant -/

/-- The two scratch operands: whole scoped buffers of the kernel's own. -/
abbrev scM1_0 : Memref sig .tc .vmem S1024x1 .f32 := Memref.whole cc1_scratch0
abbrev scM1_1 : Memref sig .tc .vmem S1024x1 .f32 := Memref.whole cc1_scratch1

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region invariant before position `n`: before the first point the class's (every scoped buffer that is
    no staging buffer of the region at anything, the generator register at some state); afterwards the same with
    the two carried operands at what the point before left in them. -/
def Phi1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
      ∗ owns (c : Thread nD τ) scM1_0 fullShare (sc1 V c n hn).1 ∗ owns (c : Thread nD τ) scM1_1 fullShare (sc1 V c n hn).2) ∗ (∃ r, prngReg c r))

/-- The proof data of pipeline 1 on core `c`: the arrays as the region finds them; after the body each input's
    buffer at its block and the output's at the margin of the carried pair (read only at the last column of a
    row of the grid, where the block is stored and written back); the carried-operand invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (sc1 V c t.val t.isLt).1 (sc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) :
    (dat1 V c).after 3 t = k1_pay1 (sc1 V c t.val t.isLt).1 (sc1 V c t.val t.isLt).2 := by dsimp only [dat1]
theorem after1_3 (c : Dev nD) (t : Fin cfg1.N) (h : t.val % 8 = 7) :
    (dat1 V c).after 3 t = k1_pay1 (sc1 V c t.val t.isLt).1 (sc1 V c t.val t.isLt).2 := after1_3' V c t

/-! ## The body's branch conditions, in closed form over the grid -/

/-- The reset condition of the body (the column coordinate is 0), from the grid coordinates. -/
abbrev cond1_0 (i : grid1.Coords) : Prop := (Scalar.cmpi .ne (Scalar.extui (Scalar.cmpi .eq (BitVec.ofNat 32 (i 1).val) 0#32)) 0#32) = 1#1
/-- The diagonal condition (row coordinate = column coordinate). -/
abbrev cond1_1 (i : grid1.Coords) : Prop := (Scalar.cmpi .ne (Scalar.extui (Scalar.cmpi .eq (BitVec.ofNat 32 (i 0).val) (BitVec.ofNat 32 (i 1).val))) 0#32) = 1#1
/-- The off-diagonal condition (row coordinate ≠ column coordinate). -/
abbrev cond1_2 (i : grid1.Coords) : Prop := (Scalar.cmpi .ne (Scalar.extui (Scalar.cmpi .ne (BitVec.ofNat 32 (i 0).val) (BitVec.ofNat 32 (i 1).val))) 0#32) = 1#1
/-- The final-column condition (the column coordinate is 7). -/
abbrev cond1_3 (i : grid1.Coords) : Prop := k1_cond4 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val / 8 = t.val % 8 :=
  (by decide +kernel : ∀ t : Fin grid1.N, cond1_1 (grid1.coords t) ↔ t.val / 8 = t.val % 8)
theorem hcond1_2 : ∀ t : Fin cfg1.N, cond1_2 (grid1.coords t) ↔ ¬ t.val / 8 = t.val % 8 :=
  (by decide +kernel : ∀ t : Fin grid1.N, cond1_2 (grid1.coords t) ↔ ¬ t.val / 8 = t.val % 8)
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬ t.val % 8 = 7 → cfg1.idle 3 (grid1.coords t) = true := by decide +kernel
theorem noFlush1_3 : ∀ t : Fin cfg1.N, ¬ t.val % 8 = 7 → (cfg1.win 3).flush t = false := by decide +kernel
theorem liveAt1_3 : ∀ t : Fin cfg1.N, t.val % 8 = 7 → cfg1.idle 3 (grid1.coords t) = false := by decide +kernel

/-! ## Whole-buffer loads and stores -/

theorem off00 : (![0, 0] : Fin 2 → Nat) = fun _ => 0 := by funext a; fin_cases a <;> rfl

section Whole
variable {sg : RefSig} {κ : Kind} {sp : Space} {S : Shape} {e : EltTy} {Val : EltTy → Type} [∀ e, Nonempty (Val e)]

/-- A whole-shape store, last, leaves its payload whatever came before. -/
theorem read_writes_cons_unit_zero (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A whole-shape load after a whole-shape store reads the payload. -/
theorem readCov_cons_unit_zero (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A whole-shape load of a whole memref at contents read `x` reads `x`. -/
theorem readAt_unit_zero {m : Memref sg κ sp S e} (hm : m.IsWhole) {off : Fin S.rank → Nat} (h : off = fun _ => 0)
    (inb : ∀ a, off a + S.size a ≤ S.size a) (x : S.Idx → Val e) :
    m.view.readAt Val (Rect.unit off S.size inb).toLoadRect (hm.unread x) = x := by
  rw [View.readAt_eq_ld, hm.read_unread]; exact View.ld_unit_zero h inb x

/-- A load through a rectangle of a whole memref at contents read `x` reads `x` at the rectangle. -/
theorem readAt_unread {m : Memref sg κ sp S e} (hm : m.IsWhole) (r : Rect S) (x : S.Idx → Val e) :
    m.view.readAt Val r.toLoadRect (hm.unread x) = View.ld x r := by
  rw [View.readAt_eq_ld, hm.read_unread]
end Whole

/-! ## The invariant, opened -/

/-- The class's invariant with the two carried operands as memrefs owned at some contents. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
      ∗ owns (c : Thread nD τ) scM1_0 fullShare (sc1 V c n hn).1 ∗ owns (c : Thread nD τ) scM1_1 fullShare (sc1 V c n hn).2) ∗ (∃ r, prngReg c r)) := rfl

theorem Phi1_pos (c : Dev nD) (n : ℕ) (h : n ≤ cfg1.N) (hz : n ≠ 0) :
    Phi1 V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
      ∗ owns (c : Thread nD τ) scM1_0 fullShare (sc1 V c (n - 1) (by omega)).1 ∗ owns (c : Thread nD τ) scM1_1 fullShare (sc1 V c (n - 1) (by omega)).2) ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## What the inputs' staging buffers hold -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The carried pair, case by case -/

theorem sc1_max_first_diag (c : Dev nD) (t : Fin cfg1.N) (h0 : t.val % 8 = 0) (h1 : t.val / 8 = t.val % 8) :
    (sc1 V c t.val t.isLt).1 = k1_pay7 (grid1.coords t) (iblk1 V c 0 t) (pslab V c t) k1_pay2 := by
  rw [sc1_max]; dsimp only; rw [if_pos h1, if_pos h0]
theorem sc1_max_first_off (c : Dev nD) (t : Fin cfg1.N) (h0 : t.val % 8 = 0) (h1 : ¬ t.val / 8 = t.val % 8) :
    (sc1 V c t.val t.isLt).1 = k1_pay8 (iblk1 V c 0 t) (pslab V c t) k1_pay2 := by
  rw [sc1_max]; dsimp only; rw [if_neg h1, if_pos h0]
theorem sc1_max_next_diag (c : Dev nD) (t : Fin cfg1.N) (h0 : ¬ t.val % 8 = 0) (h1 : t.val / 8 = t.val % 8) :
    (sc1 V c t.val t.isLt).1 = k1_pay7 (grid1.coords t) (iblk1 V c 0 t) (pslab V c t) (sc1 V c (t.val - 1) (Nat.lt_of_le_of_lt (Nat.sub_le _ _) t.isLt)).1 := by
  rw [sc1_max]; dsimp only; rw [if_pos h1, if_neg h0]
theorem sc1_max_next_off (c : Dev nD) (t : Fin cfg1.N) (h0 : ¬ t.val % 8 = 0) (h1 : ¬ t.val / 8 = t.val % 8) :
    (sc1 V c t.val t.isLt).1 = k1_pay8 (iblk1 V c 0 t) (pslab V c t) (sc1 V c (t.val - 1) (Nat.lt_of_le_of_lt (Nat.sub_le _ _) t.isLt)).1 := by
  rw [sc1_max]; dsimp only; rw [if_neg h1, if_neg h0]

/-! ## The body's triple, case by case -/

/-- The rectangle of the resident block the body loads at grid coordinates `i`. -/
abbrev rP (i : grid1.Coords) : Rect S8192x256 := Rect.unit (s := S8192x256) (k1_off1 i) S1024x256.size (k1_off1_inb i)

set_option maxHeartbeats 1000000 in
/-- The kernel body on whole memrefs in the case first column, on the diagonal, not the last column: the inputs stay,
    the carried pair ends at the step's values, the output block is untouched. -/
theorem run1_FD (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond1_0 i) (hc1 : cond1_1 i) (hc2 : ¬cond1_2 i) (hc3 : ¬cond1_3 i)
    (x0 : Vec F S1024x256 .bf16) (x1 : Vec F S8192x256 .bf16) (x2 : Vec F S1024x1 .i32) (y3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay7 i x0 (View.ld x1 (rP i)) k1_pay2)
            ∗ owns (c : Thread nD τ) arg7 fullShare (k1_pay6 i x0 (View.ld x1 (rP i)) x2 k1_pay3)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    (repeat delta run1_FD.sl.v45 run1_FD.sl.HS0_1 run1_FD.sl.v23 run1_FD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_FD.sl.v45 run1_FD.sl.HS0_1 run1_FD.sl.v23 run1_FD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case first column, off the diagonal, not the last column: the inputs stay,
    the carried pair ends at the step's values, the output block is untouched. -/
theorem run1_FO (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond1_0 i) (hc1 : ¬cond1_1 i) (hc2 : cond1_2 i) (hc3 : ¬cond1_3 i)
    (x0 : Vec F S1024x256 .bf16) (x1 : Vec F S8192x256 .bf16) (x2 : Vec F S1024x1 .i32) (y3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay8 x0 (View.ld x1 (rP i)) k1_pay2)
            ∗ owns (c : Thread nD τ) arg7 fullShare (k1_pay6 i x0 (View.ld x1 (rP i)) x2 k1_pay3)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    (repeat delta run1_FO.sl.v37 run1_FO.sl.HS0_1 run1_FO.sl.v23 run1_FO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_FO.sl.v37 run1_FO.sl.HS0_1 run1_FO.sl.v23 run1_FO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, on the diagonal, not the last column: the inputs stay,
    the carried pair ends at the step's values, the output block is untouched. -/
theorem run1_MD (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : cond1_1 i) (hc2 : ¬cond1_2 i) (hc3 : ¬cond1_3 i)
    (x0 : Vec F S1024x256 .bf16) (x1 : Vec F S8192x256 .bf16) (x2 : Vec F S1024x1 .i32) (y3 : Vec F S1024x1 .f32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay7 i x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, off the diagonal, not the last column: the inputs stay,
    the carried pair ends at the step's values, the output block is untouched. -/
theorem run1_MO (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : ¬cond1_1 i) (hc2 : cond1_2 i) (hc3 : ¬cond1_3 i)
    (x0 : Vec F S1024x256 .bf16) (x1 : Vec F S8192x256 .bf16) (x2 : Vec F S1024x1 .i32) (y3 : Vec F S1024x1 .f32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay8 x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, on the diagonal, last column: the inputs stay,
    the carried pair ends at the step's values, the output block at their margin. -/
theorem run1_LD (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : cond1_1 i) (hc2 : ¬cond1_2 i) (hc3 : cond1_3 i)
    (x0 : Vec F S1024x256 .bf16) (x1 : Vec F S8192x256 .bf16) (x2 : Vec F S1024x1 .i32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (k1_pay7 i x0 (View.ld x1 (rP i)) pm) (k1_pay6 i x0 (View.ld x1 (rP i)) x2 pp))
            ∗ owns (c : Thread nD τ) arg6 fullShare (k1_pay7 i x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (repeat delta run1_LD.sl.v37 run1_LD.sl.v38 run1_LD.sl.HS0_1 run1_LD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  isplitl [HS0]
  · iexists _; isplitr
    swap; · iexact HS0
    ipureintro
    (repeat delta run1_LD.sl.v37 run1_LD.sl.v38 run1_LD.sl.HS0_1 run1_LD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_LD.sl.v37 run1_LD.sl.v38 run1_LD.sl.HS0_1 run1_LD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, off the diagonal, last column: the inputs stay,
    the carried pair ends at the step's values, the output block at their margin. -/
theorem run1_LO (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : ¬cond1_1 i) (hc2 : cond1_2 i) (hc3 : cond1_3 i)
    (x0 : Vec F S1024x256 .bf16) (x1 : Vec F S8192x256 .bf16) (x2 : Vec F S1024x1 .i32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (k1_pay8 x0 (View.ld x1 (rP i)) pm) (k1_pay6 i x0 (View.ld x1 (rP i)) x2 pp))
            ∗ owns (c : Thread nD τ) arg6 fullShare (k1_pay8 x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (repeat delta run1_LO.sl.v37 run1_LO.sl.v38 run1_LO.sl.HS0_1 run1_LO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  isplitl [HS0]
  · iexists _; isplitr
    swap; · iexact HS0
    ipureintro
    (repeat delta run1_LO.sl.v37 run1_LO.sl.v38 run1_LO.sl.HS0_1 run1_LO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_LO.sl.v37 run1_LO.sl.v38 run1_LO.sl.HS0_1 run1_LO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

/-! ## The body obligation, at a generic point -/

/-- Each window's current staging memref at point `t`, as the pipeline passes it. -/
abbrev ms1_0 (t : Fin cfg1.N) : Memref sig .tc .vmem S1024x256 .bf16 := win1_0.stage (cfg1.slots t 0)
abbrev ms1_1 (t : Fin cfg1.N) : Memref sig .tc .vmem S8192x256 .bf16 := win1_1.stage (cfg1.slots t 1)
abbrev ms1_2 (t : Fin cfg1.N) : Memref sig .tc .vmem S1024x1 .i32 := win1_2.stage (cfg1.slots t 2)
abbrev ms1_3 (t : Fin cfg1.N) : Memref sig .tc .vmem S1024x1 .f32 := win1_3.stage (cfg1.slots t 3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the carried pair at what the point before left (at anything at the first
    point) and takes it back at this point's; the output block is stored at the last column of a row and left
    as found elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h3 : ¬ t.val % 8 = 7 := by omega
    by_cases h1 : t.val / 8 = t.val % 8
    · by_cases hz : t.val = 0
      · rw [Dat.leavesExact_idle (dat1 V c) 3 t (idleAt1_3 t h3) (noFlush1_3 t h3)]
        rw [sc1_max_first_diag V c t h0 h1, sc1_pos_first V c t h0]
        unfold pslab
        rw [Phi1_castSucc V c t, Phi1_zero V c _ _ hz, PhiA1_eq]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_FD c (grid1.coords t) Set.univ _ _ _ _ _ _ _ _ _ _ _ _ ((hcond1_0 t).mpr h0) ((hcond1_1 t).mpr h1) (fun h => ((hcond1_2 t).mp h) h1) ((hcond1_3 t).not.mpr h3) (iblk1 V c 0 t) (iblk1 V c 1 t) (iblk1 V c 2 t) _ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
      · rw [Dat.leavesExact_idle (dat1 V c) 3 t (idleAt1_3 t h3) (noFlush1_3 t h3)]
        rw [sc1_max_first_diag V c t h0 h1, sc1_pos_first V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_FD c (grid1.coords t) Set.univ _ _ _ _ _ _ _ _ _ _ _ _ ((hcond1_0 t).mpr h0) ((hcond1_1 t).mpr h1) (fun h => ((hcond1_2 t).mp h) h1) ((hcond1_3 t).not.mpr h3) (iblk1 V c 0 t) (iblk1 V c 1 t) (iblk1 V c 2 t) _ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
    · by_cases hz : t.val = 0
      · exfalso; exact h1 (by rw [hz])
      · rw [Dat.leavesExact_idle (dat1 V c) 3 t (idleAt1_3 t h3) (noFlush1_3 t h3)]
        rw [sc1_max_first_off V c t h0 h1, sc1_pos_first V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_FO c (grid1.coords t) Set.univ _ _ _ _ _ _ _ _ _ _ _ _ ((hcond1_0 t).mpr h0) ((hcond1_1 t).not.mpr h1) ((hcond1_2 t).mpr h1) ((hcond1_3 t).not.mpr h3) (iblk1 V c 0 t) (iblk1 V c 1 t) (iblk1 V c 2 t) _ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h3 : t.val % 8 = 7
    · by_cases h1 : t.val / 8 = t.val % 8
      · rw [show (dat1 V c).leavesExact 3 t = owns (c : Thread nD τ) (ms1_3 t) fullShare ((dat1 V c).after 3 t) from by
          unfold Dat.leavesExact; rw [liveAt1_3 t h3], after1_3']
        rw [sc1_max_next_diag V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_LD c (grid1.coords t) Set.univ _ _ _ _ _ _ _ _ _ _ _ _ ((hcond1_0 t).not.mpr h0) ((hcond1_1 t).mpr h1) (fun h => ((hcond1_2 t).mp h) h1) ((hcond1_3 t).mpr h3) (iblk1 V c 0 t) (iblk1 V c 1 t) (iblk1 V c 2 t) _ _ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexact H3
      · rw [show (dat1 V c).leavesExact 3 t = owns (c : Thread nD τ) (ms1_3 t) fullShare ((dat1 V c).after 3 t) from by
          unfold Dat.leavesExact; rw [liveAt1_3 t h3], after1_3']
        rw [sc1_max_next_off V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_LO c (grid1.coords t) Set.univ _ _ _ _ _ _ _ _ _ _ _ _ ((hcond1_0 t).not.mpr h0) ((hcond1_1 t).not.mpr h1) ((hcond1_2 t).mpr h1) ((hcond1_3 t).mpr h3) (iblk1 V c 0 t) (iblk1 V c 1 t) (iblk1 V c 2 t) _ _ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexact H3
    · by_cases h1 : t.val / 8 = t.val % 8
      · rw [Dat.leavesExact_idle (dat1 V c) 3 t (idleAt1_3 t h3) (noFlush1_3 t h3)]
        rw [sc1_max_next_diag V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_MD c (grid1.coords t) Set.univ _ _ _ _ _ _ _ _ _ _ _ _ ((hcond1_0 t).not.mpr h0) ((hcond1_1 t).mpr h1) (fun h => ((hcond1_2 t).mp h) h1) ((hcond1_3 t).not.mpr h3) (iblk1 V c 0 t) (iblk1 V c 1 t) (iblk1 V c 2 t) _ _ _ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
      · rw [Dat.leavesExact_idle (dat1 V c) 3 t (idleAt1_3 t h3) (noFlush1_3 t h3)]
        rw [sc1_max_next_off V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_MO c (grid1.coords t) Set.univ _ _ _ _ _ _ _ _ _ _ _ _ ((hcond1_0 t).not.mpr h0) ((hcond1_1 t).not.mpr h1) ((hcond1_2 t).mpr h1) ((hcond1_3 t).not.mpr h3) (iblk1 V c 0 t) (iblk1 V c 1 t) (iblk1 V c 2 t) _ _ _ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the carried pair's contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨A1, A2, A3, A4, A5, A6, A7, A8, HS0, HS1⟩, Hg⟩
  isplitl [A1 A2 A3 A4 A5 A6 A7 A8 HS0 HS1]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi1_out V c _ (by rw [Fin.val_last]; have : cfg1.N = 64 := N_1; omega)

end Cert.Kernel.Hand

end
-- ==== Proof.K.Run.lean ====
import proofs.«429809_j15006615733567_3_alg».proof.Proof.Gen.Kernel.Launch
import proofs.«429809_j15006615733567_3_alg».proof.Proof.Gen.Kernel.Skeleton
import proofs.«429809_j15006615733567_3_alg».proof.Proof.Gen.Kernel.Points
import proofs.«429809_j15006615733567_3_alg».proof.Proof.Gen.Kernel.Regions
import proofs.«429809_j15006615733567_3_alg».proof.Proof.K.R0
import proofs.«429809_j15006615733567_3_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its ten items as segments, from the launch to the return

## The buffers' contents at each boundary between two items -/

/-- Core `c`'s buffers at launch. -/
abbrev W0 : Dev nD → Valuation τ sig (Elt F) := fun c b => (s₀ m ρ).mem ((c : Dev nD), b)
/-- After the two label bounds are written. -/
abbrev W1 : Dev nD → Valuation τ sig (Elt F) := fun c => StableHlo.after hostOps0 (W0 m ρ c)
/-- After the labels are clipped. -/
abbrev W2 : Dev nD → Valuation τ sig (Elt F) := fun c => StableHlo.after hostOps0_1 (W1 m ρ c)
/-- After the rows' norms are taken. -/
abbrev W3 : Dev nD → Valuation τ sig (Elt F) := fun c => StableHlo.after hostOps0_2 (W2 m ρ c)
/-- After the rows are normalized and the labels laid out as a row and as a column: region 0's entry. -/
abbrev W4 : Dev nD → Valuation τ sig (Elt F) := fun c => StableHlo.after hostOps0_3 (W3 m ρ c)
/-- The same read at the TensorCore's references (what region 0's proof data take). -/
abbrev V4 : (c : Dev nD) → (b : Ref sig .tc) → Buf (Elt F) ((c : Thread nD τ).loc b) := fun c b => W4 m ρ c b
/-- At region 0's exit: its arrays at what the pipeline leaves (the inputs as entered, each output's write-backs
    folded), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references (region 0's exit contents). -/
abbrev V5 : (c : Dev nD) → (b : Ref sig .tc) → Buf (Elt F) ((c : Thread nD τ).loc b) := fun c b => W5 m ρ c b
/-- At region 0's exit each of its arrays holds what the pipeline leaves, and every other buffer what it held at
    entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the sums are divided by the clamped counts. -/
abbrev W6 : Dev nD → Valuation τ sig (Elt F) := fun c => StableHlo.after hostOps1 (W5 m ρ c)
/-- After the prototypes' norms are taken. -/
abbrev W7 : Dev nD → Valuation τ sig (Elt F) := fun c => StableHlo.after hostOps1_1 (W6 m ρ c)
/-- After the prototypes are normalized: region 1's entry. -/
abbrev W8 : Dev nD → Valuation τ sig (Elt F) := fun c => StableHlo.after hostOps1_2 (W7 m ρ c)
/-- The same read at the TensorCore's references (what region 1's proof data take). -/
abbrev V8 : (c : Dev nD) → (b : Ref sig .tc) → Buf (Elt F) ((c : Thread nD τ).loc b) := fun c b => W8 m ρ c b
/-- At region 1's exit: its arrays at what the pipeline leaves, every other buffer as entered. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- The same read at the TensorCore's references (region 1's exit contents). -/
abbrev V9 : (c : Dev nD) → (b : Ref sig .tc) → Buf (Elt F) ((c : Thread nD τ).loc b) := fun c b => W9 m ρ c b
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-- After the mean is taken: the contents @main returns with. -/
abbrev W10 : Dev nD → Valuation τ sig (Elt F) := fun c => StableHlo.after hostOps2 (W9 m ρ c)

/-! ### The arguments end as launched: no host operation writes one and neither region has one among its arrays, so
    the fold at an argument's buffer walks back to the launch memory -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps2 _ hostOps2_writes (by decide)
    _ = W8 m ρ c (Proc.devRef .tc main_arg0) := W9_of_ne m ρ c main_arg0 (by decide)
    _ = W7 m ρ c (Proc.devRef .tc main_arg0) := StableHlo.after_of_writes_sub hostOps1_2 _ hostOps1_2_writes (by decide)
    _ = W6 m ρ c (Proc.devRef .tc main_arg0) := StableHlo.after_of_writes_sub hostOps1_1 _ hostOps1_1_writes (by decide)
    _ = W5 m ρ c (Proc.devRef .tc main_arg0) := StableHlo.after_of_writes_sub hostOps1 _ hostOps1_writes (by decide)
    _ = W4 m ρ c (Proc.devRef .tc main_arg0) := W5_of_ne m ρ c main_arg0 (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps2 _ hostOps2_writes (by decide)
    _ = W8 m ρ c (Proc.devRef .tc main_arg1) := W9_of_ne m ρ c main_arg1 (by decide)
    _ = W7 m ρ c (Proc.devRef .tc main_arg1) := StableHlo.after_of_writes_sub hostOps1_2 _ hostOps1_2_writes (by decide)
    _ = W6 m ρ c (Proc.devRef .tc main_arg1) := StableHlo.after_of_writes_sub hostOps1_1 _ hostOps1_1_writes (by decide)
    _ = W5 m ρ c (Proc.devRef .tc main_arg1) := StableHlo.after_of_writes_sub hostOps1 _ hostOps1_writes (by decide)
    _ = W4 m ρ c (Proc.devRef .tc main_arg1) := W5_of_ne m ρ c main_arg1 (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 of @main over the thread state: entered from every unscoped buffer at `W4`, left at `W5`. Its arrays
    are split out of the unscoped buffers at entry and put back at the exit contents; the generator register goes into
    the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun w => A_eq0 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 of @main over the thread state: entered from every unscoped buffer at `W8`, left at `W9`. Its arrays
    are split out of the unscoped buffers at entry and put back at the exit contents; the generator register goes into
    the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun w => A_eq1 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V8 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (V8 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .region (reg1 m ρ),
    .host (hseg hostOps2 hostOps2_sub hostOps2_fresh (W9 m ρ)) ]
/-- @main is the run of the segments. -/
theorem main_run (c : Dev nD) : main (F := F) c = Pipeline.Seg.run (segs m ρ) := (main_chain c).trans (by chain_rfl)

set_option backward.isDefEq.respectTransparency.types false in
/-- The launch over the segments, at any post that follows from every unscoped buffer's final contents: from any
    memory with zero counters every weakly fair execution of @main on the TensorCores terminates, nothing faulting,
    and in every final state each unscoped buffer of each core holds the last boundary's contents. -/
theorem run_kit {Q : PUnit × MemSt nD τ sig (Elt F) → Prop}
    (hQ : ∀ s : MemSt nD τ sig (Elt F), (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => show iprop(StableHlo.held (c : Thread nD τ) (Pipeline.ucRefs τ sig) (W10 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- THE RUN: every weakly fair execution of @main from memory `m` with zero counters terminates, nothing faulting, and
    every final state has each unscoped buffer of each core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  run_kit m ρ fun s h => h

/-- THE FRAME: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_kit m ρ fun s h c =>
    ⟨(h c _ (mem_uc main_arg0 (by decide))).trans (W10_main_arg0 m ρ c),
     (h c _ (mem_uc main_arg1 (by decide))).trans (W10_main_arg1 m ρ c)⟩

end Cert.Kernel.Hand

end
-- ==== Proof.KI.R0.lean ====
import proofs.«429809_j15006615733567_3_alg».proof.Proof.Gen.KernelIdeal.Launch
import proofs.«429809_j15006615733567_3_alg».proof.Proof.Gen.KernelIdeal.Skeleton
import proofs.«429809_j15006615733567_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the prototype sums and counts, at the entry contents -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the two output blocks (sums, counts) hold after the body at position n: at a point whose second
    coordinate is zero the one-hot products added to zero, elsewhere added to what the point before left. -/
def acc0 (c : Dev nD) : (n : ℕ) → n < cfg0.N → Vec F S1024x256 .f32 × Vec F S1024x1 .f32
  | 0, hn =>
    (k0_pay4 (grid0.coords ⟨0, hn⟩) (iblk0 V c 0 ⟨0, hn⟩) (iblk0 V c 1 ⟨0, hn⟩) k0_pay1,
      k0_pay5 (grid0.coords ⟨0, hn⟩) (iblk0 V c 1 ⟨0, hn⟩) k0_pay2)
  | n + 1, hn =>
    if h0 : (n + 1) % 4 = 0 then
      (k0_pay4 (grid0.coords ⟨n + 1, hn⟩) (iblk0 V c 0 ⟨n + 1, hn⟩) (iblk0 V c 1 ⟨n + 1, hn⟩) k0_pay1,
        k0_pay5 (grid0.coords ⟨n + 1, hn⟩) (iblk0 V c 1 ⟨n + 1, hn⟩) k0_pay2)
    else
      (k0_pay4 (grid0.coords ⟨n + 1, hn⟩) (iblk0 V c 0 ⟨n + 1, hn⟩) (iblk0 V c 1 ⟨n + 1, hn⟩) (acc0 c n (Nat.lt_of_succ_lt hn)).1,
        k0_pay5 (grid0.coords ⟨n + 1, hn⟩) (iblk0 V c 1 ⟨n + 1, hn⟩) (acc0 c n (Nat.lt_of_succ_lt hn)).2)

theorem acc0_reset (c : Dev nD) (t : Fin cfg0.N) (h : t.val % 4 = 0) :
    acc0 V c t.val t.isLt = (k0_pay4 (grid0.coords t) (iblk0 V c 0 t) (iblk0 V c 1 t) k0_pay1, k0_pay5 (grid0.coords t) (iblk0 V c 1 t) k0_pay2) := by
  obtain ⟨n, hn⟩ := t
  cases n with
  | zero => exact rfl
  | succ n => exact (dif_pos h).trans rfl

theorem acc0_step (c : Dev nD) (t : Fin cfg0.N) (h : ¬ t.val % 4 = 0) :
    acc0 V c t.val t.isLt = (k0_pay4 (grid0.coords t) (iblk0 V c 0 t) (iblk0 V c 1 t) (acc0 V c (t.val - 1) (Nat.lt_of_le_of_lt (Nat.sub_le _ _) t.isLt)).1, k0_pay5 (grid0.coords t) (iblk0 V c 1 t) (acc0 V c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-- The proof data of pipeline 0 on core c: the arrays as the region finds them; after the body at point t
    each input's buffer at its block and the outputs' at the accumulation; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

/-- A store through the whole-shape rectangle at zero offsets, made last, leaves its payload: the buffer then reads
    the payload, whatever it held and whatever the earlier stores were. -/
private theorem read_writes_cons_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

private theorem hz : (![0, 0] : Fin 2 → Nat) = fun _ => 0 := funext fun a => by fin_cases a <;> rfl

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At a point whose second coordinate is not zero each output's current staging buffer holds what the body left
    at the point before: the point is not the first and the buffer was not written back between. -/
theorem before0_2_B (c : Dev nD) (t : Fin cfg0.N) (h0 : ¬t.val % 4 = 0) (d) :
    (dat0 V c).before 2 t d = (acc0 V c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3_B (c : Dev nD) (t : Fin cfg0.N) (h0 : ¬t.val % 4 = 0) (d) :
    (dat0 V c).before 3 t d = (acc0 V c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dat0]

/-- The body's reset condition, from the grid coordinates. -/
abbrev cond0 (i : grid0.Coords) : Prop := (Scalar.cmpi .ne (Scalar.extui (Scalar.cmpi .eq (BitVec.ofNat 32 (i 1).val) 0#32)) 0#32) = 1#1
/-- It holds exactly at the points whose second coordinate is zero. -/
theorem hcond0 : ∀ t : Fin cfg0.N, cond0 (grid0.coords t) ↔ t.val % 4 = 0 :=
  (by decide +kernel : ∀ t : Fin grid0.N, cond0 (grid0.coords t) ↔ t.val % 4 = 0)

set_option maxHeartbeats 1000000 in
/-- The body at a point whose second coordinate is zero, on whole staging memrefs, the inputs' at contents x0, x1 and
    the outputs' at anything: it zeroes both outputs, reads them back and adds the one-hot products. -/
theorem sound_kernel0_A (c : Dev nD) (E : Set ℕ) (i : grid0.Coords)
    (arg2 : Memref sig .tc .vmem S2048x256 .bf16) (harg2 : arg2.IsWhole) (arg3 : Memref sig .tc .vmem S1x2048 .i32) (harg3 : arg3.IsWhole)
    (arg4 : Memref sig .tc .vmem S1024x256 .f32) (harg4 : arg4.IsWhole) (arg5 : Memref sig .tc .vmem S1024x1 .f32) (harg5 : arg5.IsWhole)
    (hc : cond0 i) (x0 : Vec F S2048x256 .bf16) (x1 : Vec F S1x2048 .i32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay4 i x0 x1 k0_pay1)
            ∗ owns (c : Thread nD τ) arg5 fullShare (k0_pay5 i x1 k0_pay2)) -∗ K ⟨⟩))
      ⊢ wp frame (wpE (defs₀ (F := F)) Variants.none c none) E (cc0__proto_kernel i arg2 harg2 arg3 harg3 arg4 harg4 arg5 harg5) K := by
  simp only [cc0__proto_kernel_eq_skeleton]; unfold cc0__proto_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_whole _ _ hz _ _ _).trans ?_
    rw [View.readCov_unit_zero (S := S1024x256) _ hz]
    simp only [View.readAt_eq_ld, harg2.read_unread, harg3.read_unread, View.ld_unit_zero (S := S2048x256) hz, View.ld_unit_zero (S := S1x2048) hz]
  iexists _; isplitr
  swap; · iexact H3
  ipureintro
  sl_unfold_run_names
  refine (read_writes_cons_whole _ _ hz _ _ _).trans ?_
  rw [View.readCov_unit_zero (S := S1024x1) _ hz]
  simp only [View.readAt_eq_ld, harg3.read_unread, View.ld_unit_zero (S := S1x2048) hz]

set_option maxHeartbeats 1000000 in
/-- The body at any other point, the outputs' memrefs at their running contents xo2, xo3: it adds the one-hot
    products to what they hold. -/
theorem sound_kernel0_B (c : Dev nD) (E : Set ℕ) (i : grid0.Coords)
    (arg2 : Memref sig .tc .vmem S2048x256 .bf16) (harg2 : arg2.IsWhole) (arg3 : Memref sig .tc .vmem S1x2048 .i32) (harg3 : arg3.IsWhole)
    (arg4 : Memref sig .tc .vmem S1024x256 .f32) (harg4 : arg4.IsWhole) (arg5 : Memref sig .tc .vmem S1024x1 .f32) (harg5 : arg5.IsWhole)
    (hc : ¬cond0 i) (x0 : Vec F S2048x256 .bf16) (x1 : Vec F S1x2048 .i32)
    (xo2 : Vec F S1024x256 .f32) (xo3 : Vec F S1024x1 .f32) (K : PUnit → sProp 𝕄) :
    iprop(owns (c : Thread nD τ) arg2 fullShare x0 ∗ owns (c : Thread nD τ) arg3 fullShare x1
        ∗ owns (c : Thread nD τ) arg4 fullShare xo2 ∗ owns (c : Thread nD τ) arg5 fullShare xo3
        ∗ (iprop(owns (c : Thread nD τ) arg2 fullShare x0 ∗ owns (c : Thread nD τ) arg3 fullShare x1
            ∗ owns (c : Thread nD τ) arg4 fullShare (k0_pay4 i x0 x1 xo2)
            ∗ owns (c : Thread nD τ) arg5 fullShare (k0_pay5 i x1 xo3)) -∗ K ⟨⟩))
      ⊢ wp frame (wpE (defs₀ (F := F)) Variants.none c none) E (cc0__proto_kernel i arg2 harg2 arg3 harg3 arg4 harg4 arg5 harg5) K := by
  simp only [cc0__proto_kernel_eq_skeleton]; unfold cc0__proto_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1
  obtain rfl := harg4.eq_unread hf2; obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    refine (read_writes_cons_whole _ _ hz _ _ _).trans ?_
    simp only [View.readAt_eq_ld, harg2.read_unread, harg3.read_unread, harg4.read_unread, View.ld_unit_zero (S := S2048x256) hz, View.ld_unit_zero (S := S1x2048) hz, View.ld_unit_zero (S := S1024x256) hz]
  iexists _; isplitr
  swap; · iexact H3
  ipureintro
  sl_unfold_run_names
  refine (read_writes_cons_whole _ _ hz _ _ _).trans ?_
  simp only [View.readAt_eq_ld, harg3.read_unread, harg5.read_unread, View.ld_unit_zero (S := S1x2048) hz, View.ld_unit_zero (S := S1024x1) hz]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; the closed form says which case the point is in;
    at a point that does not reset, the outputs hold what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 4 = 0
  · rw [acc0_reset V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0 t).mpr h0) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc0_step V c t h0]
    simp only [before0_2_B V c t h0, before0_3_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0 t).mp h)) (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«429809_j15006615733567_3_alg».proof.Proof.Gen.KernelIdeal.Launch
import proofs.«429809_j15006615733567_3_alg».proof.Proof.Gen.KernelIdeal.Skeleton
import proofs.«429809_j15006615733567_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the margin kernel, pipeline 1) at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident prototype block the body loads at point `t`: the rectangle of extent 1024 x 256 at
    the offsets `k1_off1` of the point, read off window 1's block (spelled `View.ld` of the unit-stride rectangle). -/
def pslab (c : Dev nD) (t : Fin cfg1.N) : Vec F S1024x256 .bf16 :=
  View.ld (iblk1 V c 1 t) (Rect.unit (s := S8192x256) (k1_off1 (grid1.coords t)) S1024x256.size (k1_off1_inb (grid1.coords t)))

/-- One step of the carried pair (running maximum, positive accumulator) at point `t` from the pair before:
    at the first column of a row of the grid both are reset first; the accumulator adds the point's positive
    logits; the maximum takes the point's masked (on the diagonal) or plain (off it) row maximum. -/
def sc1Step (c : Dev nD) (t : Fin cfg1.N) (prev : Vec F S1024x1 .f32 × Vec F S1024x1 .f32) : Vec F S1024x1 .f32 × Vec F S1024x1 .f32 :=
  (if t.val / 8 = t.val % 8 then k1_pay7 (grid1.coords t) (iblk1 V c 0 t) (pslab V c t) (if t.val % 8 = 0 then k1_pay2 else prev.1)
    else k1_pay8 (iblk1 V c 0 t) (pslab V c t) (if t.val % 8 = 0 then k1_pay2 else prev.1),
   k1_pay6 (grid1.coords t) (iblk1 V c 0 t) (pslab V c t) (iblk1 V c 2 t) (if t.val % 8 = 0 then k1_pay3 else prev.2))

/-- What the two carried operands (running maximum, positive accumulator) hold after the body at position `n`. -/
def sc1 (c : Dev nD) : (n : ℕ) → n < cfg1.N → Vec F S1024x1 .f32 × Vec F S1024x1 .f32
  | 0, hn => sc1Step V c ⟨0, hn⟩ (k1_pay2, k1_pay3)
  | n + 1, hn => sc1Step V c ⟨n + 1, hn⟩ (sc1 c n (Nat.lt_of_succ_lt hn))

theorem sc1_eq (c : Dev nD) (t : Fin cfg1.N) (h : t.val ≠ 0) :
    sc1 V c t.val t.isLt = sc1Step V c t (sc1 V c (t.val - 1) (Nat.lt_of_le_of_lt (Nat.sub_le _ _) t.isLt)) := by
  obtain ⟨n, hn⟩ := t
  cases n with
  | zero => exact absurd rfl h
  | succ n => rfl

theorem sc1_zero (c : Dev nD) (t : Fin cfg1.N) (h : t.val = 0) (p : Vec F S1024x1 .f32 × Vec F S1024x1 .f32) :
    sc1 V c t.val t.isLt = sc1Step V c t p := by
  obtain ⟨n, hn⟩ := t
  cases n with
  | zero => unfold sc1 sc1Step; simp only [Nat.zero_mod, if_true]
  | succ n => exact absurd h (Nat.succ_ne_zero n)

theorem sc1_pos_first (c : Dev nD) (t : Fin cfg1.N) (h : t.val % 8 = 0) :
    (sc1 V c t.val t.isLt).2 = k1_pay6 (grid1.coords t) (iblk1 V c 0 t) (pslab V c t) (iblk1 V c 2 t) k1_pay3 := by
  by_cases hz : t.val = 0
  · rw [sc1_zero V c t hz (k1_pay2, k1_pay3)]; unfold sc1Step; simp only [h, if_true]
  · rw [sc1_eq V c t hz]; unfold sc1Step; simp only [h, if_true]

theorem sc1_pos_next (c : Dev nD) (t : Fin cfg1.N) (h : ¬ t.val % 8 = 0) :
    (sc1 V c t.val t.isLt).2 = k1_pay6 (grid1.coords t) (iblk1 V c 0 t) (pslab V c t) (iblk1 V c 2 t) (sc1 V c (t.val - 1) (Nat.lt_of_le_of_lt (Nat.sub_le _ _) t.isLt)).2 := by
  have hz : t.val ≠ 0 := fun e => h (by rw [e])
  rw [sc1_eq V c t hz]; unfold sc1Step; simp only [h, if_false]

theorem sc1_max (c : Dev nD) (t : Fin cfg1.N) :
    (sc1 V c t.val t.isLt).1 = (let prev := if t.val % 8 = 0 then k1_pay2 else (sc1 V c (t.val - 1) (Nat.lt_of_le_of_lt (Nat.sub_le _ _) t.isLt)).1; if t.val / 8 = t.val % 8 then k1_pay7 (grid1.coords t) (iblk1 V c 0 t) (pslab V c t) prev else k1_pay8 (iblk1 V c 0 t) (pslab V c t) prev) := by
  by_cases hz : t.val = 0
  · rw [sc1_zero V c t hz (k1_pay2, k1_pay3)]; unfold sc1Step
    have h8 : t.val % 8 = 0 := by rw [hz]
    simp only [h8, if_true]
  · rw [sc1_eq V c t hz]; unfold sc1Step; rfl

/-! ## The carried operands and the invariant -/

/-- The two scratch operands: whole scoped buffers of the kernel's own. -/
abbrev scM1_0 : Memref sig .tc .vmem S1024x1 .f32 := Memref.whole cc1_scratch0
abbrev scM1_1 : Memref sig .tc .vmem S1024x1 .f32 := Memref.whole cc1_scratch1

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region invariant before position `n`: before the first point the class's (every scoped buffer that is
    no staging buffer of the region at anything, the generator register at some state); afterwards the same with
    the two carried operands at what the point before left in them. -/
def Phi1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
      ∗ owns (c : Thread nD τ) scM1_0 fullShare (sc1 V c n hn).1 ∗ owns (c : Thread nD τ) scM1_1 fullShare (sc1 V c n hn).2) ∗ (∃ r, prngReg c r))

/-- The proof data of pipeline 1 on core `c`: the arrays as the region finds them; after the body each input's
    buffer at its block and the output's at the margin of the carried pair (read only at the last column of a
    row of the grid, where the block is stored and written back); the carried-operand invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (sc1 V c t.val t.isLt).1 (sc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) :
    (dat1 V c).after 3 t = k1_pay1 (sc1 V c t.val t.isLt).1 (sc1 V c t.val t.isLt).2 := by dsimp only [dat1]
theorem after1_3 (c : Dev nD) (t : Fin cfg1.N) (h : t.val % 8 = 7) :
    (dat1 V c).after 3 t = k1_pay1 (sc1 V c t.val t.isLt).1 (sc1 V c t.val t.isLt).2 := after1_3' V c t

/-! ## The body's branch conditions, in closed form over the grid -/

/-- The reset condition of the body (the column coordinate is 0), from the grid coordinates. -/
abbrev cond1_0 (i : grid1.Coords) : Prop := (Scalar.cmpi .ne (Scalar.extui (Scalar.cmpi .eq (BitVec.ofNat 32 (i 1).val) 0#32)) 0#32) = 1#1
/-- The diagonal condition (row coordinate = column coordinate). -/
abbrev cond1_1 (i : grid1.Coords) : Prop := (Scalar.cmpi .ne (Scalar.extui (Scalar.cmpi .eq (BitVec.ofNat 32 (i 0).val) (BitVec.ofNat 32 (i 1).val))) 0#32) = 1#1
/-- The off-diagonal condition (row coordinate ≠ column coordinate). -/
abbrev cond1_2 (i : grid1.Coords) : Prop := (Scalar.cmpi .ne (Scalar.extui (Scalar.cmpi .ne (BitVec.ofNat 32 (i 0).val) (BitVec.ofNat 32 (i 1).val))) 0#32) = 1#1
/-- The final-column condition (the column coordinate is 7). -/
abbrev cond1_3 (i : grid1.Coords) : Prop := k1_cond4 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val / 8 = t.val % 8 :=
  (by decide +kernel : ∀ t : Fin grid1.N, cond1_1 (grid1.coords t) ↔ t.val / 8 = t.val % 8)
theorem hcond1_2 : ∀ t : Fin cfg1.N, cond1_2 (grid1.coords t) ↔ ¬ t.val / 8 = t.val % 8 :=
  (by decide +kernel : ∀ t : Fin grid1.N, cond1_2 (grid1.coords t) ↔ ¬ t.val / 8 = t.val % 8)
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬ t.val % 8 = 7 → cfg1.idle 3 (grid1.coords t) = true := by decide +kernel
theorem noFlush1_3 : ∀ t : Fin cfg1.N, ¬ t.val % 8 = 7 → (cfg1.win 3).flush t = false := by decide +kernel
theorem liveAt1_3 : ∀ t : Fin cfg1.N, t.val % 8 = 7 → cfg1.idle 3 (grid1.coords t) = false := by decide +kernel

/-! ## Whole-buffer loads and stores -/

theorem off00 : (![0, 0] : Fin 2 → Nat) = fun _ => 0 := by funext a; fin_cases a <;> rfl

section Whole
variable {sg : RefSig} {κ : Kind} {sp : Space} {S : Shape} {e : EltTy} {Val : EltTy → Type} [∀ e, Nonempty (Val e)]

/-- A whole-shape store, last, leaves its payload whatever came before. -/
theorem read_writes_cons_unit_zero (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A whole-shape load after a whole-shape store reads the payload. -/
theorem readCov_cons_unit_zero (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A whole-shape load of a whole memref at contents read `x` reads `x`. -/
theorem readAt_unit_zero {m : Memref sg κ sp S e} (hm : m.IsWhole) {off : Fin S.rank → Nat} (h : off = fun _ => 0)
    (inb : ∀ a, off a + S.size a ≤ S.size a) (x : S.Idx → Val e) :
    m.view.readAt Val (Rect.unit off S.size inb).toLoadRect (hm.unread x) = x := by
  rw [View.readAt_eq_ld, hm.read_unread]; exact View.ld_unit_zero h inb x

/-- A load through a rectangle of a whole memref at contents read `x` reads `x` at the rectangle. -/
theorem readAt_unread {m : Memref sg κ sp S e} (hm : m.IsWhole) (r : Rect S) (x : S.Idx → Val e) :
    m.view.readAt Val r.toLoadRect (hm.unread x) = View.ld x r := by
  rw [View.readAt_eq_ld, hm.read_unread]
end Whole

/-! ## The invariant, opened -/

/-- The class's invariant with the two carried operands as memrefs owned at some contents. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
      ∗ owns (c : Thread nD τ) scM1_0 fullShare (sc1 V c n hn).1 ∗ owns (c : Thread nD τ) scM1_1 fullShare (sc1 V c n hn).2) ∗ (∃ r, prngReg c r)) := rfl

theorem Phi1_pos (c : Dev nD) (n : ℕ) (h : n ≤ cfg1.N) (hz : n ≠ 0) :
    Phi1 V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1
      ∗ owns (c : Thread nD τ) scM1_0 fullShare (sc1 V c (n - 1) (by omega)).1 ∗ owns (c : Thread nD τ) scM1_1 fullShare (sc1 V c (n - 1) (by omega)).2) ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-! ## What the inputs' staging buffers hold -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The carried pair, case by case -/

theorem sc1_max_first_diag (c : Dev nD) (t : Fin cfg1.N) (h0 : t.val % 8 = 0) (h1 : t.val / 8 = t.val % 8) :
    (sc1 V c t.val t.isLt).1 = k1_pay7 (grid1.coords t) (iblk1 V c 0 t) (pslab V c t) k1_pay2 := by
  rw [sc1_max]; dsimp only; rw [if_pos h1, if_pos h0]
theorem sc1_max_first_off (c : Dev nD) (t : Fin cfg1.N) (h0 : t.val % 8 = 0) (h1 : ¬ t.val / 8 = t.val % 8) :
    (sc1 V c t.val t.isLt).1 = k1_pay8 (iblk1 V c 0 t) (pslab V c t) k1_pay2 := by
  rw [sc1_max]; dsimp only; rw [if_neg h1, if_pos h0]
theorem sc1_max_next_diag (c : Dev nD) (t : Fin cfg1.N) (h0 : ¬ t.val % 8 = 0) (h1 : t.val / 8 = t.val % 8) :
    (sc1 V c t.val t.isLt).1 = k1_pay7 (grid1.coords t) (iblk1 V c 0 t) (pslab V c t) (sc1 V c (t.val - 1) (Nat.lt_of_le_of_lt (Nat.sub_le _ _) t.isLt)).1 := by
  rw [sc1_max]; dsimp only; rw [if_pos h1, if_neg h0]
theorem sc1_max_next_off (c : Dev nD) (t : Fin cfg1.N) (h0 : ¬ t.val % 8 = 0) (h1 : ¬ t.val / 8 = t.val % 8) :
    (sc1 V c t.val t.isLt).1 = k1_pay8 (iblk1 V c 0 t) (pslab V c t) (sc1 V c (t.val - 1) (Nat.lt_of_le_of_lt (Nat.sub_le _ _) t.isLt)).1 := by
  rw [sc1_max]; dsimp only; rw [if_neg h1, if_neg h0]

/-! ## The body's triple, case by case -/

/-- The rectangle of the resident block the body loads at grid coordinates `i`. -/
abbrev rP (i : grid1.Coords) : Rect S8192x256 := Rect.unit (s := S8192x256) (k1_off1 i) S1024x256.size (k1_off1_inb i)

set_option maxHeartbeats 1000000 in
/-- The kernel body on whole memrefs in the case first column, on the diagonal, not the last column: the inputs stay,
    the carried pair ends at the step's values, the output block is untouched. -/
theorem run1_FD (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond1_0 i) (hc1 : cond1_1 i) (hc2 : ¬cond1_2 i) (hc3 : ¬cond1_3 i)
    (x0 : Vec F S1024x256 .bf16) (x1 : Vec F S8192x256 .bf16) (x2 : Vec F S1024x1 .i32) (y3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay7 i x0 (View.ld x1 (rP i)) k1_pay2)
            ∗ owns (c : Thread nD τ) arg7 fullShare (k1_pay6 i x0 (View.ld x1 (rP i)) x2 k1_pay3)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    (repeat delta run1_FD.sl.v45 run1_FD.sl.HS0_1 run1_FD.sl.v23 run1_FD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_FD.sl.v45 run1_FD.sl.HS0_1 run1_FD.sl.v23 run1_FD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case first column, off the diagonal, not the last column: the inputs stay,
    the carried pair ends at the step's values, the output block is untouched. -/
theorem run1_FO (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond1_0 i) (hc1 : ¬cond1_1 i) (hc2 : cond1_2 i) (hc3 : ¬cond1_3 i)
    (x0 : Vec F S1024x256 .bf16) (x1 : Vec F S8192x256 .bf16) (x2 : Vec F S1024x1 .i32) (y3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay8 x0 (View.ld x1 (rP i)) k1_pay2)
            ∗ owns (c : Thread nD τ) arg7 fullShare (k1_pay6 i x0 (View.ld x1 (rP i)) x2 k1_pay3)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    (repeat delta run1_FO.sl.v37 run1_FO.sl.HS0_1 run1_FO.sl.v23 run1_FO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_FO.sl.v37 run1_FO.sl.HS0_1 run1_FO.sl.v23 run1_FO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, on the diagonal, not the last column: the inputs stay,
    the carried pair ends at the step's values, the output block is untouched. -/
theorem run1_MD (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : cond1_1 i) (hc2 : ¬cond1_2 i) (hc3 : ¬cond1_3 i)
    (x0 : Vec F S1024x256 .bf16) (x1 : Vec F S8192x256 .bf16) (x2 : Vec F S1024x1 .i32) (y3 : Vec F S1024x1 .f32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay7 i x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, off the diagonal, not the last column: the inputs stay,
    the carried pair ends at the step's values, the output block is untouched. -/
theorem run1_MO (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : ¬cond1_1 i) (hc2 : cond1_2 i) (hc3 : ¬cond1_3 i)
    (x0 : Vec F S1024x256 .bf16) (x1 : Vec F S8192x256 .bf16) (x2 : Vec F S1024x1 .i32) (y3 : Vec F S1024x1 .f32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare y3
            ∗ owns (c : Thread nD τ) arg6 fullShare (k1_pay8 x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro; exact hf3
  isplitl [HS0]
  · iexists _; isplitr
    swap; · iexact HS0
    ipureintro
    refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, on the diagonal, last column: the inputs stay,
    the carried pair ends at the step's values, the output block at their margin. -/
theorem run1_LD (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : cond1_1 i) (hc2 : ¬cond1_2 i) (hc3 : cond1_3 i)
    (x0 : Vec F S1024x256 .bf16) (x1 : Vec F S8192x256 .bf16) (x2 : Vec F S1024x1 .i32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (k1_pay7 i x0 (View.ld x1 (rP i)) pm) (k1_pay6 i x0 (View.ld x1 (rP i)) x2 pp))
            ∗ owns (c : Thread nD τ) arg6 fullShare (k1_pay7 i x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (repeat delta run1_LD.sl.v37 run1_LD.sl.v38 run1_LD.sl.HS0_1 run1_LD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  isplitl [HS0]
  · iexists _; isplitr
    swap; · iexact HS0
    ipureintro
    (repeat delta run1_LD.sl.v37 run1_LD.sl.v38 run1_LD.sl.HS0_1 run1_LD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_LD.sl.v37 run1_LD.sl.v38 run1_LD.sl.HS0_1 run1_LD.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

set_option maxHeartbeats 1000000 in
/-- The kernel body on whole memrefs in the case later column, off the diagonal, last column: the inputs stay,
    the carried pair ends at the step's values, the output block at their margin. -/
theorem run1_LO (c : Dev nD) (i : grid1.Coords) (E : Set ℕ)
    (arg2 : Memref sig .tc .vmem S1024x256 .bf16) (harg2 : arg2.IsWhole) (arg3 : Memref sig .tc .vmem S8192x256 .bf16) (harg3 : arg3.IsWhole)
    (arg4 : Memref sig .tc .vmem S1024x1 .i32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i) (hc1 : ¬cond1_1 i) (hc2 : cond1_2 i) (hc3 : cond1_3 i)
    (x0 : Vec F S1024x256 .bf16) (x1 : Vec F S8192x256 .bf16) (x2 : Vec F S1024x1 .i32) (pm pp : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare pm ∗ owns (c : Thread nD τ) arg7 fullShare pp
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (k1_pay8 x0 (View.ld x1 (rP i)) pm) (k1_pay6 i x0 (View.ld x1 (rP i)) x2 pp))
            ∗ owns (c : Thread nD τ) arg6 fullShare (k1_pay8 x0 (View.ld x1 (rP i)) pm)
            ∗ owns (c : Thread nD τ) arg7 fullShare (k1_pay6 i x0 (View.ld x1 (rP i)) x2 pp)) -∗ K ⟨⟩))
      ⊢ wp frame (wpE (defs₀ (F := F)) Variants.none c none) E (cc1__margin_kernel i arg2 harg2 arg3 harg3 arg4 harg4 arg5 harg5 arg6 harg6 arg7 harg7) K := by
  simp only [cc1__margin_kernel_eq_skeleton]; unfold cc1__margin_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (repeat delta run1_LO.sl.v37 run1_LO.sl.v38 run1_LO.sl.HS0_1 run1_LO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  isplitl [HS0]
  · iexists _; isplitr
    swap; · iexact HS0
    ipureintro
    (repeat delta run1_LO.sl.v37 run1_LO.sl.v38 run1_LO.sl.HS0_1 run1_LO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))
  iexists _; isplitr
  swap; · iexact HS1
  ipureintro
  (repeat delta run1_LO.sl.v37 run1_LO.sl.v38 run1_LO.sl.HS0_1 run1_LO.sl.HS1_1); refine (read_writes_cons_unit_zero (S := S1024x1) _ _ off00 _ _ _).trans ?_; (repeat rw [readCov_cons_unit_zero (S := S1024x1) _ off00]); (repeat rw [readAt_unit_zero (S := S1024x1) _ off00]); (repeat rw [readAt_unit_zero (S := S1024x256) _ off00]); (repeat rw [readAt_unread]); (repeat rw [View.ld_unit_zero (S := S1024x1) off00]); (repeat rw [View.ld_unit_zero (S := S1024x256) off00]); (try (with_reducible rfl))

/-! ## The body obligation, at a generic point -/

/-- Each window's current staging memref at point `t`, as the pipeline passes it. -/
abbrev ms1_0 (t : Fin cfg1.N) : Memref sig .tc .vmem S1024x256 .bf16 := win1_0.stage (cfg1.slots t 0)
abbrev ms1_1 (t : Fin cfg1.N) : Memref sig .tc .vmem S8192x256 .bf16 := win1_1.stage (cfg1.slots t 1)
abbrev ms1_2 (t : Fin cfg1.N) : Memref sig .tc .vmem S1024x1 .i32 := win1_2.stage (cfg1.slots t 2)
abbrev ms1_3 (t : Fin cfg1.N) : Memref sig .tc .vmem S1024x1 .f32 := win1_3.stage (cfg1.slots t 3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the carried pair at what the point before left (at anything at the first
    point) and takes it back at this point's; the output block is stored at the last column of a row and left
    as found elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h3 : ¬ t.val % 8 = 7 := by omega
    by_cases h1 : t.val / 8 = t.val % 8
    · by_cases hz : t.val = 0
      · rw [Dat.leavesExact_idle (dat1 V c) 3 t (idleAt1_3 t h3) (noFlush1_3 t h3)]
        rw [sc1_max_first_diag V c t h0 h1, sc1_pos_first V c t h0]
        unfold pslab
        rw [Phi1_castSucc V c t, Phi1_zero V c _ _ hz, PhiA1_eq]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_FD c (grid1.coords t) Set.univ _ _ _ _ _ _ _ _ _ _ _ _ ((hcond1_0 t).mpr h0) ((hcond1_1 t).mpr h1) (fun h => ((hcond1_2 t).mp h) h1) ((hcond1_3 t).not.mpr h3) (iblk1 V c 0 t) (iblk1 V c 1 t) (iblk1 V c 2 t) _ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
      · rw [Dat.leavesExact_idle (dat1 V c) 3 t (idleAt1_3 t h3) (noFlush1_3 t h3)]
        rw [sc1_max_first_diag V c t h0 h1, sc1_pos_first V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_FD c (grid1.coords t) Set.univ _ _ _ _ _ _ _ _ _ _ _ _ ((hcond1_0 t).mpr h0) ((hcond1_1 t).mpr h1) (fun h => ((hcond1_2 t).mp h) h1) ((hcond1_3 t).not.mpr h3) (iblk1 V c 0 t) (iblk1 V c 1 t) (iblk1 V c 2 t) _ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
    · by_cases hz : t.val = 0
      · exfalso; exact h1 (by rw [hz])
      · rw [Dat.leavesExact_idle (dat1 V c) 3 t (idleAt1_3 t h3) (noFlush1_3 t h3)]
        rw [sc1_max_first_off V c t h0 h1, sc1_pos_first V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_FO c (grid1.coords t) Set.univ _ _ _ _ _ _ _ _ _ _ _ _ ((hcond1_0 t).mpr h0) ((hcond1_1 t).not.mpr h1) ((hcond1_2 t).mpr h1) ((hcond1_3 t).not.mpr h3) (iblk1 V c 0 t) (iblk1 V c 1 t) (iblk1 V c 2 t) _ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h3 : t.val % 8 = 7
    · by_cases h1 : t.val / 8 = t.val % 8
      · rw [show (dat1 V c).leavesExact 3 t = owns (c : Thread nD τ) (ms1_3 t) fullShare ((dat1 V c).after 3 t) from by
          unfold Dat.leavesExact; rw [liveAt1_3 t h3], after1_3']
        rw [sc1_max_next_diag V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_LD c (grid1.coords t) Set.univ _ _ _ _ _ _ _ _ _ _ _ _ ((hcond1_0 t).not.mpr h0) ((hcond1_1 t).mpr h1) (fun h => ((hcond1_2 t).mp h) h1) ((hcond1_3 t).mpr h3) (iblk1 V c 0 t) (iblk1 V c 1 t) (iblk1 V c 2 t) _ _ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexact H3
      · rw [show (dat1 V c).leavesExact 3 t = owns (c : Thread nD τ) (ms1_3 t) fullShare ((dat1 V c).after 3 t) from by
          unfold Dat.leavesExact; rw [liveAt1_3 t h3], after1_3']
        rw [sc1_max_next_off V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_LO c (grid1.coords t) Set.univ _ _ _ _ _ _ _ _ _ _ _ _ ((hcond1_0 t).not.mpr h0) ((hcond1_1 t).not.mpr h1) ((hcond1_2 t).mpr h1) ((hcond1_3 t).mpr h3) (iblk1 V c 0 t) (iblk1 V c 1 t) (iblk1 V c 2 t) _ _ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexact H3
    · by_cases h1 : t.val / 8 = t.val % 8
      · rw [Dat.leavesExact_idle (dat1 V c) 3 t (idleAt1_3 t h3) (noFlush1_3 t h3)]
        rw [sc1_max_next_diag V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_MD c (grid1.coords t) Set.univ _ _ _ _ _ _ _ _ _ _ _ _ ((hcond1_0 t).not.mpr h0) ((hcond1_1 t).mpr h1) (fun h => ((hcond1_2 t).mp h) h1) ((hcond1_3 t).not.mpr h3) (iblk1 V c 0 t) (iblk1 V c 1 t) (iblk1 V c 2 t) _ _ _ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3
      · rw [Dat.leavesExact_idle (dat1 V c) 3 t (idleAt1_3 t h3) (noFlush1_3 t h3)]
        rw [sc1_max_next_off V c t h0 h1, sc1_pos_next V c t h0]
        unfold pslab
        rw [Phi1_castSucc V c t, Phi1_pos V c _ _ hz]
        iintro ⟨⟨⟨A1, A2, A3, A4, A5, A6, A7, A8, HS0, HS1⟩, Hg⟩, Ho, ⟨%d0, H0⟩, ⟨%d1, H1⟩, ⟨%d2, H2⟩, ⟨%d3, H3⟩⟩
        iapply (run1_MO c (grid1.coords t) Set.univ _ _ _ _ _ _ _ _ _ _ _ _ ((hcond1_0 t).not.mpr h0) ((hcond1_1 t).not.mpr h1) ((hcond1_2 t).mpr h1) ((hcond1_3 t).not.mpr h3) (iblk1 V c 0 t) (iblk1 V c 1 t) (iblk1 V c 2 t) _ _ _ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [A1 A2 A3 A4 A5 A6 A7 A8 HS0 HS1 Hg]
        · isplitl [A1 A2 A3 A4 A5 A6 A7 A8 HS0 HS1]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class's back: the carried pair's contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨A1, A2, A3, A4, A5, A6, A7, A8, HS0, HS1⟩, Hg⟩
  isplitl [A1 A2 A3 A4 A5 A6 A7 A8 HS0 HS1]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi1_out V c _ (by rw [Fin.val_last]; have : cfg1.N = 64 := N_1; omega)

end Cert.KernelIdeal.Hand

end
-- ==== Proof.KI.Run.lean ====
import proofs.«429809_j15006615733567_3_alg».proof.Proof.Gen.KernelIdeal.Launch
import proofs.«429809_j15006615733567_3_alg».proof.Proof.Gen.KernelIdeal.Skeleton
import proofs.«429809_j15006615733567_3_alg».proof.Proof.Gen.KernelIdeal.Points
import proofs.«429809_j15006615733567_3_alg».proof.Proof.Gen.KernelIdeal.Regions
import proofs.«429809_j15006615733567_3_alg».proof.Proof.KI.R0
import proofs.«429809_j15006615733567_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its ten items as segments, from the launch to the return

## The buffers' contents at each boundary between two items -/

/-- Core `c`'s buffers at launch. -/
abbrev W0 : Dev nD → Valuation τ sig (Elt F) := fun c b => (s₀ m ρ).mem ((c : Dev nD), b)
/-- After the two label bounds are written. -/
abbrev W1 : Dev nD → Valuation τ sig (Elt F) := fun c => StableHlo.after hostOps0 (W0 m ρ c)
/-- After the labels are clipped. -/
abbrev W2 : Dev nD → Valuation τ sig (Elt F) := fun c => StableHlo.after hostOps0_1 (W1 m ρ c)
/-- After the rows' norms are taken. -/
abbrev W3 : Dev nD → Valuation τ sig (Elt F) := fun c => StableHlo.after hostOps0_2 (W2 m ρ c)
/-- After the rows are normalized and the labels laid out as a row and as a column: region 0's entry. -/
abbrev W4 : Dev nD → Valuation τ sig (Elt F) := fun c => StableHlo.after hostOps0_3 (W3 m ρ c)
/-- The same read at the TensorCore's references (what region 0's proof data take). -/
abbrev V4 : (c : Dev nD) → (b : Ref sig .tc) → Buf (Elt F) ((c : Thread nD τ).loc b) := fun c b => W4 m ρ c b
/-- At region 0's exit: its arrays at what the pipeline leaves (the inputs as entered, each output's write-backs
    folded), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references (region 0's exit contents). -/
abbrev V5 : (c : Dev nD) → (b : Ref sig .tc) → Buf (Elt F) ((c : Thread nD τ).loc b) := fun c b => W5 m ρ c b
/-- At region 0's exit each of its arrays holds what the pipeline leaves, and every other buffer what it held at
    entry. -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the sums are divided by the clamped counts. -/
abbrev W6 : Dev nD → Valuation τ sig (Elt F) := fun c => StableHlo.after hostOps1 (W5 m ρ c)
/-- After the prototypes' norms are taken. -/
abbrev W7 : Dev nD → Valuation τ sig (Elt F) := fun c => StableHlo.after hostOps1_1 (W6 m ρ c)
/-- After the prototypes are normalized: region 1's entry. -/
abbrev W8 : Dev nD → Valuation τ sig (Elt F) := fun c => StableHlo.after hostOps1_2 (W7 m ρ c)
/-- The same read at the TensorCore's references (what region 1's proof data take). -/
abbrev V8 : (c : Dev nD) → (b : Ref sig .tc) → Buf (Elt F) ((c : Thread nD τ).loc b) := fun c b => W8 m ρ c b
/-- At region 1's exit: its arrays at what the pipeline leaves, every other buffer as entered. -/
def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- The same read at the TensorCore's references (region 1's exit contents). -/
abbrev V9 : (c : Dev nD) → (b : Ref sig .tc) → Buf (Elt F) ((c : Thread nD τ).loc b) := fun c b => W9 m ρ c b
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-- After the mean is taken: the contents @main returns with. -/
abbrev W10 : Dev nD → Valuation τ sig (Elt F) := fun c => StableHlo.after hostOps2 (W9 m ρ c)

/-! ### The arguments end as launched: no host operation writes one and neither region has one among its arrays, so
    the fold at an argument's buffer walks back to the launch memory -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps2 _ hostOps2_writes (by decide)
    _ = W8 m ρ c (Proc.devRef .tc main_arg0) := W9_of_ne m ρ c main_arg0 (by decide)
    _ = W7 m ρ c (Proc.devRef .tc main_arg0) := StableHlo.after_of_writes_sub hostOps1_2 _ hostOps1_2_writes (by decide)
    _ = W6 m ρ c (Proc.devRef .tc main_arg0) := StableHlo.after_of_writes_sub hostOps1_1 _ hostOps1_1_writes (by decide)
    _ = W5 m ρ c (Proc.devRef .tc main_arg0) := StableHlo.after_of_writes_sub hostOps1 _ hostOps1_writes (by decide)
    _ = W4 m ρ c (Proc.devRef .tc main_arg0) := W5_of_ne m ρ c main_arg0 (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps2 _ hostOps2_writes (by decide)
    _ = W8 m ρ c (Proc.devRef .tc main_arg1) := W9_of_ne m ρ c main_arg1 (by decide)
    _ = W7 m ρ c (Proc.devRef .tc main_arg1) := StableHlo.after_of_writes_sub hostOps1_2 _ hostOps1_2_writes (by decide)
    _ = W6 m ρ c (Proc.devRef .tc main_arg1) := StableHlo.after_of_writes_sub hostOps1_1 _ hostOps1_1_writes (by decide)
    _ = W5 m ρ c (Proc.devRef .tc main_arg1) := StableHlo.after_of_writes_sub hostOps1 _ hostOps1_writes (by decide)
    _ = W4 m ρ c (Proc.devRef .tc main_arg1) := W5_of_ne m ρ c main_arg1 (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 of @main over the thread state: entered from every unscoped buffer at `W4`, left at `W5`. Its arrays
    are split out of the unscoped buffers at entry and put back at the exit contents; the generator register goes into
    the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun w => A_eq0 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 of @main over the thread state: entered from every unscoped buffer at `W8`, left at `W9`. Its arrays
    are split out of the unscoped buffers at entry and put back at the exit contents; the generator register goes into
    the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun w => A_eq1 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V8 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (V8 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .region (reg1 m ρ),
    .host (hseg hostOps2 hostOps2_sub hostOps2_fresh (W9 m ρ)) ]
/-- @main is the run of the segments. -/
theorem main_run (c : Dev nD) : main (F := F) c = Pipeline.Seg.run (segs m ρ) := (main_chain c).trans (by chain_rfl)

set_option backward.isDefEq.respectTransparency.types false in
/-- The launch over the segments, at any post that follows from every unscoped buffer's final contents: from any
    memory with zero counters every weakly fair execution of @main on the TensorCores terminates, nothing faulting,
    and in every final state each unscoped buffer of each core holds the last boundary's contents. -/
theorem run_kit {Q : PUnit × MemSt nD τ sig (Elt F) → Prop}
    (hQ : ∀ s : MemSt nD τ sig (Elt F), (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => show iprop(StableHlo.held (c : Thread nD τ) (Pipeline.ucRefs τ sig) (W10 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- THE RUN: every weakly fair execution of @main from memory `m` with zero counters terminates, nothing faulting, and
    every final state has each unscoped buffer of each core at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  run_kit m ρ fun s h => h

/-- THE FRAME: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_kit m ρ fun s h c =>
    ⟨(h c _ (mem_uc main_arg0 (by decide))).trans (W10_main_arg0 m ρ c),
     (h c _ (mem_uc main_arg1 (by decide))).trans (W10_main_arg1 m ρ c)⟩

end Cert.KernelIdeal.Hand

end
-- ==== Proof.Spec.lean ====
/-
  The common value of the two programs, as one function of the embeddings x (8192 rows of 256 numbers) and the
  labels l (8192 integers), over the extended reals:

    e      = x / max (row norms of x, eps)                               the unit rows
    sums   r d = sum over b of [l b = r] * e b d,   counts r = sum over b of [l b = r]
    protos = normalise (sums / max (counts, 1))                          the unit prototypes
    cos  i j = sum over d of e i d * protos j d                          the cosines
    pos  i   = sum over j of [l i = j] * cos i j                         the cosine at the row's own label
    neg  i   = sup over j of (cos i j - margin * [i = j])                the largest cosine, the diagonal lowered
    loss     = (sum over i of max (neg i - pos i + margin, 0)) / 8192

  The host chain both programs share (the row normalisation) is kept as the host operations state it;
  where the programs differ (a one-hot product against a scatter, a masked sum against a gather, a tiled running
  maximum against one maximum) the value is written index by index.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SBxD : Shape := ⟨2, ![8192, 256]⟩
abbrev SB : Shape := ⟨1, ![8192]⟩
abbrev SBx1 : Shape := ⟨2, ![8192, 1]⟩
abbrev S0 : Shape := ⟨0, ![]⟩

/-- Every label names one of the 8192 rows of the prototype table. -/
def InRange (l : IVec SB 32) : Prop := ∀ i : SB.Idx, (l i).toNat < 8192

/-- The margin, the f32 nearest to 0.2, read exactly. -/
def margin : EReal := Ideal.ofBits .f32 0x3E4CCCCD#32

/-- A row's Euclidean norm, floored at eps: max (sqrt (0 + sum of squares), eps), as the host operations state it. -/
def rowNorm (x : FVec Ideal SBxD .f32) : FVec Ideal SBx1 .f32 :=
  maximumf
    (Host.sqrt (broadcastInDim SBx1 ![0] (by decide)
      (Host.reduceAdd (mulf x x) (constant S0 .f32 0x00000000#32) (by decide : SBxD.ReducesTo [1] SB) (by decide))))
    (broadcastInDim SBx1 ![] (by decide) (constant S0 .f32 0x2B8CBCCC#32))

/-- Rows divided by their floored norms. -/
def normalize (x : FVec Ideal SBxD .f32) : FVec Ideal SBxD .f32 :=
  Host.divf x (broadcastInDim SBxD ![0, 1] (by decide) (rowNorm x))

/-- The sum of the rows carrying label r. -/
def sums (e : FVec Ideal SBxD .f32) (l : IVec SB 32) : FVec Ideal SBxD .f32 :=
  fun i => ∑ b : Fin 8192, if (l (ix1 b)).toNat = (i 0).val then e (ix2 b (i 1)) else 0

/-- How many rows carry label r. -/
def counts (l : IVec SB 32) : FVec Ideal SBx1 .f32 :=
  fun i => ∑ b : Fin 8192, if (l (ix1 b)).toNat = (i 0).val then (1 : EReal) else 0

/-- The label means (an empty label's row stays zero: the divisor is floored at one). -/
def means (e : FVec Ideal SBxD .f32) (l : IVec SB 32) : FVec Ideal SBxD .f32 :=
  Host.divf (sums e l)
    (broadcastInDim SBxD ![0, 1] (by decide)
      (maximumf (counts l) (broadcastInDim SBx1 ![] (by decide) (constant S0 .f32 0x3F800000#32))))

/-- The cosine of row i of e and row j of p. -/
def cos (e p : FVec Ideal SBxD .f32) (i j : Fin 8192) : EReal :=
  ∑ d : Fin 256, e (ix2 i d) * p (ix2 j d)

/-- The cosine at the row's own label. -/
def pos (e p : FVec Ideal SBxD .f32) (l : IVec SB 32) (i : Fin 8192) : EReal :=
  ∑ j : Fin 8192, if (l (ix1 i)).toNat = j.val then cos e p i j else 0

/-- The largest cosine of the row, the diagonal entry lowered by the margin. -/
def neg (e p : FVec Ideal SBxD .f32) (i : Fin 8192) : EReal :=
  Finset.univ.sup fun j : Fin 8192 => if i = j then cos e p i j - margin else cos e p i j

/-- One row's hinge. -/
def hinge (e p : FVec Ideal SBxD .f32) (l : IVec SB 32) (i : Fin 8192) : EReal :=
  max (neg e p i - pos e p l i + margin) 0

/-- The loss: the mean hinge over the 8192 rows. -/
def loss (x : FVec Ideal SBxD .f32) (l : IVec SB 32) : FVec Ideal S0 .f32 :=
  fun _ =>
    Ideal.div (∑ i : Fin 8192, hinge (normalize x) (normalize (means (normalize x) l)) l i)
      (Ideal.ofBits .f32 0x46000000#32)

end Cert.Spec

end
-- ==== Proof.KI.Blocks.lean ====
import proofs.«429809_j15006615733567_3_alg».proof.Proof.KI.R0
import proofs.«429809_j15006615733567_3_alg».proof.Proof.KI.R1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Idealize.ShloMosaic.ValueIdx
open Cert.KernelIdeal.Gen

variable {F : FTy → Type} [FloatOps F]

-- the TensorCore's buffer contents when a region is entered
variable (V : (c : Dev nD) → (b : Ref sig .tc) → Buf (Elt F) ((c : Thread nD τ).loc b))

/-! # The grids' points as pairs, and the windows' index maps over them -/

/-- A point of region 0's grid (8 by 4, the second coordinate fastest) has coordinates quotient and remainder by 4. -/
theorem coords0 (t : Fin cfg0.N) : ((grid0.coords t) 0).val = t.val / 4 ∧ ((grid0.coords t) 1).val = t.val % 4 :=
  (by decide +kernel : ∀ t : Fin grid0.N, ((grid0.coords t) 0).val = t.val / 4 ∧ ((grid0.coords t) 1).val = t.val % 4) t

/-- A point of region 1's grid (8 by 8, the second coordinate fastest) has coordinates quotient and remainder by 8. -/
theorem coords1 (t : Fin cfg1.N) : ((grid1.coords t) 0).val = t.val / 8 ∧ ((grid1.coords t) 1).val = t.val % 8 :=
  (by decide +kernel : ∀ t : Fin grid1.N, ((grid1.coords t) 0).val = t.val / 8 ∧ ((grid1.coords t) 1).val = t.val % 8) t

/-- Region 0's index maps over the grid: the inputs move with the second coordinate, the outputs with the first. -/
theorem index0 : ∀ t : Fin cfg0.N, win0_0.index t (0 : Fin 2) = t.val % 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-- Region 1's index maps over the grid: the row blocks move with the first coordinate, the prototypes stay. -/
theorem index1 : ∀ t : Fin cfg1.N, win1_0.index t (0 : Fin 2) = t.val / 8 ∧ win1_0.index t (1 : Fin 2) = 0
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

/-! # The input blocks read at an index: a block at a point is a rectangle of its array, coordinate = block index
    times block extent plus the coordinate inside the block -/

theorem iblk0_0_apply (c : Dev nD) (t : Fin cfg0.N) (k : Fin 2048) (d : Fin 256) (hlt : (t.val % 4) * 2048 + k.val < 8192) :
    (iblk0 V c 0 t : Vec F S2048x256 .bf16) (ix2 k d) = (V c main_v6 : Vec F S8192x256 .bf16) (ix2 ⟨(t.val % 4) * 2048 + k.val, hlt⟩ d) := by
  obtain ⟨h0, h1, -⟩ := index0 t
  unfold iblk0
  rw [View.read_apply]
  show (V c main_v6 : Vec F S8192x256 .bf16) _ = _
  congr 1
  funext a
  apply Fin.ext
  match a with
  | ⟨0, _⟩ => show win0_0.index t (0 : Fin 2) * 2048 + 1 * k.val = (t.val % 4) * 2048 + k.val; rw [h0]; omega
  | ⟨1, _⟩ => show win0_0.index t (1 : Fin 2) * 256 + 1 * d.val = d.val; rw [h1]; omega

theorem iblk0_1_apply (c : Dev nD) (t : Fin cfg0.N) (k : Fin 2048) (hlt : (t.val % 4) * 2048 + k.val < 8192) :
    (iblk0 V c 1 t : Vec F S1x2048 .i32) (ix2 0 k) = (V c main_v7 : Vec F S1x8192 .i32) (ix2 0 ⟨(t.val % 4) * 2048 + k.val, hlt⟩) := by
  obtain ⟨-, -, h0, h1, -⟩ := index0 t
  unfold iblk0
  rw [View.read_apply]
  show (V c main_v7 : Vec F S1x8192 .i32) _ = _
  congr 1
  funext a
  apply Fin.ext
  match a with
  | ⟨0, _⟩ => show win0_1.index t (0 : Fin 2) * 1 + 1 * 0 = 0; rw [h0]
  | ⟨1, _⟩ => show win0_1.index t (1 : Fin 2) * 2048 + 1 * k.val = (t.val % 4) * 2048 + k.val; rw [h1]; omega

theorem iblk1_0_apply (c : Dev nD) (t : Fin cfg1.N) (r : Fin 1024) (d : Fin 256) (hlt : (t.val / 8) * 1024 + r.val < 8192) :
    (iblk1 V c 0 t : Vec F S1024x256 .bf16) (ix2 r d) = (V c main_v6 : Vec F S8192x256 .bf16) (ix2 ⟨(t.val / 8) * 1024 + r.val, hlt⟩ d) := by
  obtain ⟨h0, h1, -⟩ := index1 t
  unfold iblk1
  rw [View.read_apply]
  show (V c main_v6 : Vec F S8192x256 .bf16) _ = _
  congr 1
  funext a
  apply Fin.ext
  match a with
  | ⟨0, _⟩ => show win1_0.index t (0 : Fin 2) * 1024 + 1 * r.val = (t.val / 8) * 1024 + r.val; rw [h0]; omega
  | ⟨1, _⟩ => show win1_0.index t (1 : Fin 2) * 256 + 1 * d.val = d.val; rw [h1]; omega

theorem pslab_apply (c : Dev nD) (t : Fin cfg1.N) (j : Fin 1024) (d : Fin 256) (hlt : (t.val % 8) * 1024 + j.val < 8192) :
    pslab V c t (ix2 j d) = (V c main_v19 : Vec F S8192x256 .bf16) (ix2 ⟨(t.val % 8) * 1024 + j.val, hlt⟩ d) := by
  obtain ⟨-, -, h0, h1, -⟩ := index1 t
  have e0 : k1_off1 (grid1.coords t) (0 : Fin 2) = 1024 * (t.val % 8) := by
    rw [k1_off1_eq]; show 1024 * ((grid1.coords t) 1).val = _; rw [(coords1 t).2]
  have e1 : k1_off1 (grid1.coords t) (1 : Fin 2) = 0 := by rw [k1_off1_eq]; rfl
  unfold pslab
  show (iblk1 V c 1 t : Vec F S8192x256 .bf16) ((Rect.unit (s := S8192x256) (k1_off1 (grid1.coords t)) S1024x256.size (k1_off1_inb (grid1.coords t))).emb (ix2 j d)) = _
  unfold iblk1
  rw [View.read_apply]
  show (V c main_v19 : Vec F S8192x256 .bf16) _ = _
  congr 1
  funext a
  apply Fin.ext
  match a with
  | ⟨0, _⟩ => show win1_1.index t (0 : Fin 2) * 8192 + 1 * (k1_off1 (grid1.coords t) (0 : Fin 2) + 1 * j.val) = (t.val % 8) * 1024 + j.val; rw [h0, e0]; omega
  | ⟨1, _⟩ => show win1_1.index t (1 : Fin 2) * 256 + 1 * (k1_off1 (grid1.coords t) (1 : Fin 2) + 1 * d.val) = d.val; rw [h1, e1]; omega

theorem iblk1_2_apply (c : Dev nD) (t : Fin cfg1.N) (r : Fin 1024) (hlt : (t.val / 8) * 1024 + r.val < 8192) :
    (iblk1 V c 2 t : Vec F S1024x1 .i32) (ix2 r 0) = (V c main_v8 : Vec F S8192x1 .i32) (ix2 ⟨(t.val / 8) * 1024 + r.val, hlt⟩ 0) := by
  obtain ⟨-, -, -, -, h0, h1, -⟩ := index1 t
  unfold iblk1
  rw [View.read_apply]
  show (V c main_v8 : Vec F S8192x1 .i32) _ = _
  congr 1
  funext a
  apply Fin.ext
  match a with
  | ⟨0, _⟩ => show win1_2.index t (0 : Fin 2) * 1024 + 1 * r.val = (t.val / 8) * 1024 + r.val; rw [h0]; omega
  | ⟨1, _⟩ => show win1_2.index t (1 : Fin 2) * 1 + 1 * 0 = 0; rw [h1]

/-! # From the written-back blocks to the output arrays: the blocks written back (at the last point of each row of
    the grid) tile the array, so an array that agrees with every written-back block is what the region leaves -/

/-- Every index of the array lies in the block written back at the last point of its row of the grid. -/
theorem cover0_2 (i : S8192x256.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 256 := (i 1).isLt
  have htlt : 4 * ((i 0).val / 1024) + 3 < cfg0.N := by rw [hN]; omega
  have hmod : (⟨4 * ((i 0).val / 1024) + 3, htlt⟩ : Fin cfg0.N).val % 4 = 3 := by
    show (4 * ((i 0).val / 1024) + 3) % 4 = 3; omega
  refine ⟨⟨4 * ((i 0).val / 1024) + 3, htlt⟩, (flush0_2 _).mpr hmod, ?_⟩
  obtain ⟨-, -, -, -, h0, h1, -⟩ := index0 ⟨4 * ((i 0).val / 1024) + 3, htlt⟩
  show i ∈ ((View.whole main_v9_0).slice (win0_2.rect ⟨4 * ((i 0).val / 1024) + 3, htlt⟩)).set
  rw [View.set_slice_whole, Rect.mem_set_unit]
  intro a
  match a with
  | ⟨0, _⟩ =>
    show win0_2.index ⟨4 * ((i 0).val / 1024) + 3, htlt⟩ (0 : Fin 2) * 1024 ≤ (i 0).val ∧ (i 0).val < win0_2.index ⟨4 * ((i 0).val / 1024) + 3, htlt⟩ (0 : Fin 2) * 1024 + 1024
    rw [h0]; show (4 * ((i 0).val / 1024) + 3) / 4 * 1024 ≤ (i 0).val ∧ (i 0).val < (4 * ((i 0).val / 1024) + 3) / 4 * 1024 + 1024; omega
  | ⟨1, _⟩ =>
    show win0_2.index ⟨4 * ((i 0).val / 1024) + 3, htlt⟩ (1 : Fin 2) * 256 ≤ (i 1).val ∧ (i 1).val < win0_2.index ⟨4 * ((i 0).val / 1024) + 3, htlt⟩ (1 : Fin 2) * 256 + 256
    rw [h1]; omega

theorem arr0_2_of_blocks (c : Dev nD) (G : Vec F S8192x256 .f32)
    (h : ∀ (t : Fin cfg0.N), t.val % 4 = 3 → ∀ (r : Fin 1024) (d : Fin 256) (hlt : (t.val / 4) * 1024 + r.val < 8192),
      ((dat0 V c).after 2 t : Vec F S1024x256 .f32) (ix2 r d) = G (ix2 ⟨(t.val / 4) * 1024 + r.val, hlt⟩ d)) :
    (dat0 V c).arrAt 2 cfg0.N = G := by
  refine (dat0 V c).arrAt_eq_of_cover 2 G (fun t hf => ?_) (fun i => cover0_2 i)
  have hN : cfg0.N = 32 := N_0
  have h3 : t.val % 4 = 3 := (flush0_2 t).mp hf
  obtain ⟨-, -, -, -, h0, h1, -⟩ := index0 t
  show (cfg0.win 2).cut (grid0.coords t) ((dat0 V c).after 2 t) = ((cfg0.win 2).blk t).view.read (Elt F) G
  funext j
  obtain ⟨r, d, rfl⟩ : ∃ (r : Fin 1024) (d : Fin 256), j = ix2 r d := ⟨j 0, j 1, eq_ix2 j⟩

  have htl : t.val < 32 := lt_of_lt_of_eq t.isLt N_0
  have hlt : (t.val / 4) * 1024 + r.val < 8192 := by have := r.isLt; omega
  show ((dat0 V c).after 2 t : Vec F S1024x256 .f32) (ix2 r d) = G (((cfg0.win 2).blk t).view.emb (ix2 r d))
  rw [h t h3 r d hlt]
  congr 1
  funext a
  apply Fin.ext
  match a with
  | ⟨0, _⟩ => show (t.val / 4) * 1024 + r.val = win0_2.index t (0 : Fin 2) * 1024 + 1 * r.val; rw [h0]; omega
  | ⟨1, _⟩ => show d.val = win0_2.index t (1 : Fin 2) * 256 + 1 * d.val; rw [h1]; omega

/-- Every index of the array lies in the block written back at the last point of its row of the grid. -/
theorem cover0_3 (i : S8192x1.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 1 := (i 1).isLt
  have htlt : 4 * ((i 0).val / 1024) + 3 < cfg0.N := by rw [hN]; omega
  have hmod : (⟨4 * ((i 0).val / 1024) + 3, htlt⟩ : Fin cfg0.N).val % 4 = 3 := by
    show (4 * ((i 0).val / 1024) + 3) % 4 = 3; omega
  refine ⟨⟨4 * ((i 0).val / 1024) + 3, htlt⟩, (flush0_3 _).mpr hmod, ?_⟩
  obtain ⟨-, -, -, -, -, -, h0, h1⟩ := index0 ⟨4 * ((i 0).val / 1024) + 3, htlt⟩
  show i ∈ ((View.whole main_v9_1).slice (win0_3.rect ⟨4 * ((i 0).val / 1024) + 3, htlt⟩)).set
  rw [View.set_slice_whole, Rect.mem_set_unit]
  intro a
  match a with
  | ⟨0, _⟩ =>
    show win0_3.index ⟨4 * ((i 0).val / 1024) + 3, htlt⟩ (0 : Fin 2) * 1024 ≤ (i 0).val ∧ (i 0).val < win0_3.index ⟨4 * ((i 0).val / 1024) + 3, htlt⟩ (0 : Fin 2) * 1024 + 1024
    rw [h0]; show (4 * ((i 0).val / 1024) + 3) / 4 * 1024 ≤ (i 0).val ∧ (i 0).val < (4 * ((i 0).val / 1024) + 3) / 4 * 1024 + 1024; omega
  | ⟨1, _⟩ =>
    show win0_3.index ⟨4 * ((i 0).val / 1024) + 3, htlt⟩ (1 : Fin 2) * 1 ≤ (i 1).val ∧ (i 1).val < win0_3.index ⟨4 * ((i 0).val / 1024) + 3, htlt⟩ (1 : Fin 2) * 1 + 1
    rw [h1]; omega

theorem arr0_3_of_blocks (c : Dev nD) (G : Vec F S8192x1 .f32)
    (h : ∀ (t : Fin cfg0.N), t.val % 4 = 3 → ∀ (r : Fin 1024) (hlt : (t.val / 4) * 1024 + r.val < 8192),
      ((dat0 V c).after 3 t : Vec F S1024x1 .f32) (ix2 r 0) = G (ix2 ⟨(t.val / 4) * 1024 + r.val, hlt⟩ 0)) :
    (dat0 V c).arrAt 3 cfg0.N = G := by
  refine (dat0 V c).arrAt_eq_of_cover 3 G (fun t hf => ?_) (fun i => cover0_3 i)
  have hN : cfg0.N = 32 := N_0
  have h3 : t.val % 4 = 3 := (flush0_3 t).mp hf
  obtain ⟨-, -, -, -, -, -, h0, h1⟩ := index0 t
  show (cfg0.win 3).cut (grid0.coords t) ((dat0 V c).after 3 t) = ((cfg0.win 3).blk t).view.read (Elt F) G
  funext j
  obtain ⟨r, d, rfl⟩ : ∃ (r : Fin 1024) (d : Fin 1), j = ix2 r d := ⟨j 0, j 1, eq_ix2 j⟩
  obtain rfl : d = 0 := Subsingleton.elim _ _
  have htl : t.val < 32 := lt_of_lt_of_eq t.isLt N_0
  have hlt : (t.val / 4) * 1024 + r.val < 8192 := by have := r.isLt; omega
  show ((dat0 V c).after 3 t : Vec F S1024x1 .f32) (ix2 r 0) = G (((cfg0.win 3).blk t).view.emb (ix2 r 0))
  rw [h t h3 r hlt]
  congr 1
  funext a
  apply Fin.ext
  match a with
  | ⟨0, _⟩ => show (t.val / 4) * 1024 + r.val = win0_3.index t (0 : Fin 2) * 1024 + 1 * r.val; rw [h0]; omega
  | ⟨1, _⟩ => show 0 = win0_3.index t (1 : Fin 2) * 1 + 1 * 0; rw [h1]

/-- Every index of the array lies in the block written back at the last point of its row of the grid. -/
theorem cover1_3 (i : S8192x1.Idx) :
    ∃ t : Fin cfg1.N, (cfg1.win 3).flush t = true ∧ i ∈ ((cfg1.win 3).blk t).view.set := by
  have hN : cfg1.N = 64 := N_1
  have hi0 : (i 0).val < 8192 := (i 0).isLt
  have hi1 : (i 1).val < 1 := (i 1).isLt
  have htlt : 8 * ((i 0).val / 1024) + 7 < cfg1.N := by rw [hN]; omega
  have hmod : (⟨8 * ((i 0).val / 1024) + 7, htlt⟩ : Fin cfg1.N).val % 8 = 7 := by
    show (8 * ((i 0).val / 1024) + 7) % 8 = 7; omega
  refine ⟨⟨8 * ((i 0).val / 1024) + 7, htlt⟩, (flush1_3 _).mpr hmod, ?_⟩
  obtain ⟨-, -, -, -, -, -, h0, h1⟩ := index1 ⟨8 * ((i 0).val / 1024) + 7, htlt⟩
  show i ∈ ((View.whole main_v20).slice (win1_3.rect ⟨8 * ((i 0).val / 1024) + 7, htlt⟩)).set
  rw [View.set_slice_whole, Rect.mem_set_unit]
  intro a
  match a with
  | ⟨0, _⟩ =>
    show win1_3.index ⟨8 * ((i 0).val / 1024) + 7, htlt⟩ (0 : Fin 2) * 1024 ≤ (i 0).val ∧ (i 0).val < win1_3.index ⟨8 * ((i 0).val / 1024) + 7, htlt⟩ (0 : Fin 2) * 1024 + 1024
    rw [h0]; show (8 * ((i 0).val / 1024) + 7) / 8 * 1024 ≤ (i 0).val ∧ (i 0).val < (8 * ((i 0).val / 1024) + 7) / 8 * 1024 + 1024; omega
  | ⟨1, _⟩ =>
    show win1_3.index ⟨8 * ((i 0).val / 1024) + 7, htlt⟩ (1 : Fin 2) * 1 ≤ (i 1).val ∧ (i 1).val < win1_3.index ⟨8 * ((i 0).val / 1024) + 7, htlt⟩ (1 : Fin 2) * 1 + 1
    rw [h1]; omega

theorem arr1_3_of_blocks (c : Dev nD) (G : Vec F S8192x1 .f32)
    (h : ∀ (t : Fin cfg1.N), t.val % 8 = 7 → ∀ (r : Fin 1024) (hlt : (t.val / 8) * 1024 + r.val < 8192),
      ((dat1 V c).after 3 t : Vec F S1024x1 .f32) (ix2 r 0) = G (ix2 ⟨(t.val / 8) * 1024 + r.val, hlt⟩ 0)) :
    (dat1 V c).arrAt 3 cfg1.N = G := by
  refine (dat1 V c).arrAt_eq_of_cover 3 G (fun t hf => ?_) (fun i => cover1_3 i)
  have hN : cfg1.N = 64 := N_1
  have h3 : t.val % 8 = 7 := (flush1_3 t).mp hf
  obtain ⟨-, -, -, -, -, -, h0, h1⟩ := index1 t
  show (cfg1.win 3).cut (grid1.coords t) ((dat1 V c).after 3 t) = ((cfg1.win 3).blk t).view.read (Elt F) G
  funext j
  obtain ⟨r, d, rfl⟩ : ∃ (r : Fin 1024) (d : Fin 1), j = ix2 r d := ⟨j 0, j 1, eq_ix2 j⟩
  obtain rfl : d = 0 := Subsingleton.elim _ _
  have htl : t.val < 64 := lt_of_lt_of_eq t.isLt N_1
  have hlt : (t.val / 8) * 1024 + r.val < 8192 := by have := r.isLt; omega
  show ((dat1 V c).after 3 t : Vec F S1024x1 .f32) (ix2 r 0) = G (((cfg1.win 3).blk t).view.emb (ix2 r 0))
  rw [h t h3 r hlt]
  congr 1
  funext a
  apply Fin.ext
  match a with
  | ⟨0, _⟩ => show (t.val / 8) * 1024 + r.val = win1_3.index t (0 : Fin 2) * 1024 + 1 * r.val; rw [h0]; omega
  | ⟨1, _⟩ => show 0 = win1_3.index t (1 : Fin 2) * 1 + 1 * 0; rw [h1]

end Cert.KernelIdeal.Hand

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KI.Val0.lean ====
/-
  Region 0's two result arrays are the specification's label sums and label counts.

  At grid point t = 4 s + b the body adds to the sums block (zeroed at b = 0) the product of a one-hot tile with the
  input tile: entry (r, k) of the one-hot tile is 1 when label b*2048 + k names row s*1024 + r and 0 otherwise, so
  the product at (r, d) is the sum over the tile's 2048 rows k of [label = row] * e (b*2048 + k, d); 1 * x = x and
  0 * x = 0 on the extended reals. The counts block takes the same product against a column of ones. By induction on
  the position, after point t the blocks hold the shares of the first (b + 1) * 2048 rows; after b = 3 that is the sum
  over all 8192 rows, which is the specification at row s*1024 + r; the block is written back at exactly those points
  into rows s*1024 .. s*1024 + 1023, and the eight blocks cover the array.
-/
import proofs.«429809_j15006615733567_3_alg».proof.Proof.KI.R0
import proofs.«429809_j15006615733567_3_alg».proof.Proof.KI.Blocks
import proofs.«429809_j15006615733567_3_alg».proof.Proof.Spec
import proofs.«429809_j15006615733567_3_alg».proof.Proof.LibDotSum
import Idealize.ShloMosaic.Lib.Pipeline.Value
import Idealize.ShloMosaic.Lib.ValueIdx
import Idealize.ShloMosaic.PureOps.Ideal
import Idealize.ShloMosaic.PureOps.Ideal.Laws
import Idealize.ShloMosaic.Lib.StableHlo.Predicate
import Idealize.ShloMosaic.Lib.ValueLayout
import Idealize.ShloMosaic.Lib.IdealHost
import Mathlib.Algebra.BigOperators.Fin

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The payloads at an index -/

/-- The row number the kernel compares with a label: a*1024 + r as a 32-bit word, without wrapping. -/
theorem r0_rowWord (a r : Nat) (ha : a < 8) (hr : r < 1024) :
    IntOp.addi (Scalar.muli (BitVec.ofNat 32 a) 1024#32) (BitVec.ofNat 32 r) = BitVec.ofNat 32 (a * 1024 + r) := by
  apply BitVec.eq_of_toNat_eq
  simp [IntOp.addi, Scalar.muli, IntOp.muli, BitVec.toNat_add, BitVec.toNat_mul, BitVec.toNat_ofNat]

theorem r0_sitofp_bit_one : FloatOps.sitofp (F := Ideal) FTy.f32 (BitVec.setWidth 32 (1#1 : BitVec 1)) = (1 : EReal) := by
  show (((BitVec.setWidth 32 (1#1 : BitVec 1)).toInt : ℝ) : EReal) = 1
  rw [show (BitVec.setWidth 32 (1#1 : BitVec 1)).toInt = 1 from by decide]
  simp

theorem r0_sitofp_bit_zero : FloatOps.sitofp (F := Ideal) FTy.f32 (BitVec.setWidth 32 (0#1 : BitVec 1)) = (0 : EReal) := by
  show (((BitVec.setWidth 32 (0#1 : BitVec 1)).toInt : ℝ) : EReal) = 0
  rw [show (BitVec.setWidth 32 (0#1 : BitVec 1)).toInt = 0 from by decide]
  simp

/-- The one-hot block: entry (r, k) is one when label k of the block names row a*1024 + r, else zero. -/
theorem r0_onehot_apply (i : grid0.Coords) (l : IVec S1x2048 32) (r : Fin 1024) (k : Fin 2048) :
    (k0_pay3 (F := Ideal) i l : FVec Ideal S1024x2048 .bf16) (ix2 r k)
      = if (l (ix2 0 k)).toNat = (i 0).val * 1024 + r.val then (1 : EReal) else 0 := by
  unfold k0_pay3
  dsimp only
  rw [truncf_apply, sitofp_apply, extui_apply]
  show FloatOps.sitofp (F := Ideal) FTy.f32 (BitVec.setWidth 32 (IntOp.cmpi .eq
      (IntOp.addi (Scalar.muli (BitVec.ofNat 32 (i 0).val) 1024#32) (iota .tc S1024x2048 32 [0] iota_S1024x2048_d0_w32 (ix2 r k)))
      (broadcastTo S1024x2048 (shapeCast S1x2048 l shapeCasts_S1x2048_S1x2048) broadcasts_S1x2048_S1024x2048 (ix2 r k)))) = _
  rw [iota_single_apply, shapeCast_self, broadcastTo_1b_ab_apply]
  have ha : (i 0).val < 8 := (i 0).isLt
  have hr : r.val < 1024 := r.isLt
  show FloatOps.sitofp (F := Ideal) FTy.f32 (BitVec.setWidth 32 (IntOp.cmpi .eq
      (IntOp.addi (Scalar.muli (BitVec.ofNat 32 (i 0).val) 1024#32) (BitVec.ofNat 32 r.val)) (l (ix2 0 k)))) = _
  rw [r0_rowWord _ _ ha hr]
  by_cases h : (l (ix2 0 k)).toNat = (i 0).val * 1024 + r.val
  · rw [if_pos h, StableHlo.Predicate.cmpi_eq_iff.mpr (BitVec.eq_of_toNat_eq (by rw [BitVec.toNat_ofNat, h]; omega))]
    exact r0_sitofp_bit_one
  · have hne : IntOp.cmpi .eq (BitVec.ofNat 32 ((i 0).val * 1024 + r.val)) (l (ix2 0 k)) = 0#1 :=
      eq_zero_of_ne_one fun e => h (by
        have := congrArg BitVec.toNat (StableHlo.Predicate.cmpi_eq_iff.mp e)
        rw [BitVec.toNat_ofNat] at this; omega)
    rw [if_neg h, hne]
    exact r0_sitofp_bit_zero

/-- The sums payload at (r, d): what the block held plus the rows of the input block whose label names row a*1024 + r. -/
theorem r0_pay4_apply (i : grid0.Coords) (x : Vec Ideal S2048x256 .bf16) (l : Vec Ideal S1x2048 .i32)
    (acc : Vec Ideal S1024x256 .f32) (r : Fin 1024) (d : Fin 256) :
    k0_pay4 (F := Ideal) i x l acc (ix2 r d)
      = acc (ix2 r d) + ∑ k : Fin 2048, (if (l (ix2 0 k)).toNat = (i 0).val * 1024 + r.val then (x (ix2 k d) : EReal) else 0) := by
  unfold k0_pay4
  dsimp only
  rw [addf_apply, shapeCast_self, shapeCast_self,
    Cert.Lib.matmul_rc_apply dot_S1024x2048_S2048x256_S1024x256_1_0_0_1_n_n rfl rfl rfl rfl rfl rfl]
  refine congrArg (acc (ix2 r d) + ·) (Finset.sum_congr rfl fun k _ => ?_)
  rw [r0_onehot_apply]
  split
  · exact one_mul _
  · exact zero_mul _

/-- The counts payload at (r, 0): what the block held plus the number of labels of the block naming row a*1024 + r. -/
theorem r0_pay5_apply (i : grid0.Coords) (l : Vec Ideal S1x2048 .i32)
    (acc : Vec Ideal S1024x1 .f32) (r : Fin 1024) (d : Fin 1) :
    k0_pay5 (F := Ideal) i l acc (ix2 r d)
      = acc (ix2 r d) + ∑ k : Fin 2048, (if (l (ix2 0 k)).toNat = (i 0).val * 1024 + r.val then (1 : EReal) else 0) := by
  unfold k0_pay5
  dsimp only
  rw [addf_apply, shapeCast_self,
    Cert.Lib.matmul_rc_apply dot_S1024x2048_S2048x1_S1024x1_1_0_0_1_n_n rfl rfl rfl rfl rfl rfl]
  refine congrArg (acc (ix2 r d) + ·) (Finset.sum_congr rfl fun k _ => ?_)
  rw [r0_onehot_apply, broadcast_apply]
  show _ * Ideal.ofBits .bf16 0x3F80#16 = _
  rw [Ideal.ofBits_one_bf16, mul_one]

/-! ## The accumulation over the points -/

/-- The labels row [1,8192] as a vector over [8192]. -/
def lrow (c : Dev nD) : IVec Cert.Spec.SB 32 := fun i => (V c main_v7 : IVec S1x8192 32) (ix2 0 (i 0))

/-- Row j's share of the sum at (row, d): its entry when its label names the row; nothing past the array's end. -/
def r0_sterm (c : Dev nD) (row : Nat) (d : Fin 256) (j : Nat) : EReal :=
  if h : j < 8192 then
    (if (lrow V c (ix1 ⟨j, h⟩)).toNat = row then (V c main_v6 : FVec Ideal Cert.Spec.SBxD .f32) (ix2 ⟨j, h⟩ d) else 0)
  else 0

/-- Row j's share of the count at row: one when its label names the row; nothing past the array's end. -/
def r0_cterm (c : Dev nD) (row : Nat) (j : Nat) : EReal :=
  if h : j < 8192 then (if (lrow V c (ix1 ⟨j, h⟩)).toNat = row then (1 : EReal) else 0) else 0

/-- One point adds to the sums block the shares of its 2048 rows. -/
theorem r0_point_sums (c : Dev nD) (t : Fin cfg0.N) (acc : Vec Ideal S1024x256 .f32) (r : Fin 1024) (d : Fin 256) :
    k0_pay4 (F := Ideal) (grid0.coords t) (iblk0 V c 0 t) (iblk0 V c 1 t) acc (ix2 r d)
      = acc (ix2 r d) + ∑ k ∈ Finset.range 2048, r0_sterm V c (t.val / 4 * 1024 + r.val) d (t.val % 4 * 2048 + k) := by
  rw [r0_pay4_apply, Finset.sum_range]
  refine congrArg (acc (ix2 r d) + ·) (Finset.sum_congr rfl fun k _ => ?_)
  have hk : t.val % 4 * 2048 + k.val < 8192 := by have := k.isLt; omega
  unfold r0_sterm
  rw [dif_pos hk, iblk0_1_apply V c t k hk, iblk0_0_apply V c t k d hk, (coords0 t).1]
  rfl

/-- One point adds to the counts block the shares of its 2048 rows. -/
theorem r0_point_counts (c : Dev nD) (t : Fin cfg0.N) (acc : Vec Ideal S1024x1 .f32) (r : Fin 1024) (d : Fin 1) :
    k0_pay5 (F := Ideal) (grid0.coords t) (iblk0 V c 1 t) acc (ix2 r d)
      = acc (ix2 r d) + ∑ k ∈ Finset.range 2048, r0_cterm V c (t.val / 4 * 1024 + r.val) (t.val % 4 * 2048 + k) := by
  rw [r0_pay5_apply, Finset.sum_range]
  refine congrArg (acc (ix2 r d) + ·) (Finset.sum_congr rfl fun k _ => ?_)
  have hk : t.val % 4 * 2048 + k.val < 8192 := by have := k.isLt; omega
  unfold r0_cterm
  rw [dif_pos hk, iblk0_1_apply V c t k hk, (coords0 t).1]
  rfl

theorem r0_pay1_apply (j : S1024x256.Idx) : (k0_pay1 (F := Ideal) : FVec Ideal S1024x256 .f32) j = 0 := by
  unfold k0_pay1
  show Ideal.ofBits .f32 0x00000000#32 = 0
  exact Ideal.ofBits_zero_f32

theorem r0_pay2_apply (j : S1024x1.Idx) : (k0_pay2 (F := Ideal) : FVec Ideal S1024x1 .f32) j = 0 := by
  unfold k0_pay2
  show Ideal.ofBits .f32 0x00000000#32 = 0
  exact Ideal.ofBits_zero_f32

/-- After the point at position n the blocks hold the shares of the first (n % 4 + 1) * 2048 rows, for the block's
    rows n / 4 * 1024 + r: by induction on the position. -/
theorem r0_acc0_inv (c : Dev nD) : ∀ (n : ℕ) (hn : n < cfg0.N) (r : Fin 1024),
    (∀ d : Fin 256, (acc0 V c n hn).1 (ix2 r d)
        = ∑ j ∈ Finset.range ((n % 4 + 1) * 2048), r0_sterm V c (n / 4 * 1024 + r.val) d j)
    ∧ (∀ d : Fin 1, (acc0 V c n hn).2 (ix2 r d)
        = ∑ j ∈ Finset.range ((n % 4 + 1) * 2048), r0_cterm V c (n / 4 * 1024 + r.val) j) := by
  intro n
  induction n using Nat.strong_induction_on with
  | _ n ih =>
    intro hn r
    by_cases h0 : n % 4 = 0
    · have e : acc0 V c n hn = _ := acc0_reset V c ⟨n, hn⟩ h0
      rw [e]
      dsimp only
      constructor
      · intro d
        rw [r0_point_sums, r0_pay1_apply, zero_add]
        show ∑ k ∈ Finset.range 2048, r0_sterm V c (n / 4 * 1024 + r.val) d (n % 4 * 2048 + k) = _
        rw [h0, show (0 + 1) * 2048 = 0 * 2048 + 2048 from rfl, Finset.sum_range_add, Nat.zero_mul,
          Finset.sum_range_zero, zero_add]
      · intro d
        rw [r0_point_counts, r0_pay2_apply, zero_add]
        show ∑ k ∈ Finset.range 2048, r0_cterm V c (n / 4 * 1024 + r.val) (n % 4 * 2048 + k) = _
        rw [h0, show (0 + 1) * 2048 = 0 * 2048 + 2048 from rfl, Finset.sum_range_add, Nat.zero_mul,
          Finset.sum_range_zero, zero_add]
    · obtain ⟨m, rfl⟩ : ∃ m, n = m + 1 := ⟨n - 1, by omega⟩
      have e : acc0 V c (m + 1) hn = _ := acc0_step V c ⟨m + 1, hn⟩ h0
      have hq : m / 4 = (m + 1) / 4 := by omega
      have hr4 : (m + 1) % 4 = m % 4 + 1 := by omega
      obtain ⟨i1, i2⟩ := ih m (Nat.lt_succ_self m) (Nat.lt_of_succ_lt hn) r
      rw [e]
      dsimp only
      constructor
      · intro d
        rw [r0_point_sums]
        show (acc0 V c m _).1 (ix2 r d) + ∑ k ∈ Finset.range 2048, r0_sterm V c ((m + 1) / 4 * 1024 + r.val) d ((m + 1) % 4 * 2048 + k) = _
        rw [i1 d, hq, hr4, show (m % 4 + 1 + 1) * 2048 = (m % 4 + 1) * 2048 + 2048 from by omega, Finset.sum_range_add]
      · intro d
        rw [r0_point_counts]
        show (acc0 V c m _).2 (ix2 r d) + ∑ k ∈ Finset.range 2048, r0_cterm V c ((m + 1) / 4 * 1024 + r.val) ((m + 1) % 4 * 2048 + k) = _
        rw [i2 d, hq, hr4, show (m % 4 + 1 + 1) * 2048 = (m % 4 + 1) * 2048 + 2048 from by omega, Finset.sum_range_add]

/-! ## The arrays after the region -/

theorem arr_sums (c : Dev nD) : (dat0 V c).arrAt 2 cfg0.N = Cert.Spec.sums (V c main_v6) (lrow V c) := by
  refine arr0_2_of_blocks V c _ fun t h3 r d hlt => ?_
  rw [after0_2]
  refine ((r0_acc0_inv V c t.val t.isLt r).1 d).trans ?_
  rw [h3]
  show ∑ j ∈ Finset.range 8192, r0_sterm V c (t.val / 4 * 1024 + r.val) d j = _
  rw [Finset.sum_range]
  unfold Cert.Spec.sums
  refine Finset.sum_congr rfl fun b _ => ?_
  unfold r0_sterm
  rw [dif_pos b.isLt]

theorem arr_counts (c : Dev nD) : (dat0 V c).arrAt 3 cfg0.N = Cert.Spec.counts (lrow V c) := by
  refine arr0_3_of_blocks V c _ fun t h3 r hlt => ?_
  rw [after0_3]
  refine ((r0_acc0_inv V c t.val t.isLt r).2 0).trans ?_
  rw [h3]
  show ∑ j ∈ Finset.range 8192, r0_cterm V c (t.val / 4 * 1024 + r.val) j = _
  rw [Finset.sum_range]
  unfold Cert.Spec.counts
  refine Finset.sum_congr rfl fun b _ => ?_
  unfold r0_cterm
  rw [dif_pos b.isLt]

end Cert.KernelIdeal.Hand

end
-- ==== Proof.KI.Val1a.lean ====
/-
  The second region's payloads, read at an index. The product contracts the 256 columns of both operands:
  entry (r, j) is the cosine sum over d of e r d * p j d. The masked lane sum picks the cosine at the row's own
  label when that label falls in the tile's column block; the lane maximum is the largest cosine of the tile's
  columns, with the diagonal entry lowered by the margin where the row and column blocks meet; the last payload
  is the hinge max (m - p + margin) 0.
-/
import proofs.«429809_j15006615733567_3_alg».proof.Proof.Gen.KernelIdeal.Skeleton
import proofs.«429809_j15006615733567_3_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.ValueIdx

/-- The cosine of row r of e and row j of p: the sum over the 256 columns of the products. -/
def tcos (e p : Vec Ideal S1024x256 .bf16) (r j : Fin 1024) : EReal := ∑ d : Fin 256, e (ix2 r d) * p (ix2 j d)

/-! ## The product: both operands contracted over their columns -/

theorem dot_lhs_0 (o : S1024x1024.Idx) (q : dot_S1024x256_S1024x256_S1024x1024_1_1_0_0_n_n.contr.Idx) :
    (dot_S1024x256_S1024x256_S1024x1024_1_1_0_0_n_n.lhsIdx o q 0).val = (o 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem dot_lhs_1 (o : S1024x1024.Idx) (q : dot_S1024x256_S1024x256_S1024x1024_1_1_0_0_n_n.contr.Idx) :
    (dot_S1024x256_S1024x256_S1024x1024_1_1_0_0_n_n.lhsIdx o q 1).val = (q ⟨0, by decide⟩).val :=
  dot_S1024x256_S1024x256_S1024x1024_1_1_0_0_n_n.lhsIdx_val_of_single rfl o q
theorem dot_rhs_0 (o : S1024x1024.Idx) (q : dot_S1024x256_S1024x256_S1024x1024_1_1_0_0_n_n.contr.Idx) :
    (dot_S1024x256_S1024x256_S1024x1024_1_1_0_0_n_n.rhsIdx o q 0).val = (o 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem dot_rhs_1 (o : S1024x1024.Idx) (q : dot_S1024x256_S1024x256_S1024x1024_1_1_0_0_n_n.contr.Idx) :
    (dot_S1024x256_S1024x256_S1024x1024_1_1_0_0_n_n.rhsIdx o q 1).val = (q ⟨0, by decide⟩).val :=
  dot_S1024x256_S1024x256_S1024x1024_1_1_0_0_n_n.rhsIdx_val_of_single rfl o q

/-! ## Words and small facts -/

theorem ofBits_neg_inf : Ideal.ofBits .f32 0xFF800000#32 = (⊥ : EReal) := by simp [Ideal.ofBits, Ideal.ieee]

/-- A select on a word equality is the `if` on the words' values. -/
theorem select_cmpi_eq {α : Type} (x y : BitVec 32) (a b : α) :
    Scalar.select (IntOp.cmpi .eq x y) a b = if x.toNat = y.toNat then a else b := by
  by_cases h : x.toNat = y.toNat
  · rw [if_pos h, (IntOp.cmpi_eq).2 (BitVec.eq_of_toNat_eq h), select_one]
  · rw [if_neg h, eq_zero_of_ne_one (fun hc => h (congrArg BitVec.toNat ((IntOp.cmpi_eq).1 hc))), select_zero]

/-- A block number below 8 times 1024 plus an offset below 1024, as a 32-bit word, does not wrap. -/
theorem toNat_block (n k : Nat) (hn : n < 8) (hk : k < 1024) :
    (IntOp.addi (Scalar.muli (BitVec.ofNat 32 n) 1024#32) (BitVec.ofNat 32 k)).toNat = n * 1024 + k := by
  show (BitVec.ofNat 32 n * 1024#32 + BitVec.ofNat 32 k).toNat = n * 1024 + k
  rw [BitVec.toNat_add, BitVec.toNat_mul, BitVec.toNat_ofNat, BitVec.toNat_ofNat, BitVec.toNat_ofNat]
  have e1 : n % 2 ^ 32 = n := Nat.mod_eq_of_lt (by omega)
  have e2 : k % 2 ^ 32 = k := Nat.mod_eq_of_lt (by omega)
  have e3 : 1024 % 2 ^ 32 = 1024 := by decide
  rw [e1, e2, e3, Nat.mod_eq_of_lt (show n * 1024 < 2 ^ 32 by omega), Nat.mod_eq_of_lt (by omega)]

/-! ## The lane reductions with the unit axis kept -/

/-- A vector over [1024] viewed as [1024, 1] reads, at (r, 0), the vector at r. -/
theorem keep_apply {α : Type} (v : S1024.Idx → α) (r : Fin 1024) :
    shapeCast S1024x1 v shapeCasts_S1024_S1024x1 (ix2 r 0) = v (ix1 r) :=
  shapeCast_apply v shapeCasts_S1024_S1024x1 (ix2 r (0 : Fin 1)) (ix1 r) (by
    rw [Shape.rowMajor_val_two, Shape.rowMajor_val_one]
    show r.val = r.val * 1 + 0
    omega)

/-- Row r with the column k inserted is the index (r, k). -/
theorem lift_row (r k : Fin 1024) : reduces_S1024x1024_S1024.lift (ix1 r) k = ix2 r k :=
  funext fun a => Fin.ext (by
    match a with
    | ⟨0, _⟩ => rfl
    | ⟨1, _⟩ => rfl)

/-- The lane sum of a [1024, 1024] tile, unit axis kept, at (r, 0): the sum of row r. -/
theorem rowSum_apply (v : FVec Ideal S1024x1024 .f32) (r : Fin 1024) :
    shapeCast S1024x1 (multiReduction (F := Ideal) .add [1] S1024 v 0x00000000#32 reduces_S1024x1024_S1024 (.inl rfl) rfl)
        shapeCasts_S1024_S1024x1 (ix2 r 0)
      = ∑ k : Fin 1024, v (ix2 r k) := by
  rw [keep_apply]
  refine (Ideal.multiReduction_add_single v _ reduces_S1024x1024_S1024 _ _ (ix1 r)).trans ?_
  exact Finset.sum_congr rfl fun k _ => congrArg v (lift_row r k)

/-- The lane maximum of a [1024, 1024] tile, unit axis kept, at (r, 0): the supremum of row r. -/
theorem rowMax_apply (v : FVec Ideal S1024x1024 .f32) (r : Fin 1024) :
    shapeCast S1024x1 (multiReduction (F := Ideal) .maximumf [1] S1024 v 0xFF800000#32 reduces_S1024x1024_S1024 (.inl rfl) rfl)
        shapeCasts_S1024_S1024x1 (ix2 r 0)
      = Finset.univ.sup fun k : Fin 1024 => v (ix2 r k) := by
  rw [keep_apply]
  refine (Ideal.multiReduction_maximumf_single v _ reduces_S1024x1024_S1024 _ _ (ix1 r)).trans ?_
  show (Finset.univ : Finset (Fin 1024)).fold max (Ideal.ofBits .f32 0xFF800000#32) (v ∘ reduces_S1024x1024_S1024.lift (ix1 r)) = _
  rw [ofBits_neg_inf]
  unfold Finset.sup
  congr 1
  funext k
  exact congrArg v (lift_row r k)

/-- The column numbers of the tile at grid point i: entry (r, k) is n * 1024 + k, n the tile's column block. -/
theorem pay5_toNat (i : grid1.Coords) (r k : Fin 1024) : (k1_pay5 i (ix2 r k)).toNat = (i 1).val * 1024 + k.val := by
  have h1 : (i 1).val < 8 := (i 1).isLt
  have e : iota .tc S1024x1024 32 [1] iota_S1024x1024_d1_w32 (ix2 r k) = BitVec.ofNat 32 k.val :=
    iota_single_apply .tc S1024x1024 32 1 iota_S1024x1024_d1_w32 (ix2 r k)
  show (IntOp.addi (Scalar.muli (BitVec.ofNat 32 (i 1).val) 1024#32)
    (iota .tc S1024x1024 32 [1] iota_S1024x1024_d1_w32 (ix2 r k))).toNat = _
  rw [e]
  exact toNat_block _ _ h1 k.isLt

/-- The row numbers of the tile at grid point i: entry (r, k) is m * 1024 + r, m the tile's row block. -/
theorem rows_toNat (i : grid1.Coords) (r k : Fin 1024) :
    (addi (broadcast S1024x1024 (Scalar.muli (BitVec.ofNat 32 (i 0).val) 1024#32))
      (iota .tc S1024x1024 32 [0] iota_S1024x1024_d0_w32) (ix2 r k)).toNat = (i 0).val * 1024 + r.val := by
  have h0 : (i 0).val < 8 := (i 0).isLt
  have e : iota .tc S1024x1024 32 [0] iota_S1024x1024_d0_w32 (ix2 r k) = BitVec.ofNat 32 r.val :=
    iota_single_apply .tc S1024x1024 32 0 iota_S1024x1024_d0_w32 (ix2 r k)
  show (IntOp.addi (Scalar.muli (BitVec.ofNat 32 (i 0).val) 1024#32)
    (iota .tc S1024x1024 32 [0] iota_S1024x1024_d0_w32 (ix2 r k))).toNat = _
  rw [e]
  exact toNat_block _ _ h0 r.isLt

/-- The label column broadcast along the lanes reads, at (r, k), the label of row r. -/
theorem lanes_apply (lbl : Vec Ideal S1024x1 .i32) (r k : Fin 1024) :
    broadcastTo S1024x1024 lbl broadcasts_S1024x1_S1024x1024 (ix2 r k) = lbl (ix2 r 0) :=
  broadcastTo_apply lbl broadcasts_S1024x1_S1024x1024 (ix2 r k) (ix2 r (0 : Fin 1)) (fun a => by
    match a with
    | ⟨0, _⟩ => show r.val = if (1024 : Nat) = 1 then 0 else r.val; rw [if_neg (by decide)]
    | ⟨1, _⟩ => show (0 : Nat) = if (1 : Nat) = 1 then 0 else k.val; rw [if_pos rfl])

variable (e p : Vec Ideal S1024x256 .bf16) (lbl : Vec Ideal S1024x1 .i32) (prev mm pp : Vec Ideal S1024x1 .f32)
  (i : grid1.Coords) (r j : Fin 1024)

theorem pay4_apply : k1_pay4 (F := Ideal) e p (ix2 r j) = tcos e p r j := by
  unfold k1_pay4 tcos
  simp only [shapeCast_self, matmul]
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r j) ((contrEquiv1 dot_S1024x256_S1024x256_S1024x1024_1_1_0_0_n_n 256 rfl rfl).symm k) = ix2 r k :=
    funext fun a => Fin.ext (by
      match a with
      | ⟨0, _⟩ => exact dot_lhs_0 _ _
      | ⟨1, _⟩ => exact (dot_lhs_1 _ _).trans hk)
  have er : dot_S1024x256_S1024x256_S1024x1024_1_1_0_0_n_n.rhsIdx (ix2 r j) ((contrEquiv1 dot_S1024x256_S1024x256_S1024x1024_1_1_0_0_n_n 256 rfl rfl).symm k) = ix2 j k :=
    funext fun a => Fin.ext (by
      match a with
      | ⟨0, _⟩ => exact dot_rhs_0 _ _
      | ⟨1, _⟩ => exact (dot_rhs_1 _ _).trans hk)
  rw [el, er]

theorem pay2_apply : k1_pay2 (F := Ideal) (ix2 r 0) = (⊥ : EReal) := by
  unfold k1_pay2
  simp only [shapeCast_self]
  exact ofBits_neg_inf

theorem pay3_apply : k1_pay3 (F := Ideal) (ix2 r 0) = (0 : EReal) := by
  unfold k1_pay3
  simp only [shapeCast_self]
  exact Ideal.ofBits_zero_f32

theorem pay6_apply : k1_pay6 (F := Ideal) i e p lbl prev (ix2 r 0)
    = prev (ix2 r 0) + ∑ j : Fin 1024, (if (lbl (ix2 r 0)).toNat = (i 1).val * 1024 + j.val then tcos e p r j else 0) := by
  unfold k1_pay6
  simp only [shapeCast_self]
  rw [addf_apply, rowSum_apply]
  refine congrArg (prev (ix2 r 0) + ·) (Finset.sum_congr rfl fun k _ => ?_)
  rw [select_apply, pay4_apply]
  show Scalar.select (IntOp.cmpi .eq (k1_pay5 i (ix2 r k)) (broadcastTo S1024x1024 lbl broadcasts_S1024x1_S1024x1024 (ix2 r k)))
    (tcos e p r k) (Ideal.ofBits .f32 0x00000000#32) = _
  rw [lanes_apply, select_cmpi_eq, pay5_toNat, Ideal.ofBits_zero_f32]
  exact if_congr eq_comm rfl rfl

theorem pay8_apply : k1_pay8 (F := Ideal) e p prev (ix2 r 0)
    = max (prev (ix2 r 0)) (Finset.univ.sup fun j : Fin 1024 => tcos e p r j) := by
  unfold k1_pay8
  simp only [shapeCast_self]
  rw [maximumf_apply, rowMax_apply]
  exact congrArg (max (prev (ix2 r 0))) (congrArg Finset.univ.sup (funext fun k => pay4_apply e p r k))

theorem pay7_apply : k1_pay7 (F := Ideal) i e p prev (ix2 r 0)
    = max (prev (ix2 r 0)) (Finset.univ.sup fun j : Fin 1024 =>
        if (i 0).val * 1024 + r.val = (i 1).val * 1024 + j.val then tcos e p r j - Cert.Spec.margin else tcos e p r j) := by
  unfold k1_pay7
  simp only [shapeCast_self]
  rw [maximumf_apply, rowMax_apply]
  refine congrArg (max (prev (ix2 r 0))) (congrArg Finset.univ.sup (funext fun k => ?_))
  rw [select_apply, subf_apply, pay4_apply]
  show Scalar.select (IntOp.cmpi .eq
      (addi (broadcast S1024x1024 (Scalar.muli (BitVec.ofNat 32 (i 0).val) 1024#32))
        (iota .tc S1024x1024 32 [0] iota_S1024x1024_d0_w32) (ix2 r k)) (k1_pay5 i (ix2 r k)))
    (tcos e p r k - Cert.Spec.margin) (tcos e p r k) = _
  rw [select_cmpi_eq, rows_toNat, pay5_toNat]

theorem pay1_apply : k1_pay1 (F := Ideal) mm pp (ix2 r 0) = max (mm (ix2 r 0) - pp (ix2 r 0) + Cert.Spec.margin) 0 := by
  unfold k1_pay1
  show max (mm (ix2 r 0) - pp (ix2 r 0) + Ideal.ofBits .f32 0x3E4CCCCD#32) (Ideal.ofBits .f32 0x00000000#32) = _
  rw [Ideal.ofBits_zero_f32]
  rfl

end Cert.KernelIdeal.Hand

end
-- ==== Proof.KI.Val1.lean ====
/-
  The second region's result array is the specification's hinge, row by row.

  At grid point t = 8 m + n the body holds the 1024 rows m*1024 + r of the unit rows e, the 1024 rows n*1024 + j of
  the unit prototypes p and the labels of its rows; the tile's product entry (r, j) is the cosine of row m*1024 + r of
  e and row n*1024 + j of p. The positive accumulator, reset at n = 0, gains the tile's share of the row's cosine at
  its own label; the running maximum, reset to the bottom element at n = 0, takes the tile's largest cosine, the
  entry where row and column meet lowered by the margin. So after column block n the pair holds the sum, and the
  supremum, of the shares of column blocks 0, …, n (induction on the point, within one row block). The eight column
  blocks together are the 8192 columns (Fin 8 × Fin 1024 ≃ Fin 8192): after n = 7 the pair is the specification's
  pos and neg of the row, and the block written back is max (neg - pos + margin) 0, the hinge.
-/
import proofs.«429809_j15006615733567_3_alg».proof.Proof.KI.R1
import proofs.«429809_j15006615733567_3_alg».proof.Proof.Spec
import proofs.«429809_j15006615733567_3_alg».proof.Proof.KI.Val1a
import proofs.«429809_j15006615733567_3_alg».proof.Proof.KI.Blocks
import Idealize.ShloMosaic.Lib.Pipeline.Value
import Idealize.ShloMosaic.Lib.ValueIdx
import Mathlib.Algebra.BigOperators.Fin
import Mathlib.Data.Finset.Lattice.Fold

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The labels column, read as a vector over the rows. -/
def lcol (c : Dev nD) : IVec Cert.Spec.SB 32 := fun i => (V c main_v8 : IVec S8192x1 32) (ix2 (i 0) 0)

/-- The unit rows and the unit prototypes as the region finds them. -/
abbrev EE (c : Dev nD) : FVec Ideal Cert.Spec.SBxD .f32 := V c main_v6
abbrev PP (c : Dev nD) : FVec Ideal Cert.Spec.SBxD .f32 := V c main_v19

/-- Row `r` of row block `m` (the block index read modulo 8, so that the row exists for every natural). -/
def rowAt (m : ℕ) (r : Fin 1024) : Fin 8192 :=
  ⟨(m % 8) * 1024 + r.val, by have := r.isLt; have := Nat.mod_lt m (by decide : 0 < 8); omega⟩

private theorem rowAt_val (m : ℕ) (r : Fin 1024) (hm : m < 8) : (rowAt m r).val = m * 1024 + r.val := by
  unfold rowAt; simp only [Nat.mod_eq_of_lt hm]

/-- The printed index maps and the slab's offsets, decided over the grid. -/
private theorem idxs1 : ∀ t : Fin cfg1.N, win1_0.index t (0 : Fin 2) = t.val / 8 ∧ win1_0.index t (1 : Fin 2) = 0
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ k1_off1 (grid1.coords t) (0 : Fin 2) = 1024 * (t.val % 8) ∧ k1_off1 (grid1.coords t) (1 : Fin 2) = 0 :=
  (by decide +kernel : ∀ t : Fin grid1.N, _)

/-! ## The tile's reads: the blocks are the arrays at the tile's rows -/

private theorem etile_apply (c : Dev nD) (t : Fin cfg1.N) (r : Fin 1024) (d : Fin 256) :
    (iblk1 V c 0 t : Vec Ideal S1024x256 .bf16) (ix2 r d) = EE V c (ix2 (rowAt (t.val / 8) r) d) := by
  obtain ⟨e0, e1, -⟩ := idxs1 t
  have ht : t.val < 64 := t.isLt
  unfold iblk1
  rw [View.read_apply]
  show V c main_v6 _ = V c main_v6 _
  congr 1
  funext a
  apply Fin.ext
  match a with
  | ⟨0, _⟩ =>
    show win1_0.index t (0 : Fin 2) * 1024 + 1 * r.val = (rowAt (t.val / 8) r).val
    rw [rowAt_val _ _ (by omega), e0]; omega
  | ⟨1, _⟩ =>
    show win1_0.index t (1 : Fin 2) * 256 + 1 * d.val = d.val
    rw [e1]; omega

private theorem ltile_apply (c : Dev nD) (t : Fin cfg1.N) (r : Fin 1024) :
    (iblk1 V c 2 t : Vec Ideal S1024x1 .i32) (ix2 r 0) = lcol V c (ix1 (rowAt (t.val / 8) r)) := by
  obtain ⟨-, -, -, -, e0, e1, -⟩ := idxs1 t
  have ht : t.val < 64 := t.isLt
  unfold iblk1 lcol
  rw [View.read_apply]
  show V c main_v8 _ = V c main_v8 _
  congr 1
  funext a
  apply Fin.ext
  match a with
  | ⟨0, _⟩ =>
    show win1_2.index t (0 : Fin 2) * 1024 + 1 * r.val = (rowAt (t.val / 8) r).val
    rw [rowAt_val _ _ (by omega), e0]; omega
  | ⟨1, _⟩ =>
    show win1_2.index t (1 : Fin 2) * 1 + 1 * 0 = 0
    rw [e1]

private theorem ptile_apply (c : Dev nD) (t : Fin cfg1.N) (j : Fin 1024) (d : Fin 256) :
    pslab V c t (ix2 j d) = PP V c (ix2 (rowAt (t.val % 8) j) d) := by
  obtain ⟨-, -, e0, e1, -, -, -, -, o0, o1⟩ := idxs1 t
  unfold pslab
  show (iblk1 V c 1 t) ((Rect.unit (s := S8192x256) (k1_off1 (grid1.coords t)) S1024x256.size (k1_off1_inb (grid1.coords t))).emb (ix2 j d)) = _
  unfold iblk1
  rw [View.read_apply]
  show V c main_v19 _ = V c main_v19 _
  congr 1
  funext a
  apply Fin.ext
  match a with
  | ⟨0, _⟩ =>
    show win1_1.index t (0 : Fin 2) * 8192 + 1 * (k1_off1 (grid1.coords t) (0 : Fin 2) + 1 * j.val) = (rowAt (t.val % 8) j).val
    rw [rowAt_val _ _ (by omega), e0, o0]; omega
  | ⟨1, _⟩ =>
    show win1_1.index t (1 : Fin 2) * 256 + 1 * (k1_off1 (grid1.coords t) (1 : Fin 2) + 1 * d.val) = d.val
    rw [e1, o1]; omega

/-! ## One tile's share of a row's positive cosine and of its lowered maximum -/

/-- Column block `k`'s share of row `i`'s cosine at its own label. -/
def tilePos (c : Dev nD) (i : Fin 8192) (k : ℕ) : EReal :=
  ∑ j : Fin 1024, if (lcol V c (ix1 i)).toNat = k * 1024 + j.val
    then Cert.Spec.cos (EE V c) (PP V c) i (rowAt k j) else 0

/-- Column block `k`'s largest cosine of row `i`, the diagonal entry lowered by the margin. -/
def tileNeg (c : Dev nD) (i : Fin 8192) (k : ℕ) : EReal :=
  Finset.univ.sup fun j : Fin 1024 => if i.val = k * 1024 + j.val
    then Cert.Spec.cos (EE V c) (PP V c) i (rowAt k j) - Cert.Spec.margin
    else Cert.Spec.cos (EE V c) (PP V c) i (rowAt k j)

/-- The tile's product entry is the cosine of the two rows of the arrays. -/
private theorem tcos_tile (c : Dev nD) (t : Fin cfg1.N) (r j : Fin 1024) :
    tcos (iblk1 V c 0 t) (pslab V c t) r j
      = Cert.Spec.cos (EE V c) (PP V c) (rowAt (t.val / 8) r) (rowAt (t.val % 8) j) := by
  unfold tcos Cert.Spec.cos
  refine Finset.sum_congr rfl fun d _ => ?_
  rw [etile_apply V c t r d, ptile_apply V c t j d]

/-- The positive accumulator's step at point `t`: it gains the tile's share. -/
private theorem pos_step (c : Dev nD) (t : Fin cfg1.N) (r : Fin 1024) (prev : Vec Ideal S1024x1 .f32) :
    k1_pay6 (F := Ideal) (grid1.coords t) (iblk1 V c 0 t) (pslab V c t) (iblk1 V c 2 t) prev (ix2 r 0)
      = prev (ix2 r 0) + tilePos V c (rowAt (t.val / 8) r) (t.val % 8) := by
  rw [pay6_apply]
  congr 1
  unfold tilePos
  refine Finset.sum_congr rfl fun j _ => ?_
  rw [ltile_apply V c t r, (coords1 t).2, tcos_tile V c t r j]

/-- The running maximum's step at a point off the diagonal: the tile's plain maximum. -/
private theorem neg_step_off (c : Dev nD) (t : Fin cfg1.N) (hd : ¬ t.val / 8 = t.val % 8) (r : Fin 1024)
    (prev : Vec Ideal S1024x1 .f32) :
    k1_pay8 (F := Ideal) (iblk1 V c 0 t) (pslab V c t) prev (ix2 r 0)
      = max (prev (ix2 r 0)) (tileNeg V c (rowAt (t.val / 8) r) (t.val % 8)) := by
  have ht : t.val < 64 := t.isLt
  rw [pay8_apply]
  congr 1
  unfold tileNeg
  refine Finset.sup_congr rfl fun j _ => ?_
  have hj : j.val < 1024 := j.isLt
  have hr : r.val < 1024 := r.isLt
  rw [if_neg (by rw [rowAt_val _ _ (by omega)]; omega), tcos_tile V c t r j]

/-- The running maximum's step at a point of the diagonal: the entry where row and column meet is lowered. -/
private theorem neg_step_diag (c : Dev nD) (t : Fin cfg1.N) (hd : t.val / 8 = t.val % 8) (r : Fin 1024)
    (prev : Vec Ideal S1024x1 .f32) :
    k1_pay7 (F := Ideal) (grid1.coords t) (iblk1 V c 0 t) (pslab V c t) prev (ix2 r 0)
      = max (prev (ix2 r 0)) (tileNeg V c (rowAt (t.val / 8) r) (t.val % 8)) := by
  have ht : t.val < 64 := t.isLt
  rw [pay7_apply]
  congr 1
  unfold tileNeg
  refine Finset.sup_congr rfl fun j _ => ?_
  rw [(coords1 t).1, (coords1 t).2, rowAt_val _ _ (by omega), tcos_tile V c t r j]

/-! ## The carried pair after each point: the shares of the column blocks met so far -/

private theorem sc1_inv (c : Dev nD) : ∀ (n : ℕ) (h : n < cfg1.N) (r : Fin 1024),
    (sc1 V c n h).2 (ix2 r 0) = ∑ k ∈ Finset.range (n % 8 + 1), tilePos V c (rowAt (n / 8) r) k
    ∧ (sc1 V c n h).1 (ix2 r 0) = (Finset.range (n % 8 + 1)).sup (tileNeg V c (rowAt (n / 8) r)) := by
  intro n
  induction n with
  | zero =>
    intro h r
    constructor
    · rw [show sc1 V c 0 h = sc1 V c (⟨0, h⟩ : Fin cfg1.N).val (⟨0, h⟩ : Fin cfg1.N).isLt from rfl,
        sc1_pos_first V c ⟨0, h⟩ rfl, pos_step, pay3_apply]
      simp
    · rw [show sc1 V c 0 h = sc1 V c (⟨0, h⟩ : Fin cfg1.N).val (⟨0, h⟩ : Fin cfg1.N).isLt from rfl,
        sc1_max V c ⟨0, h⟩]
      simp only [Nat.zero_mod, Nat.zero_div, if_true]
      rw [neg_step_diag V c ⟨0, h⟩ (by show 0 / 8 = 0 % 8; rfl), pay2_apply]
      simp
  | succ n ih =>
    intro h r
    have hN : cfg1.N = 64 := N_1
    have hn : n < cfg1.N := Nat.lt_of_succ_lt h
    obtain ⟨ih2, ih1⟩ := ih hn r
    by_cases h8 : (n + 1) % 8 = 0
    · constructor
      · rw [show sc1 V c (n + 1) h = sc1 V c (⟨n + 1, h⟩ : Fin cfg1.N).val (⟨n + 1, h⟩ : Fin cfg1.N).isLt from rfl,
          sc1_pos_first V c ⟨n + 1, h⟩ h8, pos_step, pay3_apply]
        simp only [h8, zero_add, Finset.sum_range_one]
      · rw [show sc1 V c (n + 1) h = sc1 V c (⟨n + 1, h⟩ : Fin cfg1.N).val (⟨n + 1, h⟩ : Fin cfg1.N).isLt from rfl,
          sc1_max V c ⟨n + 1, h⟩]
        simp only [h8, if_true]
        by_cases hd : (n + 1) / 8 = 0
        · rw [if_pos hd, neg_step_diag V c ⟨n + 1, h⟩ (by simp only [hd, h8]), pay2_apply]
          simp [h8]
        · rw [if_neg hd, neg_step_off V c ⟨n + 1, h⟩ (by simp only [h8]; exact hd), pay2_apply]
          simp [h8]
    · have e1 : n / 8 = (n + 1) / 8 := by omega
      have e2 : (n + 1) % 8 = n % 8 + 1 := by omega
      constructor
      · rw [show sc1 V c (n + 1) h = sc1 V c (⟨n + 1, h⟩ : Fin cfg1.N).val (⟨n + 1, h⟩ : Fin cfg1.N).isLt from rfl,
          sc1_pos_next V c ⟨n + 1, h⟩ h8, pos_step]
        show (sc1 V c n _).2 (ix2 r 0) + _ = _
        rw [ih2, Finset.sum_range_succ _ ((n + 1) % 8), e1, e2]
      · rw [show sc1 V c (n + 1) h = sc1 V c (⟨n + 1, h⟩ : Fin cfg1.N).val (⟨n + 1, h⟩ : Fin cfg1.N).isLt from rfl,
          sc1_max V c ⟨n + 1, h⟩]
        simp only [h8, if_false]
        rw [Finset.range_add_one, Finset.sup_insert, sup_comm]
        by_cases hd : (n + 1) / 8 = (n + 1) % 8
        · rw [if_pos hd, neg_step_diag V c ⟨n + 1, h⟩ hd]
          show max ((sc1 V c n _).1 (ix2 r 0)) _ = _
          rw [ih1, e1, e2]
        · rw [if_neg hd, neg_step_off V c ⟨n + 1, h⟩ hd]
          show max ((sc1 V c n _).1 (ix2 r 0)) _ = _
          rw [ih1, e1, e2]

/-! ## The eight column blocks together: the row's positive cosine and its lowered maximum -/

/-- The 8192 columns as 8 blocks of 1024. -/
def tileEquiv : Fin 8 × Fin 1024 ≃ Fin 8192 where
  toFun p := ⟨p.1.val * 1024 + p.2.val, by have := p.1.isLt; have := p.2.isLt; omega⟩
  invFun i := (⟨i.val / 1024, by have := i.isLt; omega⟩, ⟨i.val % 1024, Nat.mod_lt _ (by decide)⟩)
  left_inv p := by
    obtain ⟨a, b⟩ := p
    have := a.isLt; have := b.isLt
    apply Prod.ext <;> apply Fin.ext <;> simp only <;> omega
  right_inv i := by apply Fin.ext; simp only; omega

private theorem pos_total (c : Dev nD) (i : Fin 8192) :
    ∑ k ∈ Finset.range 8, tilePos V c i k = Cert.Spec.pos (EE V c) (PP V c) (lcol V c) i := by
  unfold Cert.Spec.pos
  rw [← Equiv.sum_comp tileEquiv, Fintype.sum_prod_type, Finset.sum_range]
  refine Finset.sum_congr rfl fun k _ => ?_
  unfold tilePos
  refine Finset.sum_congr rfl fun j _ => ?_
  have hk : rowAt k.val j = tileEquiv (k, j) := Fin.ext (rowAt_val _ _ k.isLt)
  rw [hk]; rfl

private theorem neg_total (c : Dev nD) (i : Fin 8192) :
    (Finset.range 8).sup (tileNeg V c i) = Cert.Spec.neg (EE V c) (PP V c) i := by
  unfold Cert.Spec.neg
  apply le_antisymm
  · refine Finset.sup_le fun k hk => ?_
    have hk8 : k < 8 := Finset.mem_range.mp hk
    unfold tileNeg
    refine Finset.sup_le fun j _ => ?_
    have hv : (rowAt k j).val = k * 1024 + j.val := rowAt_val _ _ hk8
    have hiff : (i.val = k * 1024 + j.val) ↔ (i = rowAt k j) := by rw [← hv]; exact Fin.val_inj
    refine le_trans (le_of_eq ?_) (Finset.le_sup (f := fun j' : Fin 8192 =>
      if i = j' then Cert.Spec.cos (EE V c) (PP V c) i j' - Cert.Spec.margin else Cert.Spec.cos (EE V c) (PP V c) i j')
      (Finset.mem_univ (rowAt k j)))
    try dsimp only
    by_cases hc : i.val = k * 1024 + j.val
    · rw [if_pos hc, if_pos (hiff.mp hc)]
    · rw [if_neg hc, if_neg (mt hiff.mpr hc)]
  · refine Finset.sup_le fun j' _ => ?_
    have hj' : j'.val < 8192 := j'.isLt
    have hmem : j'.val / 1024 ∈ Finset.range 8 := Finset.mem_range.mpr (by omega)
    refine le_trans ?_ (Finset.le_sup (f := tileNeg V c i) hmem)
    unfold tileNeg
    have hrow : rowAt (j'.val / 1024) ⟨j'.val % 1024, Nat.mod_lt _ (by decide)⟩ = j' :=
      Fin.ext (by rw [rowAt_val _ _ (by omega)]; simp only; omega)
    refine le_trans (le_of_eq ?_) (Finset.le_sup (f := fun j : Fin 1024 =>
      if i.val = j'.val / 1024 * 1024 + j.val
        then Cert.Spec.cos (EE V c) (PP V c) i (rowAt (j'.val / 1024) j) - Cert.Spec.margin
        else Cert.Spec.cos (EE V c) (PP V c) i (rowAt (j'.val / 1024) j))
      (Finset.mem_univ (⟨j'.val % 1024, Nat.mod_lt _ (by decide)⟩ : Fin 1024)))
    try dsimp only
    rw [hrow]
    have hiff : (i = j') ↔ (i.val = j'.val / 1024 * 1024 + j'.val % 1024) := by
      rw [← Fin.val_inj]; constructor <;> intro h <;> omega
    by_cases hc : i = j'
    · rw [if_pos hc, if_pos (hiff.mp hc)]
    · rw [if_neg hc, if_neg (mt hiff.mpr hc)]

/-! ## The result array -/

theorem arr_hinge (c : Dev nD) :
    (dat1 V c).arrAt 3 cfg1.N = fun i => Cert.Spec.hinge (V c main_v6) (V c main_v19) (lcol V c) (i 0) := by
  refine arr1_3_of_blocks V c (fun i => Cert.Spec.hinge (EE V c) (PP V c) (lcol V c) (i 0)) fun t h7 r hlt => ?_
  have ht : t.val < 64 := t.isLt
  rw [after1_3' V c t, pay1_apply]
  obtain ⟨h2, h1⟩ := sc1_inv V c t.val t.isLt r
  rw [h1, h2, h7]
  have hrow : rowAt (t.val / 8) r = ⟨t.val / 8 * 1024 + r.val, hlt⟩ := Fin.ext (rowAt_val _ _ (by omega))
  rw [hrow, pos_total, neg_total]
  rfl

end Cert.KernelIdeal.Hand

end
-- ==== Proof.KI.ValMain.lean ====
import proofs.«429809_j15006615733567_3_alg».proof.Proof.Gen.KernelIdeal.Launch
import proofs.«429809_j15006615733567_3_alg».proof.Proof.Gen.KernelIdeal.Regions
import proofs.«429809_j15006615733567_3_alg».proof.Proof.Spec
import proofs.«429809_j15006615733567_3_alg».proof.Proof.KI.Run
import proofs.«429809_j15006615733567_3_alg».proof.Proof.KI.Val0
import proofs.«429809_j15006615733567_3_alg».proof.Proof.KI.Val1
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.Pipeline.Cells
import Idealize.ShloMosaic.Lib.StableHlo.Run
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

/-! # The program's result is the specification's loss

The buffers are followed from the launch to the return: each host stretch is read at the buffers the value
needs, the two regions' arrays are what the region modules state, and the last stretch's mean is the
specification's. -/

section Stretches

variable (W : Valuation τ sig (Elt Ideal))

/-! ## Each host stretch read at the buffers the value needs, over any contents before it -/

theorem s0_c : StableHlo.after hostOps0 W (Proc.devRef .tc main_c) = (constantI S_ 32 0#32 : IVec S_ 32) := by
  after_results
theorem s0_c0 : StableHlo.after hostOps0 W (Proc.devRef .tc main_c_0) = (constantI S_ 32 8191#32 : IVec S_ 32) := by
  after_results

/-- The labels clipped to [0, 8191], the two bounds given as scalars. -/
def clipBy (lo hi : IVec S_ 32) (l : IVec S8192 32) : IVec S8192 32 :=
  minsi (broadcastInDim S8192 ![] bcast_S_S8192 hi) (maxsi (broadcastInDim S8192 ![] bcast_S_S8192 lo) l)

theorem s01_v0 : StableHlo.after hostOps0_1 W (Proc.devRef .tc main_v0) =
    clipBy (W (Proc.devRef .tc main_c)) (W (Proc.devRef .tc main_c_0)) (W (Proc.devRef .tc main_arg1)) := by
  after_results <;> rfl

/-- The rows' norms before the floor: sqrt (0 + the row's sum of squares). -/
def rawNorm (x : FVec Ideal S8192x256 .f32) : FVec Ideal S8192x1 .f32 :=
  Host.sqrt (F := Ideal) (broadcastInDim S8192x1 ![0] bcast_S8192_S8192x1_0
    (Host.reduceAdd (F := Ideal) (mulf x x) (constant (F := Ideal) S_ .f32 0x00000000#32) reducesTo_S8192x256_S8192_d1 h_S_))

theorem s02_v1 : StableHlo.after hostOps0_2 W (Proc.devRef .tc main_v1) = rawNorm (W (Proc.devRef .tc main_arg0)) := by
  after_results <;> rfl

/-- Rows over their floored norms, the norms given. -/
def overNorm (x : FVec Ideal S8192x256 .f32) (n : FVec Ideal S8192x1 .f32) : FVec Ideal S8192x256 .f32 :=
  Host.divf (F := Ideal) x (broadcastInDim S8192x256 ![0, 1] bcast_S8192x1_S8192x256_0_1
    (maximumf n (broadcastInDim S8192x1 ![] bcast_S_S8192x1 (constant (F := Ideal) S_ .f32 0x2B8CBCCC#32))))

/-- The narrowing to bf16 keeps every value. -/
theorem s03_v6 : (StableHlo.after hostOps0_3 W (Proc.devRef .tc main_v6) : FVec Ideal S8192x256 .bf16) =
    overNorm (W (Proc.devRef .tc main_arg0)) (W (Proc.devRef .tc main_v1)) := by
  after_results <;> rfl
theorem s03_v7 : (StableHlo.after hostOps0_3 W (Proc.devRef .tc main_v7) : IVec S1x8192 32) =
    broadcastInDim S1x8192 ![1] bcast_S8192_S1x8192_1 (W (Proc.devRef .tc main_v0) : IVec S8192 32) := by
  after_results <;> rfl
theorem s03_v8 : (StableHlo.after hostOps0_3 W (Proc.devRef .tc main_v8) : IVec S8192x1 32) =
    broadcastInDim S8192x1 ![0] bcast_S8192_S8192x1_0 (W (Proc.devRef .tc main_v0) : IVec S8192 32) := by
  after_results <;> rfl

/-- Sums over the counts floored at one. -/
def overCounts (s : FVec Ideal S8192x256 .f32) (n : FVec Ideal S8192x1 .f32) : FVec Ideal S8192x256 .f32 :=
  Host.divf (F := Ideal) s (broadcastInDim S8192x256 ![0, 1] bcast_S8192x1_S8192x256_0_1
    (maximumf n (broadcastInDim S8192x1 ![] bcast_S_S8192x1 (constant (F := Ideal) S_ .f32 0x3F800000#32))))

theorem s1_v13 : (StableHlo.after hostOps1 W (Proc.devRef .tc main_v13) : FVec Ideal S8192x256 .f32) =
    overCounts (W (Proc.devRef .tc main_v9_0)) (W (Proc.devRef .tc main_v9_1)) := by
  after_results <;> rfl

theorem s11_v14 : StableHlo.after hostOps1_1 W (Proc.devRef .tc main_v14) = rawNorm (W (Proc.devRef .tc main_v13)) := by
  after_results <;> rfl

theorem s12_v19 : (StableHlo.after hostOps1_2 W (Proc.devRef .tc main_v19) : FVec Ideal S8192x256 .bf16) =
    overNorm (W (Proc.devRef .tc main_v13)) (W (Proc.devRef .tc main_v14)) := by
  after_results <;> rfl

/-- The mean of a column of 8192 numbers: (0 + their sum) / 8192. -/
def meanOf (v : FVec Ideal S8192x1 .f32) : FVec Ideal S_ .f32 :=
  Host.divf (F := Ideal)
    (Host.reduceAdd (F := Ideal) v (constant (F := Ideal) S_ .f32 0x00000000#32) reducesTo_S8192x1_S_d0_1 h_S_)
    (constant (F := Ideal) S_ .f32 0x46000000#32)

theorem s2_v22 : (StableHlo.after hostOps2 W (Proc.devRef .tc main_v22) : FVec Ideal S_ .f32) =
    meanOf (W (Proc.devRef .tc main_v20)) := by
  after_results <;> rfl

end Stretches

/-! ## The stretches' terms are the specification's -/

/-- Rows over their own floored norms: the specification's unit rows. -/
theorem overNorm_rawNorm (x : FVec Ideal S8192x256 .f32) : overNorm x (rawNorm x) = Cert.Spec.normalize x := rfl

/-- The sums over the floored counts: the specification's label means. -/
theorem overCounts_eq (e : FVec Ideal S8192x256 .f32) (l : IVec Cert.Spec.SB 32) :
    overCounts (Cert.Spec.sums e l) (Cert.Spec.counts l) = Cert.Spec.means e l := rfl

/-- A word in [0, 8192) is its own clip to [0, 8191]. -/
theorem clip_word (w : BitVec 32) (hw : w.toNat < 8192) : IntOp.minsi 8191#32 (IntOp.maxsi 0#32 w) = w := by
  have hti : w.toInt = w.toNat := BitVec.toInt_eq_toNat_of_lt (by omega)
  have h0 : (0#32 : BitVec 32).toInt = 0 := by decide
  have h1 : (8191#32 : BitVec 32).toInt = 8191 := by decide
  have hmax : IntOp.maxsi 0#32 w = w := by
    unfold IntOp.maxsi
    split <;> rename_i hc <;> simp only [BitVec.slt, hti, h0, decide_eq_true_eq] at hc
    all_goals first | rfl | omega
  rw [hmax]; unfold IntOp.minsi
  split <;> rename_i hc <;> simp only [BitVec.slt, hti, h1, decide_eq_true_eq] at hc
  all_goals first | rfl | omega

/-- Labels in range are their own clip. -/
theorem clipBy_eq (l : IVec S8192 32) (h : Cert.Spec.InRange l) :
    clipBy (constantI S_ 32 0#32) (constantI S_ 32 8191#32) l = l :=
  funext fun i => clip_word (l i) (h i)

/-- The mean of the hinges laid out as a column is the specification's loss. -/
theorem meanOf_eq (g : Fin 8192 → EReal) :
    meanOf (fun i => g (i 0)) = fun _ => Ideal.div (∑ i : Fin 8192, g i) (Ideal.ofBits .f32 0x46000000#32) := by
  funext j
  unfold meanOf
  rw [hostDivf_apply, hostReduceAdd_apply, Ideal.hostReduceAdd_total _ (fun b => b.elim0), sum_idx2]
  simp only [Fin.sum_univ_one]
  show Ideal.div (Ideal.ofBits .f32 0x00000000#32 + ∑ a : Fin 8192, g a) (Ideal.ofBits .f32 0x46000000#32) = _
  rw [Ideal.ofBits_zero_f32, zero_add]

/-! ## The run's buffers, boundary by boundary -/

section Chain

variable (m : (ℓ : Loc nD τ sig) → Buf (Elt Ideal) ℓ) (ρ : Dev nD → PrngReg) (c : Dev nD)

/-- The embeddings as launched. -/
abbrev xin : FVec Ideal S8192x256 .f32 := m ((c.tc : Thread nD τ).loc main_arg0)
/-- The labels as launched. -/
abbrev lin : IVec S8192 32 := m ((c.tc : Thread nD τ).loc main_arg1)

/-! ### The arguments are carried to where they are read -/

theorem W1_arg1 : W1 m ρ c (Proc.devRef .tc main_arg1) = lin m c :=
  (StableHlo.after_of_writes_sub hostOps0 _ hostOps0_writes (by decide)).trans rfl

theorem W3_arg0 : W3 m ρ c (Proc.devRef .tc main_arg0) = xin m c :=
  calc W3 m ρ c (Proc.devRef .tc main_arg0)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = xin m c := rfl

theorem W2_arg0 : W2 m ρ c (Proc.devRef .tc main_arg0) = xin m c :=
  calc W2 m ρ c (Proc.devRef .tc main_arg0)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = xin m c := rfl

/-! ### Before region 0: the clipped labels, the unit rows -/

/-- The clipped labels are the labels, these being in range. -/
theorem W3_v0 (h : Cert.Spec.InRange (lin m c)) : (W3 m ρ c (Proc.devRef .tc main_v0) : IVec S8192 32) = lin m c :=
  calc (W3 m ρ c (Proc.devRef .tc main_v0) : IVec S8192 32)
    _ = W2 m ρ c (Proc.devRef .tc main_v0) := StableHlo.after_of_writes_sub hostOps0_2 _ hostOps0_2_writes (by decide)
    _ = clipBy (W1 m ρ c (Proc.devRef .tc main_c)) (W1 m ρ c (Proc.devRef .tc main_c_0)) (W1 m ρ c (Proc.devRef .tc main_arg1)) :=
        s01_v0 (W1 m ρ c)
    _ = clipBy (constantI S_ 32 0#32) (constantI S_ 32 8191#32) (lin m c) := by
        rw [show W1 m ρ c (Proc.devRef .tc main_c) = _ from s0_c (W0 m ρ c),
          show W1 m ρ c (Proc.devRef .tc main_c_0) = _ from s0_c0 (W0 m ρ c), W1_arg1 m ρ c]
    _ = lin m c := clipBy_eq _ h

/-- The rows' norms. -/
theorem W3_v1 : W3 m ρ c (Proc.devRef .tc main_v1) = rawNorm (xin m c) :=
  (s02_v1 (W2 m ρ c)).trans (congrArg rawNorm (W2_arg0 m ρ c))

/-- Region 0's rows are the specification's unit rows. -/
theorem W4_v6 : (W4 m ρ c (Proc.devRef .tc main_v6) : FVec Ideal S8192x256 .bf16) = Cert.Spec.normalize (xin m c) :=
  calc (W4 m ρ c (Proc.devRef .tc main_v6) : FVec Ideal S8192x256 .bf16)
    _ = overNorm (W3 m ρ c (Proc.devRef .tc main_arg0)) (W3 m ρ c (Proc.devRef .tc main_v1)) := s03_v6 (W3 m ρ c)
    _ = overNorm (xin m c) (rawNorm (xin m c)) := by rw [W3_arg0 m ρ c, W3_v1 m ρ c]
    _ = Cert.Spec.normalize (xin m c) := overNorm_rawNorm _

/-- The labels as a row, read back. -/
theorem lrow_eq (h : Cert.Spec.InRange (lin m c)) : lrow (V4 m ρ) c = lin m c := by
  funext i
  show (W4 m ρ c (Proc.devRef .tc main_v7) : IVec S1x8192 32) (ix2 0 (i 0)) = _
  rw [show (W4 m ρ c (Proc.devRef .tc main_v7) : IVec S1x8192 32) = _ from s03_v7 (W3 m ρ c), W3_v0 m ρ c h]
  exact broadcastInDim_apply _ _ _ _ i fun a => by
    have ha : a = 0 := Subsingleton.elim _ _
    subst ha; rfl

/-- The labels as a column, at region 0's entry. -/
theorem W4_v8 (h : Cert.Spec.InRange (lin m c)) : (W4 m ρ c (Proc.devRef .tc main_v8) : IVec S8192x1 32) =
    broadcastInDim S8192x1 ![0] bcast_S8192_S8192x1_0 (lin m c) := by
  rw [show (W4 m ρ c (Proc.devRef .tc main_v8) : IVec S8192x1 32) = _ from s03_v8 (W3 m ρ c), W3_v0 m ρ c h]

/-! ### Region 0 and the prototypes -/

theorem W5_v9_0 (h : Cert.Spec.InRange (lin m c)) :
    (W5 m ρ c (Proc.devRef .tc main_v9_0) : FVec Ideal S8192x256 .f32) = Cert.Spec.sums (Cert.Spec.normalize (xin m c)) (lin m c) :=
  calc (W5 m ρ c (Proc.devRef .tc main_v9_0) : FVec Ideal S8192x256 .f32)
    _ = (dat0 (V4 m ρ) c).arrAt 2 cfg0.N := W5_arr m ρ c 2
    _ = Cert.Spec.sums (V4 m ρ c main_v6) (lrow (V4 m ρ) c) := arr_sums (V4 m ρ) c
    _ = Cert.Spec.sums (Cert.Spec.normalize (xin m c)) (lin m c) := by
        rw [lrow_eq m ρ c h, show (V4 m ρ c main_v6 : FVec Ideal S8192x256 .bf16) = _ from W4_v6 m ρ c]

theorem W5_v9_1 (h : Cert.Spec.InRange (lin m c)) :
    (W5 m ρ c (Proc.devRef .tc main_v9_1) : FVec Ideal S8192x1 .f32) = Cert.Spec.counts (lin m c) :=
  calc (W5 m ρ c (Proc.devRef .tc main_v9_1) : FVec Ideal S8192x1 .f32)
    _ = (dat0 (V4 m ρ) c).arrAt 3 cfg0.N := W5_arr m ρ c 3
    _ = Cert.Spec.counts (lrow (V4 m ρ) c) := arr_counts (V4 m ρ) c
    _ = Cert.Spec.counts (lin m c) := by rw [lrow_eq m ρ c h]

/-- An input array of region 0 leaves it as it entered. -/
theorem W5_v6 : W5 m ρ c (Proc.devRef .tc main_v6) = W4 m ρ c (Proc.devRef .tc main_v6) :=
  (W5_arr m ρ c 0).trans (((dat0 (V4 m ρ) c).arrAt_in 0 rfl cfg0.N).trans (A_eq0 (V4 m ρ) c 0))

/-- The label means. -/
theorem W6_v13 (h : Cert.Spec.InRange (lin m c)) :
    (W6 m ρ c (Proc.devRef .tc main_v13) : FVec Ideal S8192x256 .f32) = Cert.Spec.means (Cert.Spec.normalize (xin m c)) (lin m c) :=
  calc (W6 m ρ c (Proc.devRef .tc main_v13) : FVec Ideal S8192x256 .f32)
    _ = overCounts (W5 m ρ c (Proc.devRef .tc main_v9_0)) (W5 m ρ c (Proc.devRef .tc main_v9_1)) := s1_v13 (W5 m ρ c)
    _ = overCounts (Cert.Spec.sums (Cert.Spec.normalize (xin m c)) (lin m c)) (Cert.Spec.counts (lin m c)) := by
        rw [W5_v9_0 m ρ c h, W5_v9_1 m ρ c h]
    _ = Cert.Spec.means (Cert.Spec.normalize (xin m c)) (lin m c) := overCounts_eq _ _

/-- The unit prototypes. -/
theorem W8_v19 (h : Cert.Spec.InRange (lin m c)) :
    (W8 m ρ c (Proc.devRef .tc main_v19) : FVec Ideal S8192x256 .bf16)
      = Cert.Spec.normalize (Cert.Spec.means (Cert.Spec.normalize (xin m c)) (lin m c)) := by
  have h13 : (W7 m ρ c (Proc.devRef .tc main_v13) : FVec Ideal S8192x256 .f32) = Cert.Spec.means (Cert.Spec.normalize (xin m c)) (lin m c) :=
    (StableHlo.after_of_writes_sub hostOps1_1 _ hostOps1_1_writes (by decide)).trans (W6_v13 m ρ c h)
  have h14 : (W7 m ρ c (Proc.devRef .tc main_v14) : FVec Ideal S8192x1 .f32) = rawNorm (Cert.Spec.means (Cert.Spec.normalize (xin m c)) (lin m c)) :=
    (s11_v14 (W6 m ρ c)).trans (congrArg rawNorm (W6_v13 m ρ c h))
  calc (W8 m ρ c (Proc.devRef .tc main_v19) : FVec Ideal S8192x256 .bf16)
    _ = overNorm (W7 m ρ c (Proc.devRef .tc main_v13)) (W7 m ρ c (Proc.devRef .tc main_v14)) := s12_v19 (W7 m ρ c)
    _ = overNorm (Cert.Spec.means (Cert.Spec.normalize (xin m c)) (lin m c)) (rawNorm (Cert.Spec.means (Cert.Spec.normalize (xin m c)) (lin m c))) := by
        rw [h13, h14]
    _ = _ := overNorm_rawNorm _

/-- Region 1's rows are still the unit rows. -/
theorem W8_v6 : (W8 m ρ c (Proc.devRef .tc main_v6) : FVec Ideal S8192x256 .bf16) = Cert.Spec.normalize (xin m c) :=
  calc (W8 m ρ c (Proc.devRef .tc main_v6) : FVec Ideal S8192x256 .bf16)
    _ = W7 m ρ c (Proc.devRef .tc main_v6) := StableHlo.after_of_writes_sub hostOps1_2 _ hostOps1_2_writes (by decide)
    _ = W6 m ρ c (Proc.devRef .tc main_v6) := StableHlo.after_of_writes_sub hostOps1_1 _ hostOps1_1_writes (by decide)
    _ = W5 m ρ c (Proc.devRef .tc main_v6) := StableHlo.after_of_writes_sub hostOps1 _ hostOps1_writes (by decide)
    _ = W4 m ρ c (Proc.devRef .tc main_v6) := W5_v6 m ρ c
    _ = Cert.Spec.normalize (xin m c) := W4_v6 m ρ c

/-- The labels as a column, read back at region 1's entry. -/
theorem lcol_eq (h : Cert.Spec.InRange (lin m c)) : lcol (V8 m ρ) c = lin m c := by
  have h8 : (W8 m ρ c (Proc.devRef .tc main_v8) : IVec S8192x1 32) = broadcastInDim S8192x1 ![0] bcast_S8192_S8192x1_0 (lin m c) :=
    calc (W8 m ρ c (Proc.devRef .tc main_v8) : IVec S8192x1 32)
      _ = W7 m ρ c (Proc.devRef .tc main_v8) := StableHlo.after_of_writes_sub hostOps1_2 _ hostOps1_2_writes (by decide)
      _ = W6 m ρ c (Proc.devRef .tc main_v8) := StableHlo.after_of_writes_sub hostOps1_1 _ hostOps1_1_writes (by decide)
      _ = W5 m ρ c (Proc.devRef .tc main_v8) := StableHlo.after_of_writes_sub hostOps1 _ hostOps1_writes (by decide)
      _ = W4 m ρ c (Proc.devRef .tc main_v8) := W5_of_ne m ρ c main_v8 (by decide)
      _ = _ := W4_v8 m ρ c h
  funext i
  show (W8 m ρ c (Proc.devRef .tc main_v8) : IVec S8192x1 32) (ix2 (i 0) 0) = _
  rw [h8]
  exact broadcastInDim_apply _ _ _ _ i fun a => by
    have ha : a = 0 := Subsingleton.elim _ _
    subst ha; rfl

/-! ### Region 1 and the mean -/

/-- The hinges, row by row. -/
theorem W9_v20 (h : Cert.Spec.InRange (lin m c)) :
    (W9 m ρ c (Proc.devRef .tc main_v20) : FVec Ideal S8192x1 .f32) = fun i =>
      Cert.Spec.hinge (Cert.Spec.normalize (xin m c))
        (Cert.Spec.normalize (Cert.Spec.means (Cert.Spec.normalize (xin m c)) (lin m c))) (lin m c) (i 0) :=
  calc (W9 m ρ c (Proc.devRef .tc main_v20) : FVec Ideal S8192x1 .f32)
    _ = (dat1 (V8 m ρ) c).arrAt 3 cfg1.N := W9_arr m ρ c 3
    _ = fun i => Cert.Spec.hinge (V8 m ρ c main_v6) (V8 m ρ c main_v19) (lcol (V8 m ρ) c) (i 0) := arr_hinge (V8 m ρ) c
    _ = _ := by
        rw [lcol_eq m ρ c h, show (V8 m ρ c main_v6 : FVec Ideal S8192x256 .bf16) = _ from W8_v6 m ρ c,
          show (V8 m ρ c main_v19 : FVec Ideal S8192x256 .bf16) = _ from W8_v19 m ρ c h]

end Chain

/-- THE RESULT: the program's last buffer is the specification's loss of the launched embeddings and labels. -/
theorem result_eq (m : (ℓ : Loc nD τ sig) → Buf (Elt Ideal) ℓ) (ρ : Dev nD → PrngReg) (c : Dev nD)
    (h : Cert.Spec.InRange (m ((c.tc : Thread nD τ).loc main_arg1))) :
    W10 m ρ c (Proc.devRef .tc main_v22)
      = Cert.Spec.loss (m ((c.tc : Thread nD τ).loc main_arg0)) (m ((c.tc : Thread nD τ).loc main_arg1)) :=
  calc (W10 m ρ c (Proc.devRef .tc main_v22) : FVec Ideal S_ .f32)
    _ = meanOf (W9 m ρ c (Proc.devRef .tc main_v20)) := s2_v22 (W9 m ρ c)
    _ = meanOf (fun i => Cert.Spec.hinge (Cert.Spec.normalize (xin m c))
          (Cert.Spec.normalize (Cert.Spec.means (Cert.Spec.normalize (xin m c)) (lin m c))) (lin m c) (i 0)) :=
        congrArg meanOf (W9_v20 m ρ c h)
    _ = _ := meanOf_eq _

end Cert.KernelIdeal.Hand

end
-- ==== Proof.Ref1.lean ====
/-
  The reference's first half, read at the extended reals: its unit rows, label sums, label counts and unit
  prototypes are the common specification's.

  The unit rows and the second normalisation are the same chain of host operations as the specification's
  normalisation. The two accumulating scatters into zeros are read index by index: an update lands on row r exactly
  when its label, read signed, is r; a label outside [0, 8192) lands nowhere, and read unsigned it is not below 8192
  either, so no hypothesis on the labels is needed.
-/
import proofs.«429809_j15006615733567_3_alg».proof.Proof.Spec
import proofs.«429809_j15006615733567_3_alg».proof.Proof.RefRead
import Idealize.ShloMosaic.PureOps.Ideal
import Idealize.ShloMosaic.PureOps.Ideal.Laws
import Idealize.ShloMosaic.Lib.ValueIdx
import Idealize.ShloMosaic.Lib.Pipeline.Value

noncomputable section

namespace Cert.RefValue

open Idealize.ShloMosaic Idealize.ShloMosaic.ValueIdx
open Cert.ReferenceIdeal Cert.ReferenceIdeal.Gen

/-! ## The unit rows -/

/-- The reference's unit rows are the specification's. -/
theorem ref_e (x : FVec Ideal S8192x256 .f32) :
    Cert.ReferenceIdeal.ReadP.val_main_v4 (F := Ideal) x = Cert.Spec.normalize x := by
  unfold ReadP.val_main_v4 ReadP.val_main_v3 ReadP.val_main_v2 ReadP.val_main_v0 ReadP.val_main_call0_v2
    ReadP.val_main_call0_v1 ReadP.val_main_call0_v0 ReadP.val_main_call0_cst ReadP.val_main_v1 ReadP.val_main_cst
  unfold Cert.Spec.normalize Cert.Spec.rowNorm
  rfl

/-! ## Words -/

/-- A 32-bit word read signed is a given natural below 8192 exactly when read unsigned it is. -/
theorem toInt_eq_iff (v : BitVec 32) (n : Nat) (hn : n < 8192) : v.toInt = (n : Int) ↔ v.toNat = n := by
  rw [BitVec.toInt_eq_toNat_cond]
  have := v.isLt
  split_ifs <;> omega

/-- The f32 one, read exactly. -/
theorem ofBits_one : Ideal.ofBits .f32 0x3F800000#32 = 1 := by
  simp [Ideal.ofBits, Ideal.ieee, -EReal.coe_mul]; norm_num

/-- The label column at row b is label b. -/
theorem v6_at (l : IVec S8192 32) (b : Fin 8192) :
    ReadP.val_main_v6 (F := Ideal) l (ix2 b 0) = l (ix1 b) := by
  rw [ReadP.val_main_v6_apply]
  refine congrArg l (funext fun a => ?_)
  match a with
  | ⟨0, _⟩ => rfl

/-- The label column at row b is label b. -/
theorem v10_at (l : IVec S8192 32) (b : Fin 8192) :
    ReadP.val_main_v10 (F := Ideal) l (ix2 b 0) = l (ix1 b) := by
  rw [ReadP.val_main_v10_apply]
  refine congrArg l (funext fun a => ?_)
  match a with
  | ⟨0, _⟩ => rfl

/-! ## Where the row scatter's updates land -/

/-- The row scatter's dimension numbers. -/
abbrev dS := scatter_S8192x256_S8192x1_S8192x256_1_0_0_1

theorem dS_start0 (idx : IVec S8192x1 32) (j : S8192x256.Idx) :
    dS.start j idx 0 = (idx (ix2 (j 0) 0)).toInt := by
  unfold ScatterDims.start
  rw [dif_pos (by decide)]
  refine congrArg (fun t => (idx t).toInt) ?_
  funext b
  match b with
  | ⟨0, _⟩ => rfl
  | ⟨1, _⟩ => rfl

theorem dS_start1 (idx : IVec S8192x1 32) (j : S8192x256.Idx) : dS.start j idx 1 = 0 := by
  unfold ScatterDims.start
  rw [dif_neg (by decide)]

theorem dS_window0 (j : S8192x256.Idx) : dS.window j 0 = 0 := by
  unfold ScatterDims.window
  rw [dif_neg (by decide)]

theorem dS_window1 (j : S8192x256.Idx) : dS.window j 1 = (j 1).val := by
  unfold ScatterDims.window
  rw [dif_pos (by decide)]
  rfl

/-- Update (b, q) lands on (r, d) exactly when label b, read signed, is r and q is d. -/
theorem dS_resultIdx_iff (idx : IVec S8192x1 32) (j i : S8192x256.Idx) :
    dS.resultIdx? j idx = some i ↔ (idx (ix2 (j 0) 0)).toInt = ((i 0).val : Int) ∧ j 1 = i 1 := by
  have e0 := dS_start0 idx j
  have e1 := dS_start1 idx j
  have w0 := dS_window0 j
  have w1 := dS_window1 j
  have hi0 := idx2_lt0 i
  have hi1 := idx2_lt1 i
  have hj1 := idx2_lt1 j
  unfold ScatterDims.resultIdx?
  constructor
  · intro h
    split at h
    · rename_i hall
      have hi := Option.some.inj h
      have h0 : 0 ≤ dS.start j idx 0 + (dS.window j 0 : Int) ∧
          dS.start j idx 0 + (dS.window j 0 : Int) < ((8192 : Nat) : Int) := hall 0
      have h1 : 0 ≤ dS.start j idx 1 + (dS.window j 1 : Int) ∧
          dS.start j idx 1 + (dS.window j 1 : Int) < ((256 : Nat) : Int) := hall 1
      have c0 : (dS.start j idx 0 + (dS.window j 0 : Int)).toNat = (i 0).val := congrArg Fin.val (congrFun hi 0)
      have c1 : (dS.start j idx 1 + (dS.window j 1 : Int)).toNat = (i 1).val := congrArg Fin.val (congrFun hi 1)
      rw [e0, w0] at c0 h0
      rw [e1, w1] at c1 h1
      exact ⟨by omega, Fin.ext (by omega)⟩
    · exact absurd h (by simp)
  · rintro ⟨ha, hb⟩
    have hb' : (j 1).val = (i 1).val := congrArg Fin.val hb
    have hall : ∀ a, 0 ≤ dS.start j idx a + (dS.window j a : Int) ∧
        dS.start j idx a + (dS.window j a : Int) < (S8192x256.size a : Int) := by
      intro a
      match a with
      | ⟨0, _⟩ =>
        show 0 ≤ dS.start j idx 0 + (dS.window j 0 : Int) ∧
          dS.start j idx 0 + (dS.window j 0 : Int) < ((8192 : Nat) : Int)
        rw [e0, w0]; omega
      | ⟨1, _⟩ =>
        show 0 ≤ dS.start j idx 1 + (dS.window j 1 : Int) ∧
          dS.start j idx 1 + (dS.window j 1 : Int) < ((256 : Nat) : Int)
        rw [e1, w1]; omega
    rw [dif_pos hall]
    refine congrArg some (funext fun a => ?_)
    match a with
    | ⟨0, _⟩ =>
      refine Fin.ext ?_
      show (dS.start j idx 0 + (dS.window j 0 : Int)).toNat = (i 0).val
      rw [e0, w0]; omega
    | ⟨1, _⟩ =>
      refine Fin.ext ?_
      show (dS.start j idx 1 + (dS.window j 1 : Int)).toNat = (i 1).val
      rw [e1, w1]; omega

/-! ## The label sums -/

/-- The reference's scatter of the unit rows into zeros is the specification's label sums. -/
theorem ref_sums (x : FVec Ideal S8192x256 .f32) (l : IVec S8192 32) :
    Cert.ReferenceIdeal.ReadP.val_main_v7 (F := Ideal) x l = Cert.Spec.sums (Cert.Spec.normalize x) l := by
  funext i
  obtain ⟨p, q, rfl⟩ : ∃ (p : Fin 8192) (q : Fin 256), i = ix2 p q := ⟨i 0, i 1, eq_ix2 i⟩
  unfold ReadP.val_main_v7
  rw [ref_e]
  simp only [Host.scatterAdd, Ideal.hostScatterAdd_def]
  unfold Ideal.hostScatterAdd
  rw [ReadP.val_main_v5_apply, ReadP.val_main_cst_0_apply, Ideal.ofBits_def, Ideal.ofBits_zero_f32, zero_add,
    Finset.sum_filter, sum_idx2]
  unfold Cert.Spec.sums
  refine Finset.sum_congr rfl fun b _ => ?_
  rw [Finset.sum_eq_single q]
  · refine if_congr ?_ rfl rfl
    rw [dS_resultIdx_iff]
    show (ReadP.val_main_v6 (F := Ideal) l (ix2 b 0)).toInt = (p.val : Int) ∧ q = q ↔ (l (ix1 b)).toNat = p.val
    rw [v6_at, toInt_eq_iff _ _ p.isLt]
    exact and_iff_left rfl
  · intro c _ hc
    rw [if_neg]
    rw [dS_resultIdx_iff]
    exact fun h => hc h.2
  · intro h; exact absurd (Finset.mem_univ _) h

/-! ## The label counts -/

/-- The count scatter's dimension numbers. -/
abbrev dC := scatter_S8192_S8192x1_S8192_n_0_0_1

theorem dC_start0 (idx : IVec S8192x1 32) (j : S8192.Idx) :
    dC.start j idx 0 = (idx (ix2 (j 0) 0)).toInt := by
  unfold ScatterDims.start
  rw [dif_pos (by decide)]
  refine congrArg (fun t => (idx t).toInt) ?_
  funext b
  match b with
  | ⟨0, _⟩ => rfl
  | ⟨1, _⟩ => rfl

theorem dC_window0 (j : S8192.Idx) : dC.window j 0 = 0 := by
  unfold ScatterDims.window
  rw [dif_neg (by decide)]

/-- Update b lands on r exactly when label b, read signed, is r. -/
theorem dC_resultIdx_iff (idx : IVec S8192x1 32) (j i : S8192.Idx) :
    dC.resultIdx? j idx = some i ↔ (idx (ix2 (j 0) 0)).toInt = ((i 0).val : Int) := by
  have e0 := dC_start0 idx j
  have w0 := dC_window0 j
  have hi0 : (i 0).val < 8192 := (i 0).isLt
  unfold ScatterDims.resultIdx?
  constructor
  · intro h
    split at h
    · rename_i hall
      have hi := Option.some.inj h
      have h0 : 0 ≤ dC.start j idx 0 + (dC.window j 0 : Int) ∧
          dC.start j idx 0 + (dC.window j 0 : Int) < ((8192 : Nat) : Int) := hall 0
      have c0 : (dC.start j idx 0 + (dC.window j 0 : Int)).toNat = (i 0).val := congrArg Fin.val (congrFun hi 0)
      rw [e0, w0] at c0 h0
      omega
    · exact absurd h (by simp)
  · intro ha
    have hall : ∀ a, 0 ≤ dC.start j idx a + (dC.window j a : Int) ∧
        dC.start j idx a + (dC.window j a : Int) < (S8192.size a : Int) := by
      intro a
      match a with
      | ⟨0, _⟩ =>
        show 0 ≤ dC.start j idx 0 + (dC.window j 0 : Int) ∧
          dC.start j idx 0 + (dC.window j 0 : Int) < ((8192 : Nat) : Int)
        rw [e0, w0]; omega
    rw [dif_pos hall]
    refine congrArg some (funext fun a => ?_)
    match a with
    | ⟨0, _⟩ =>
      refine Fin.ext ?_
      show (dC.start j idx 0 + (dC.window j 0 : Int)).toNat = (i 0).val
      rw [e0, w0]; omega

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's scatter of ones into zeros is the specification's label counts. -/
theorem ref_counts (l : IVec S8192 32) (i : Fin 8192) :
    Cert.ReferenceIdeal.ReadP.val_main_v11 (F := Ideal) l (ix1 i) = Cert.Spec.counts l (ix2 i 0) := by
  unfold ReadP.val_main_v11
  simp only [Host.scatterAdd, Ideal.hostScatterAdd_def]
  unfold Ideal.hostScatterAdd
  rw [ReadP.val_main_v9_apply, ReadP.val_main_cst_2_apply, Ideal.ofBits_def, Ideal.ofBits_zero_f32, zero_add,
    Finset.sum_filter, sum_idx1]
  unfold Cert.Spec.counts
  refine Finset.sum_congr rfl fun b _ => ?_
  refine if_congr ?_ ?_ rfl
  · rw [dC_resultIdx_iff]
    show (ReadP.val_main_v10 (F := Ideal) l (ix2 b 0)).toInt = ((i : Fin 8192).val : Int) ↔ _
    rw [v10_at, toInt_eq_iff _ _ i.isLt]
  · rw [ReadP.val_main_v8_apply, ReadP.val_main_cst_1_apply, Ideal.ofBits_def, ofBits_one]

/-! ## The label means -/

/-- The floored counts as a column: the reference floors the vector and then makes it a column, the specification
    floors the column. -/
theorem ref_floor (l : IVec S8192 32) :
    ReadP.val_main_v14 (F := Ideal) l
      = maximumf (Cert.Spec.counts l)
          (broadcastInDim Cert.Spec.SBx1 ![] (by decide) (constant (F := Ideal) Cert.Spec.S0 .f32 0x3F800000#32)) := by
  funext i
  obtain ⟨p, c, rfl⟩ : ∃ (p : Fin 8192) (c : Fin 1), i = ix2 p c := ⟨i 0, i 1, eq_ix2 i⟩
  obtain rfl : c = 0 := Subsingleton.elim _ _
  rw [ReadP.val_main_v14_apply, ReadP.val_main_v13_apply, ReadP.val_main_v12_apply, ReadP.val_main_cst_3_apply,
    maximumf_apply, Ideal.maximumf_def, Ideal.ofBits_def]
  have hidx : ReadP.idx_main_v14 (ix2 p (0 : Fin 1)) = ix1 p := by
    funext a
    match a with
    | ⟨0, _⟩ => rfl
  rw [hidx, ref_counts]
  refine congrArg (max _) ?_
  rw [broadcastInDim_apply _ _ _ _ ix0 (fun a => a.elim0), constant_apply]

/-- The reference's label means are the specification's. -/
theorem ref_means (x : FVec Ideal S8192x256 .f32) (l : IVec S8192 32) :
    Cert.ReferenceIdeal.ReadP.val_main_v16 (F := Ideal) x l = Cert.Spec.means (Cert.Spec.normalize x) l := by
  unfold ReadP.val_main_v16 ReadP.val_main_v15
  rw [ref_sums, ref_floor]
  unfold Cert.Spec.means
  rfl

/-! ## The unit prototypes -/

/-- The reference's unit prototypes are the specification's. -/
theorem ref_protos (x : FVec Ideal S8192x256 .f32) (l : IVec S8192 32) :
    Cert.ReferenceIdeal.ReadP.val_main_v21 (F := Ideal) x l
      = Cert.Spec.normalize (Cert.Spec.means (Cert.Spec.normalize x) l) := by
  rw [← ref_means]
  unfold ReadP.val_main_v21 ReadP.val_main_v20 ReadP.val_main_v19 ReadP.val_main_v17 ReadP.val_main_call1_v2
    ReadP.val_main_call1_v1 ReadP.val_main_call1_v0 ReadP.val_main_call1_cst ReadP.val_main_v18 ReadP.val_main_cst_4
  generalize ReadP.val_main_v16 (F := Ideal) x l = y
  unfold Cert.Spec.normalize Cert.Spec.rowNorm
  rfl

end Cert.RefValue

end
-- ==== Proof.Ref2.lean ====
/-
  The reference's second half, read at the extended reals: from the unit rows and the unit prototypes to the loss.
-/
import proofs.«429809_j15006615733567_3_alg».proof.Proof.Spec
import proofs.«429809_j15006615733567_3_alg».proof.Proof.RefRead
import proofs.«429809_j15006615733567_3_alg».proof.Proof.Ref1
import Idealize.ShloMosaic.PureOps.Ideal
import Idealize.ShloMosaic.PureOps.Ideal.Laws
import Idealize.ShloMosaic.PureOps.Reduce
import Idealize.ShloMosaic.Lib.ValueIdx
import Idealize.ShloMosaic.Lib.ValueIdxRank1
import Idealize.ShloMosaic.Lib.StableHlo.Predicate

noncomputable section

namespace Cert.RefValue

open Idealize.ShloMosaic Idealize.ShloMosaic.ValueIdx
open Cert.ReferenceIdeal Cert.ReferenceIdeal.Gen Cert.ReferenceIdeal.ReadP

/-! ## The labels through the wrap-around select and the reshape -/

/-- A label below 8192 is not negative: the wrap-around select keeps it. -/
theorem v4_apply (l : IVec S8192 32) (h : Cert.Spec.InRange l) (i : Fin 8192) (c : Fin 1) :
    val_main_call2_v4 (F := Ideal) l (ix2 i c) = l (ix1 i) := by
  have hl := h (ix1 i)
  have e24 : val_main_v24 (F := Ideal) l (ix2 i c) = l (ix1 i) := by
    rw [val_main_v24_apply]
    exact congrArg l (funext fun a => by match a with | ⟨0, _⟩ => rfl)
  rw [val_main_call2_v4_apply, val_main_call2_v1_apply, val_main_call2_v0_apply, val_main_call2_c_apply, e24]
  have hz : IntOp.cmpi .slt (l (ix1 i)) 0#32 = 0#1 := by
    refine eq_zero_of_ne_one fun h1 => ?_
    have := (StableHlo.Predicate.slt_iff_toNat (a := l (ix1 i)) (b := 0#32) (by omega) (by decide)).1 h1
    simp at this
  rw [hz, select_zero]

theorem v5_apply (l : IVec S8192 32) (h : Cert.Spec.InRange l) (i : Fin 8192) (c d : Fin 1) :
    val_main_call2_v5 (F := Ideal) l (ix3 i c d) = l (ix1 i) := by
  rw [val_main_call2_v5_apply]
  have : idx_main_call2_v5 (ix3 i c d) = ix2 i (0 : Fin 1) := by
    funext a
    match a with
    | ⟨0, _⟩ => exact Fin.ext (by show ((i.val * 1 + c.val) * 1 + d.val) / 1 = i.val; have := c.isLt; have := d.isLt; omega)
    | ⟨1, _⟩ => rfl
  rw [this, v4_apply l h]

/-! ## The bounds mask is all true -/

theorem v11_apply (l : IVec S8192 32) (h : Cert.Spec.InRange l) (i : Fin 8192) (c d : Fin 1) :
    val_main_call2_v11 (F := Ideal) l (ix3 i c d) = 1#1 := by
  have hl := h (ix1 i)
  rw [val_main_call2_v11_apply, val_main_call2_v7_apply, val_main_call2_v10_apply, v5_apply l h,
    val_main_call2_v6_apply, val_main_call2_c_2_apply, val_main_call2_v9_apply, val_main_call2_v8_apply,
    val_main_call2_c_1_apply]
  have h7 : IntOp.cmpi .sge (l (ix1 i)) 0#32 = 1#1 :=
    (StableHlo.Predicate.sge_iff_toNat (a := l (ix1 i)) (b := 0#32) (by omega) (by decide)).2 (by simp)
  have h10 : IntOp.cmpi .sle (l (ix1 i)) 8191#32 = 1#1 :=
    (StableHlo.Predicate.sle_iff_toNat (a := l (ix1 i)) (b := 8191#32) (by omega) (by decide)).2
      (by show (l (ix1 i)).toNat ≤ 8191; omega)
  rw [h7, h10]; rfl

theorem v12_apply (l : IVec S8192 32) (h : Cert.Spec.InRange l) (i : Fin 8192) (c : Fin 1) :
    val_main_call2_v12 (F := Ideal) l (ix2 i c) = 1#1 := by
  unfold val_main_call2_v12
  rw [Host.reduce_eq_fold_single IntOp.andi _ _ _ (by decide : S8192x1x1.Reduces [2] S8192x1)]
  have hf : (val_main_call2_v11 (F := Ideal) l ∘ Shape.Reduces.lift (by decide : S8192x1x1.Reduces [2] S8192x1) (ix2 i c))
      = fun _ => 1#1 := by
    funext k
    rw [Function.comp_apply, eq_ix3 (Shape.Reduces.lift _ (ix2 i c) k)]
    exact v11_apply l h _ _ _
  rw [hf]
  show Finset.fold IntOp.andi (1#1) (fun _ => 1#1) (Finset.univ : Finset (Fin 1)) = 1#1
  rw [Finset.univ_unique, Finset.fold_singleton]; rfl

/-! ## The gather reads each row at its start index -/

theorem gather_apply {α : Type} (y : S8192x8192.Idx → α) (idx : IVec S8192x1x1 32) (i : Fin 8192) (c : Fin 1) :
    Host.gather gather_S8192x8192_S8192x1x1_S8192x1_n_1_0_0_1_2_11 y idx (ix2 i c)
      = y (ix2 i ⟨min (idx (ix3 i c (0 : Fin 1))).toInt.toNat 8191, by omega⟩) := by
  unfold Host.gather
  congr 1
  funext a
  refine Fin.ext ?_
  match a with
  | ⟨0, _⟩ =>
    show gather_S8192x8192_S8192x1x1_S8192x1_n_1_0_0_1_2_11.start (ix2 i c) idx 0
      + gather_S8192x8192_S8192x1x1_S8192x1_n_1_0_0_1_2_11.batchCoord (ix2 i c) 0
      + gather_S8192x8192_S8192x1x1_S8192x1_n_1_0_0_1_2_11.offCoord (ix2 i c) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ gather_S8192x8192_S8192x1x1_S8192x1_n_1_0_0_1_2_11.operandBatchingDims from List.mem_singleton.mpr rfl)]
    rfl
  | ⟨1, _⟩ =>
    show gather_S8192x8192_S8192x1x1_S8192x1_n_1_0_0_1_2_11.start (ix2 i c) idx 1
      + gather_S8192x8192_S8192x1x1_S8192x1_n_1_0_0_1_2_11.batchCoord (ix2 i c) 1
      + gather_S8192x8192_S8192x1x1_S8192x1_n_1_0_0_1_2_11.offCoord (ix2 i c) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8192_S8192x1x1_S8192x1_n_1_0_0_1_2_11.startIndexMap from List.mem_singleton.mpr rfl)]
    have hsi : gather_S8192x8192_S8192x1x1_S8192x1_n_1_0_0_1_2_11.siIdx (ix2 i c)
        ⟨List.idxOf (1 : Fin 2) gather_S8192x8192_S8192x1x1_S8192x1_n_1_0_0_1_2_11.startIndexMap,
          List.idxOf_lt_length_iff.2 (List.mem_singleton.mpr rfl)⟩ = ix3 i c (0 : Fin 1) := by
      funext b; refine Fin.ext ?_
      match b with
      | ⟨0, _⟩ => rfl
      | ⟨1, _⟩ => rfl
      | ⟨2, _⟩ => rfl
    rw [hsi]
    rfl

/-! ## The cosines, the cosine at the label, the lowered diagonal, the row maximum -/

/-- The product of the unit rows and the transposed prototypes holds the cosines. -/
theorem v23_apply (x : FVec Ideal S8192x256 .f32) (l : IVec S8192 32) (i j : Fin 8192) :
    val_main_v23 (F := Ideal) x l (ix2 i j)
      = Cert.Spec.cos (val_main_v4 (F := Ideal) x) (val_main_v21 (F := Ideal) x l) i j := by
  rw [val_main_v23_apply]
  unfold Cert.Spec.cos
  refine Finset.sum_congr rfl fun d _ => ?_
  rw [val_main_v22_apply]
  have e1 : lidx_main_v23 (ix2 i j) d = ix2 i d :=
    funext fun a => by match a with | ⟨0, _⟩ => rfl | ⟨1, _⟩ => rfl
  have e2 : idx_main_v22 (ridx_main_v23 (ix2 i j) d) = ix2 j d :=
    funext fun a => by match a with | ⟨0, _⟩ => rfl | ⟨1, _⟩ => rfl
  rw [e1, e2]

/-- take_along_axis reads each row of the cosines at the row's label. -/
theorem v26_apply (x : FVec Ideal S8192x256 .f32) (l : IVec S8192 32) (h : Cert.Spec.InRange l) (i : Fin 8192) :
    val_main_v26 (F := Ideal) x l (ix1 i)
      = val_main_v23 (F := Ideal) x l (ix2 i ⟨(l (ix1 i)).toNat, h (ix1 i)⟩) := by
  have hl := h (ix1 i)
  rw [val_main_v26_apply]
  have e : idx_main_v26 (ix1 i) = ix2 i (0 : Fin 1) := funext fun a => by
    match a with
    | ⟨0, _⟩ => exact Fin.ext (Nat.div_one _)
    | ⟨1, _⟩ => rfl
  rw [e, val_main_v25_apply, v12_apply l h, select_one]
  unfold val_main_call2_v13
  rw [gather_apply]
  have hk : min (val_main_call2_v5 (F := Ideal) l (ix3 i (0 : Fin 1) (0 : Fin 1))).toInt.toNat 8191 = (l (ix1 i)).toNat := by
    rw [v5_apply l h, StableHlo.Predicate.toInt_eq_toNat_of_lt (by omega), Int.toNat_natCast]
    exact Nat.min_eq_left (by omega)
  exact congrArg (fun k => val_main_v23 (F := Ideal) x l (ix2 i k)) (Fin.ext hk)

theorem ofNat_inj_small {a b : Nat} (ha : a < 2 ^ 32) (hb : b < 2 ^ 32) (e : BitVec.ofNat 32 a = BitVec.ofNat 32 b) :
    a = b := by
  have := congrArg BitVec.toNat e
  rwa [BitVec.toNat_ofNat, BitVec.toNat_ofNat, Nat.mod_eq_of_lt ha, Nat.mod_eq_of_lt hb] at this

/-- The identity-matrix term lowers the diagonal by the margin and leaves the rest. -/
theorem v35_apply (x : FVec Ideal S8192x256 .f32) (l : IVec S8192 32) (i j : Fin 8192) :
    val_main_v35 (F := Ideal) x l (ix2 i j)
      = if i = j then val_main_v23 (F := Ideal) x l (ix2 i j) - Cert.Spec.margin
        else val_main_v23 (F := Ideal) x l (ix2 i j) := by
  rw [val_main_v35_apply, val_main_v34_apply, val_main_v33_apply, val_main_cst_5_apply, val_main_v32_apply,
    val_main_v31_apply, val_main_v30_apply, val_main_v27_apply, val_main_v29_apply, val_main_c_apply,
    val_main_v28_apply]
  show val_main_v23 (F := Ideal) x l (ix2 i j)
      - Cert.Spec.margin * (((IntOp.cmpi .eq (BitVec.ofNat 32 i.val + 0#32) (BitVec.ofNat 32 j.val)).toNat : ℝ) : EReal) = _
  rw [BitVec.add_zero]
  by_cases e : i = j
  · rw [if_pos e, e, StableHlo.Predicate.cmpi_eq_iff.2 rfl]
    simp
  · rw [if_neg e]
    have hz : IntOp.cmpi .eq (BitVec.ofNat 32 i.val) (BitVec.ofNat 32 j.val) = 0#1 :=
      eq_zero_of_ne_one fun h1 => e (Fin.ext (ofNat_inj_small (by have := i.isLt; omega) (by have := j.isLt; omega)
        (StableHlo.Predicate.cmpi_eq_iff.1 h1)))
    rw [hz]
    simp

/-- The maximum over a row from minus infinity is the supremum of the row. -/
theorem v36_apply (x : FVec Ideal S8192x256 .f32) (l : IVec S8192 32) (i : Fin 8192) :
    val_main_v36 (F := Ideal) x l (ix1 i)
      = Finset.univ.sup fun j : Fin 8192 => val_main_v35 (F := Ideal) x l (ix2 i j) := by
  unfold val_main_v36
  rw [Host.reduce_eq_fold_single (FloatOps.maximumf (F := Ideal) (φ := .f32)) _ _ _
    (by decide : S8192x8192.Reduces [1] S8192), val_main_cst_6_apply]
  have hf : (val_main_v35 (F := Ideal) x l ∘ Shape.Reduces.lift (by decide : S8192x8192.Reduces [1] S8192) (ix1 i))
      = fun j : Fin 8192 => val_main_v35 (F := Ideal) x l (ix2 i j) := by
    funext k
    rw [Function.comp_apply]
    exact congrArg _ (funext fun a => by match a with | ⟨0, _⟩ => rfl | ⟨1, _⟩ => rfl)
  rw [hf]
  have hbot : FloatOps.ofBits (F := Ideal) .f32 0xFF800000#32 = (⊥ : EReal) := by
    show Ideal.ofBits .f32 0xFF800000#32 = ⊥
    simp [Ideal.ofBits, Ideal.ieee]
  rw [hbot]
  rfl

/-! ## The hinge, its sum, the mean -/

/-- One row's hinge: the row maximum less the cosine at the label plus the margin, floored at zero. -/
theorem v40_apply (x : FVec Ideal S8192x256 .f32) (l : IVec S8192 32) (h : Cert.Spec.InRange l) (i : Fin 8192) :
    val_main_v40 (F := Ideal) x l (ix1 i)
      = Cert.Spec.hinge (val_main_v4 (F := Ideal) x) (val_main_v21 (F := Ideal) x l) l i := by
  rw [val_main_v40_apply, val_main_v39_apply, val_main_v37_apply, val_main_v38_apply, val_main_cst_7_apply,
    val_main_call3_v0_apply, val_main_call3_cst_apply, v36_apply, v26_apply x l h]
  unfold Cert.Spec.hinge Cert.Spec.neg Cert.Spec.pos
  have hneg : (Finset.univ.sup fun j : Fin 8192 => val_main_v35 (F := Ideal) x l (ix2 i j))
      = Finset.univ.sup fun j : Fin 8192 =>
          if i = j then Cert.Spec.cos (val_main_v4 (F := Ideal) x) (val_main_v21 (F := Ideal) x l) i j - Cert.Spec.margin
          else Cert.Spec.cos (val_main_v4 (F := Ideal) x) (val_main_v21 (F := Ideal) x l) i j := by
    congr 1; funext j; rw [v35_apply, v23_apply]
  have hpos : val_main_v23 (F := Ideal) x l (ix2 i ⟨(l (ix1 i)).toNat, h (ix1 i)⟩)
      = ∑ j : Fin 8192, if (l (ix1 i)).toNat = j.val
          then Cert.Spec.cos (val_main_v4 (F := Ideal) x) (val_main_v21 (F := Ideal) x l) i j else 0 := by
    rw [v23_apply, Finset.sum_eq_single (⟨(l (ix1 i)).toNat, h (ix1 i)⟩ : Fin 8192)
      (fun j _ hj => if_neg fun e => hj (Fin.ext e.symm)) (fun hn => absurd (Finset.mem_univ _) hn)]
    exact (if_pos rfl).symm
  rw [hneg, hpos]
  show max (_ - _ + Ideal.ofBits .f32 0x3E4CCCCD#32) (Ideal.ofBits .f32 0x00000000#32) = _
  rw [Ideal.ofBits_zero_f32]
  rfl

/-- The sum of the hinges from zero. -/
theorem v41_apply (x : FVec Ideal S8192x256 .f32) (l : IVec S8192 32) (h : Cert.Spec.InRange l) (k : S_.Idx) :
    val_main_v41 (F := Ideal) x l k
      = ∑ i : Fin 8192, Cert.Spec.hinge (val_main_v4 (F := Ideal) x) (val_main_v21 (F := Ideal) x l) l i := by
  rw [val_main_v41_apply, val_main_cst_8_apply]
  show Ideal.ofBits .f32 0x00000000#32 + _ = _
  rw [Ideal.ofBits_zero_f32, zero_add, ← Equiv.sum_comp (idxEquiv1 (n := 8192)).symm]
  exact Finset.sum_congr rfl fun i _ => v40_apply x l h i

/-- THE REFERENCE'S RESULT is the specification's loss. -/
theorem ref_loss (x : FVec Ideal S8192x256 .f32) (l : IVec S8192 32) (h : Cert.Spec.InRange l) :
    Cert.ReferenceIdeal.ReadP.val_main_v42 (F := Ideal) x l = Cert.Spec.loss x l := by
  funext k
  rw [val_main_v42_apply, val_main_cst_9_apply, v41_apply x l h, ref_e, ref_protos]
  rfl

end Cert.RefValue

end
-- ==== Proof.PreDecode.lean ====
/-
  The printed precondition, read back. It is the conjunction of three and-reductions: every embedding is
  finite, every label is at least 0 read signed, every label is below 8192 read signed. When the whole is
  the word 1, each reduction is 1, so each compared element is 1; a 32-bit word that is at least 0 and below
  8192 read signed is below 8192 read unsigned. Hence every label names one of the 8192 rows.
-/
import proofs.«429809_j15006615733567_3_alg».proof.Defs
import proofs.«429809_j15006615733567_3_alg».proof.Proof.Gen.Pre_finite_inputs
import proofs.«429809_j15006615733567_3_alg».proof.Proof.Spec
import Idealize.ShloMosaic.Lib.Affine
import Idealize.ShloMosaic.Lib.ReduceAll
import Idealize.ShloMosaic.Lib.ValueIdx

noncomputable section

namespace Cert.PreDecode

open Idealize.ShloMosaic Idealize.SL.Sem

/-- The rank-0 shape has one index. -/
instance : Subsingleton Cert.Pre_finite_inputs.S_.Idx := ⟨fun a b => funext fun d => d.elim0⟩

/-- A 32-bit word in [0, 8192) read signed is below 8192 read unsigned. -/
theorem toNat_lt_of_signed (w : BitVec 32) (h0 : (0#32 : BitVec 32).toInt ≤ w.toInt)
    (h1 : w.toInt < (8192#32 : BitVec 32).toInt) : w.toNat < 8192 := by
  have e0 : (0#32 : BitVec 32).toInt = 0 := by decide
  have e1 : (8192#32 : BitVec 32).toInt = 8192 := by decide
  rw [e0] at h0
  rw [e1] at h1
  have hc := BitVec.toInt_eq_toNat_cond w
  have hlt := w.isLt
  split at hc <;> omega

/-- The precondition all ones: every label is in range. -/
theorem inRange_of_fn {F : FTy → Type} [FloatOps F] (x : FVec F Cert.Pre_finite_inputs.S8192x256 .f32)
    (l : IVec Cert.Pre_finite_inputs.S8192 32)
    (h : Cert.Pre_finite_inputs.fn (F := F) x l = (fun _ => 1#1)) : Cert.Spec.InRange l := by
  intro i
  have e := congrFun h ValueIdx.ix0
  dsimp only [Cert.Pre_finite_inputs.fn] at e
  simp only [andi] at e
  rw [IntOp.andi_eq_one, IntOp.andi_eq_one] at e
  obtain ⟨⟨-, hge⟩, hlt⟩ := e
  have a := Host.reduce_andi_all _ _ _ _ _ hge i
  have b := Host.reduce_andi_all _ _ _ _ _ hlt i
  simp only [cmpi, broadcastInDim, constantI] at a b
  rw [IntOp.cmpi_sge] at a
  rw [IntOp.cmpi_slt] at b
  exact toNat_lt_of_signed _ a b

/-- The kernel program's precondition: on every device the labels it is launched with are in range. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InRange (m ((c.tc : Thread Cert.KernelIdeal.nD Cert.KernelIdeal.τ).loc Cert.KernelIdeal.main_arg1)) :=
  inRange_of_fn (F := Ideal) _ _ (hpre c)

end Cert.PreDecode

end
-- ==== Proof.lean ====
/-
  The certificate's claims, assembled.

  Both programs compute one number from the embeddings x and the labels l: the mean over the rows of
  max (neg i - pos i + margin, 0), where the rows are first scaled to unit length, the prototypes are the unit-scaled
  label means of the rows, cos is the matrix of their inner products, pos i its entry at the row's own label and neg i
  its row maximum with the diagonal lowered by the margin (Proof/Spec.lean states it). The kernel program forms the
  label sums and sizes as a one-hot matrix product accumulated block by block, and the positive entry and the row
  maximum tile by tile with a masked sum and a running maximum; the reference scatters, gathers and reduces whole
  arrays. On the extended reals these are the same sums and suprema, re-bracketed; the labels must lie in
  [0, 8192) (the reference indexes out of range otherwise), which the precondition states.

  The three frames: each kernel region runs under the launch theorem for programs of several regions, its body
  stepped once per case of its conditions; the reference is a host program, run operation by operation.
-/
import proofs.«429809_j15006615733567_3_alg».proof.Defs
import proofs.«429809_j15006615733567_3_alg».proof.Proof.Gen.Kernel
import proofs.«429809_j15006615733567_3_alg».proof.Proof.Gen.KernelIdeal
import proofs.«429809_j15006615733567_3_alg».proof.Proof.Gen.ReferenceIdeal
import proofs.«429809_j15006615733567_3_alg».proof.Proof.Gen.Pre_finite_inputs
import proofs.«429809_j15006615733567_3_alg».proof.Proof.K.Run
import proofs.«429809_j15006615733567_3_alg».proof.Proof.KI.Run
import proofs.«429809_j15006615733567_3_alg».proof.Proof.KI.ValMain
import proofs.«429809_j15006615733567_3_alg».proof.Proof.RefRun
import proofs.«429809_j15006615733567_3_alg».proof.Proof.RefRead
import proofs.«429809_j15006615733567_3_alg».proof.Proof.Ref2
import proofs.«429809_j15006615733567_3_alg».proof.Proof.PreDecode

noncomputable section

namespace Cert.Proof

open Idealize.ShloMosaic Idealize.ShloMosaic.TcCoe Idealize.SL.Sem

/-- The word-level program runs to the end and leaves its arguments as launched. -/
theorem frame_k : @Cert.frame_Kernel Cert.Kernel.Gen.facts Cert.Pre_finite_inputs.Gen.facts :=
  fun m ρ _ => Cert.Kernel.Hand.frame m ρ

/-- So does the idealized program. -/
theorem frame_ki : @Cert.frame_KernelIdeal Cert.KernelIdeal.Gen.facts Cert.Pre_finite_inputs.Gen.facts :=
  fun m ρ _ => Cert.KernelIdeal.Hand.frame m ρ

/-- The reference is a host program: its run, the result dropped. -/
theorem frame_ri : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.ValueP.run (F := Ideal) m ρ)

/-- From memories agreeing on the arguments both programs end with the specification's loss of the arguments:
    the kernel program's last valuation read at the result buffer, the reference's composed term; the labels are in
    range by the precondition. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v22 (by decide))).trans
        (Cert.KernelIdeal.Hand.result_eq m ρ c (Cert.PreDecode.inRange_of_pre m hpre c))
    · exact (h c _ (Cert.KernelIdeal.Hand.mem_uc Cert.KernelIdeal.main_arg0 (by decide))).trans
        (Cert.KernelIdeal.Hand.W10_main_arg0 m ρ c)
    · exact (h c _ (Cert.KernelIdeal.Hand.mem_uc Cert.KernelIdeal.main_arg1 (by decide))).trans
        (Cert.KernelIdeal.Hand.W10_main_arg1 m ρ c)
  · refine (θ_run Cert.ReferenceIdeal.defs _ _).mono (fun _ h c => ⟨?_, (h c).2⟩)
      (Cert.ReferenceIdeal.ValueP.run (F := Ideal) m' ρ')
    have hin := Cert.PreDecode.inRange_of_pre m hpre c
    rw [(h c).1, Cert.ReferenceIdeal.ReadP.val_main_v42_eq, (hagree c).1, (hagree c).2]
    exact Cert.RefValue.ref_loss _ _ hin

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
